-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096 : Shape := ⟨2, ![8, 4096]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_v13 : IVec S_ 1) (main_v16 : IVec S8x4096x128 1) : IVec S_ 1 :=
  let main_c_5 : IVec S_ 1 := constantI S_ 1 1#1
  let main_v17 : IVec S_ 1 := (fun x v => Host.reduce IntOp.andi x v reducesTo_S8x4096x128_S_d0_1_2 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  main_v23

def fn {F : FTy → Type} [FloatOps F] (main_arg0 : FVec F S8x4096x128 .f32) (main_arg1 : FVec F S8x4096x128 .f32) (main_arg2 : FVec F S8x4096x128 .f32) (main_arg3 : FVec F S8x4096x128 .f32) (main_arg4 : FVec F S8x4096 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  let main_v14 : FVec F S8x4096x128 .f32 := Host.absf main_arg3
  let main_cst_4 : FVec F S_ .f32 := constant S_ .f32 0x7F800000#32
  let main_v15 : FVec F S8x4096x128 .f32 := broadcastInDim S8x4096x128 ![] bcast_S_S8x4096x128 main_cst_4
  let main_v16 : IVec S8x4096x128 1 := cmpf .olt main_v14 main_v15
  fn_part1 (F := F) main_arg4 main_v13 main_v16
-- ==== Kernel.lean ====
abbrev S8x4096x128 : Shape := ⟨3, ![8, 4096, 128]⟩
abbrev S8x4096 : Shape := ⟨2, ![8, 4096]⟩
abbrev S8x4096x1 : Shape := ⟨3, ![8, 4096, 1]⟩
abbrev S8x8x128 : Shape := ⟨3, ![8, 8, 128]⟩
abbrev S1x1024x128 : Shape := ⟨3, ![1, 1024, 128]⟩
abbrev S1x512x128 : Shape := ⟨3, ![1, 512, 128]⟩
abbrev S1x1024x1 : Shape := ⟨3, ![1, 1024, 1]⟩
abbrev S1x8x128 : Shape := ⟨3, ![1, 8, 128]⟩
abbrev S1024x1 : Shape := ⟨2, ![1024, 1]⟩
abbrev S1x4096 : Shape := ⟨2, ![1, 4096]⟩
abbrev S1x1 : Shape := ⟨2, ![1, 1]⟩
abbrev S1024x128 : Shape := ⟨2, ![1024, 128]⟩
abbrev S512x128 : Shape := ⟨2, ![512, 128]⟩
abbrev S1024x384 : Shape := ⟨2, ![1024, 384]⟩
abbrev S512x384 : Shape := ⟨2, ![512, 384]⟩
abbrev S1024x512 : Shape := ⟨2, ![1024, 512]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S8x128 : Shape := ⟨2, ![8, 128]⟩
abbrev S8x1x1 : Shape := ⟨3, ![8, 1, 1]⟩
abbrev S8 : Shape := ⟨1, ![8]⟩

abbrev nBuf : Space → Nat
  | .hbm => 9
  | .vmem => 16
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S8x4096x128, .f32⟩
  | .hbm, ⟨4, _⟩ => ⟨S8x4096, .f32⟩
  | .hbm, ⟨5, _⟩ => ⟨S8x4096x1, .f32⟩
  | .hbm, ⟨6, _⟩ => ⟨S8x8x128, .f32⟩
  | .hbm, ⟨7, _⟩ => ⟨S8x1x1, .f32⟩
  | .hbm, ⟨8, _⟩ => ⟨S8, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1024x1, .f32⟩
  | .local _ .vmem, ⟨9, _⟩ => ⟨S1x1024x1, .f32⟩
  | .local _ .vmem, ⟨10, _⟩ => ⟨S1x8x128, .f32⟩
  | .local _ .vmem, ⟨11, _⟩ => ⟨S1x8x128, .f32⟩
  | .local _ .vmem, ⟨12, _⟩ => ⟨S1024x1, .f32⟩
  | .local _ .vmem, ⟨13, _⟩ => ⟨S1x4096, .f32⟩
  | .local _ .vmem, ⟨14, _⟩ => ⟨S1x1, .f32⟩
  | .local _ .vmem, ⟨15, _⟩ => ⟨S1x1, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c512_i32 : BitVec 32 := 512#32
  let v60 : BitVec 32 := Scalar.muli arg2 c512_i32
  v60
def k0_off1 (i : grid0.Coords) : Fin 2 → Nat :=
  let c0_27 : Index := 0#32
  let arg2 : BitVec 32 := BitVec.ofNat 32 (i 2).val
  let c512_i32 : BitVec 32 := 512#32
  let v60 : BitVec 32 := Scalar.muli arg2 c512_i32
  let v61 : BitVec 32 := v60
  let v62 : Index := Scalar.indexCast v61
  ![0, v62.toNat]
def k0_cond3 (i : grid0.Coords) : BitVec 1 :=
  let arg1 : BitVec 32 := BitVec.ofNat 32 (i 1).val
  let c3_i32 : BitVec 32 := 3#32
  let v74 : BitVec 1 := Scalar.cmpi .eq arg1 c3_i32
  let v75 : BitVec 32 := Scalar.extui v74
  let c0_i32_31 : BitVec 32 := 0#32
  let v76 : BitVec 1 := Scalar.cmpi .ne v75 c0_i32_31
  v76

def k0_off2 (i : grid0.Coords) : Fin 2 → Nat :=
  let c0_35 : Index := 0#32
  let arg2 : BitVec 32 := BitVec.ofNat 32 (i 2).val
  let c512_i32 : BitVec 32 := 512#32
  let v60 : BitVec 32 := Scalar.muli arg2 c512_i32
  let v61 : BitVec 32 := v60
  let v82 : Index := Scalar.indexCast v61
  ![0, v82.toNat]
def k0_cond4 (i : grid0.Coords) : BitVec 1 :=
  let arg1 : BitVec 32 := BitVec.ofNat 32 (i 1).val
  let c3_i32_32 : BitVec 32 := 3#32
  let v77 : BitVec 1 := Scalar.cmpi .eq arg1 c3_i32_32
  let arg2 : BitVec 32 := BitVec.ofNat 32 (i 2).val
  let c7_i32_33 : BitVec 32 := 7#32
  let v78 : BitVec 1 := Scalar.cmpi .eq arg2 c7_i32_33
  let v79 : BitVec 1 := Scalar.andi v77 v78
  let v80 : BitVec 32 := Scalar.extui v79
  let c0_i32_34 : BitVec 32 := 0#32
  let v81 : BitVec 1 := Scalar.cmpi .ne v80 c0_i32_34
  v81

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S8x4096_S8x4096x1_0_1 : S8x4096.BroadcastsInDim S8x4096x1 (![0, 1] : Fin 2 → Fin S8x4096x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  concatenates_S1024x128_S1024x128_S1024x128_S1024x384_d1 : Shape.Concatenates [S1024x128, S1024x128, S1024x128] S1024x384 1
  concatenates_S512x128_S512x128_S512x128_S512x384_d1 : Shape.Concatenates [S512x128, S512x128, S512x128] S512x384 1
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  reduces_S1024x512_S1024 : S1024x512.Reduces [1] S1024
  reduces_S1024x512_S512 : S1024x512.Reduces [0] S512
  shapeCasts_S512_S1x512 : S512.ShapeCasts S1x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x512 : 0 < S1x512.numel
  shapeCasts_S1x512_S1x512 : S1x512.ShapeCasts S1x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  reduces_S1024x1_S1 : S1024x1.Reduces [0] S1
  shapeCasts_S1_S1x1 : S1.ShapeCasts S1x1
  reduces_S1x512_S1 : S1x512.Reduces [1] S1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  dot_S1024x384_S512x384_S1024x512_1_1_0_0_n_n_wf : DotDims.WF S1024x384 S512x384 S1024x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x512.size a ≤ S1x4096.size a
  k0_off2_inb : ∀ i : grid0.Coords, ∀ (k0_h3 : k0_cond3 i = 1#1), ∀ a, (k0_off2 i) a + S1x512.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x4096x128.size a
  hwx0_0 : ∀ i : grid0.Coords, EltTy.bits .f32 = 32 ∨ (Rect.block (s := S8x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S8x4096x128.size a
  hwx0_2 : ∀ i : grid0.Coords, EltTy.bits .f32 = 32 ∨ (Rect.block (s := S8x4096x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S8x4096x128.size a
  hwx0_3 : ∀ i : grid0.Coords, EltTy.bits .f32 = 32 ∨ (Rect.block (s := S8x4096x128) S1x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x4096x1.size a
  hwx0_4 : ∀ i : grid0.Coords, EltTy.bits .f32 = 32 ∨ (Rect.block (s := S8x4096x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)

variable [Facts₀]

def dot_S1024x384_S512x384_S1024x512_1_1_0_0_n_n : DotDims S1024x384 S512x384 S1024x512 where
  lhsContracting := [1]
  rhsContracting := [1]
  lhsNonContracting := [0]
  rhsNonContracting := [0]
  lhsBatch := []
  rhsBatch := []
  wf := dot_S1024x384_S512x384_S1024x512_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S8x4096x128, .f32⟩
  | .hbm, ⟨4, _⟩ => ⟨S8x4096, .f32⟩
  | .hbm, ⟨5, _⟩ => ⟨S8x4096x128, .f32⟩
  | .hbm, ⟨6, _⟩ => ⟨S8x4096x128, .f32⟩
  | .hbm, ⟨7, _⟩ => ⟨S_, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096x128, .f32⟩
  | .hbm, ⟨12, _⟩ => ⟨S8x4096x4096, .f32⟩
  | .hbm, ⟨13, _⟩ => ⟨S8x4096x128, .f32⟩
  | .hbm, ⟨14, _⟩ => ⟨S8x4096x4096, .f32⟩
  | .hbm, ⟨15, _⟩ => ⟨S8x4096x128, .f32⟩
  | .hbm, ⟨16, _⟩ => ⟨S8x4096x4096, .f32⟩
  | .hbm, ⟨17, _⟩ => ⟨S8x4096x128, .f32⟩
  | .hbm, ⟨18, _⟩ => ⟨S8x4096x128, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x1x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x1x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S_, .f32⟩
  | .hbm, ⟨49, _⟩ => ⟨S8, .f32⟩
  | .hbm, ⟨50, _⟩ => ⟨S8, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S8_d1 : S8x4096.ReducesTo [1] S8
  reducesTo_S8x4096x4096_S8x4096_d2 : S8x4096x4096.ReducesTo [2] S8x4096
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.Step.lean ====
/-
  The kernel body as a function on the contents of its four carried scratch buffers.

  The grid is (b, i, j) = (8, 4, 8), walked in order; point t has b = t / 32, i = t / 8 % 4, j = t % 8.  At one
  point the body reads the row tile i of the first family (means, log-variances, the mask's column) and the column
  tile j of the second family, forms the 1024 x 512 tile of pairwise divergences, and updates

    * the row scratch (1024 x 1): the running minimum over the column tiles seen so far in this row tile (restarted
      at j = 0),
    * the column scratch (1 x 4096), on its slice j: the running minimum over the row tiles seen so far (restarted
      at i = 0),
    * the two 1 x 1 accumulators: cleared at (i, j) = (0, 0); the second gains the masked sum of the row scratch at
      j = 7, the first the sum of slice j of the column scratch at i = 3,

  and at (i, j) = (3, 7) stores the sum of the two accumulators, broadcast, into the result block of batch b.
  Everything here is stated for any float instance.
-/
import proofs.«414573_j7155415515634_3_alg».proof.Proof.Gen.KernelIdeal
import proofs.«414573_j7155415515634_3_alg».proof.Proof.Gen.KernelIdeal.Skeleton
import proofs.«414573_j7155415515634_3_alg».proof.Proof.Gen.KernelIdeal.Launch
import proofs.«414573_j7155415515634_3_alg».proof.Proof.Gen.KernelIdeal.Points
import proofs.«414573_j7155415515634_3_alg».proof.Proof.Gen.KernelIdeal.Frame
import Idealize.ShloMosaic.Lib.Writes
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The four branch conditions, as the body computes them from the grid coordinates -/

/-- (i, j) = (0, 0): the accumulators are cleared. -/
abbrev C1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- j = 7: the row scratch is final for this row tile. -/
abbrev C2 (i : grid0.Coords) : Prop :=
  Scalar.cmpi .ne (Scalar.extui (Scalar.cmpi .eq (BitVec.ofNat 32 (i 2).val) 7#32)) 0#32 = 1#1
/-- i = 3: slice j of the column scratch is final. -/
abbrev C3 (i : grid0.Coords) : Prop := k0_cond3 i = 1#1
/-- (i, j) = (3, 7): the batch's result is stored. -/
abbrev C4 (i : grid0.Coords) : Prop := k0_cond4 i = 1#1

/-! ## The scratch memrefs and the rectangles the body goes through -/

abbrev xM : Memref sig .tc .vmem S1024x1 .f32 := Memref.whole cc0_scratch0
abbrev yM : Memref sig .tc .vmem S1x4096 .f32 := Memref.whole cc0_scratch1
abbrev l1M : Memref sig .tc .vmem S1x1 .f32 := Memref.whole cc0_scratch2
abbrev l2M : Memref sig .tc .vmem S1x1 .f32 := Memref.whole cc0_scratch3

/-- Slice j of the column scratch: 512 lanes from lane 512 j. -/
abbrev rY (i : grid0.Coords) : Rect S1x4096 := Rect.unit (s := S1x4096) (k0_off1 i) S1x512.size (k0_off1_inb i)

/-- The contents of the four scratch buffers. -/
structure St (F : FTy → Type) [FloatOps F] where
  x : Vec F S1024x1 .f32
  y : Vec F S1x4096 .f32
  l1 : Vec F S1x1 .f32
  l2 : Vec F S1x1 .f32

/-! ## One point -/

section Point

variable (i : grid0.Coords) (x0 x1 : Vec F S1x1024x128 .f32) (x2 x3 : Vec F S1x512x128 .f32) (x4 : Vec F S1x1024x1 .f32)

/-- The row scratch after the point: the tile's row minima, or at j > 0 their minimum with what it held. -/
def stepX (ax : Vec F S1024x1 .f32) : Vec F S1024x1 .f32 :=
  k0_pay15 (BitVec.ofNat 32 (i 2).val) (k0_pay10 x0 x1 x2 x3) (k0_pay11 x1) (k0_pay12 x3) (k0_pay13 x2 x3) ax

/-- Slice j of the column scratch after the point, from what the slice held: the tile's column minima, or at i > 0
    their minimum with it. -/
def stepYs (ys : Vec F S1x512 .f32) : Vec F S1x512 .f32 :=
  k0_pay16 (BitVec.ofNat 32 (i 1).val) (k0_pay10 x0 x1 x2 x3) (k0_pay11 x1) (k0_pay12 x3) (k0_pay13 x2 x3) ys

/-- Slice j of a column-scratch contents. -/
def ySl (ay : Vec F S1x4096 .f32) : Vec F S1x512 .f32 := View.ld ay (rY i)

/-- The column scratch after the point: slice j replaced. -/
def stepY (ay : Vec F S1x4096 .f32) : Vec F S1x4096 .f32 :=
  yM.view.read (Elt F) (yM.view.writes (Elt F) ((Memref.isWhole_whole cc0_scratch1).unread ay) [⟨rY i, stepYs i x0 x1 x2 x3 (ySl i ay)⟩])

open Classical in
/-- The first accumulator after the point. -/
def stepL1 (ay : Vec F S1x4096 .f32) (a1 : Vec F S1x1 .f32) : Vec F S1x1 .f32 :=
  let b1 : Vec F S1x1 .f32 := if C1 i then k0_pay3 else a1
  if C3 i then k0_pay1 (stepYs i x0 x1 x2 x3 (ySl i ay)) b1 else b1

open Classical in
/-- The second accumulator after the point. -/
def stepL2 (ax : Vec F S1024x1 .f32) (a2 : Vec F S1x1 .f32) : Vec F S1x1 .f32 :=
  let b2 : Vec F S1x1 .f32 := if C1 i then k0_pay4 else a2
  if C2 i then k0_pay17 (stepX i x0 x1 x2 x3 ax) x4 b2 else b2

/-- The four scratch buffers after the point. -/
def stepSt (s : St F) : St F where
  x := stepX i x0 x1 x2 x3 s.x
  y := stepY i x0 x1 x2 x3 s.y
  l1 := stepL1 i x0 x1 x2 x3 s.y s.l1
  l2 := stepL2 i x0 x1 x2 x3 x4 s.x s.l2

/-- What a point with (i, j) = (3, 7) stores into the result's block. -/
def outOf (s : St F) : Vec F S1x8x128 .f32 :=
  k0_pay2 (stepL1 i x0 x1 x2 x3 s.y s.l1) (stepL2 i x0 x1 x2 x3 x4 s.x s.l2)

end Point

/-! ## The run of points -/

variable (m : (ℓ : Loc nD τ sig) → Buf (Elt F) ℓ)

/-- The input windows' blocks at point t, at their literal types. -/
abbrev b0 (c : Dev nD) (t : Fin cfg0.N) : Vec F S1x1024x128 .f32 := iblk m c 0 t
abbrev b1 (c : Dev nD) (t : Fin cfg0.N) : Vec F S1x1024x128 .f32 := iblk m c 1 t
abbrev b2 (c : Dev nD) (t : Fin cfg0.N) : Vec F S1x512x128 .f32 := iblk m c 2 t
abbrev b3 (c : Dev nD) (t : Fin cfg0.N) : Vec F S1x512x128 .f32 := iblk m c 3 t
abbrev b4 (c : Dev nD) (t : Fin cfg0.N) : Vec F S1x1024x1 .f32 := iblk m c 4 t

/-- The scratch contents after point t from contents s before it. -/
def stepAt (c : Dev nD) (t : Fin cfg0.N) (s : St F) : St F :=
  stepSt (grid0.coords t) (b0 m c t) (b1 m c t) (b2 m c t) (b3 m c t) (b4 m c t) s

/-- The scratch contents before point k, from contents s0 at the region's entry. -/
def stFrom (c : Dev nD) (s0 : St F) : ℕ → St F
  | 0 => s0
  | k + 1 => if h : k < cfg0.N then stepAt m c ⟨k, h⟩ (stFrom c s0 k) else stFrom c s0 k

/-- What point t stores into the result's block when (i, j) = (3, 7), from contents s0 at the region's entry. -/
def outAt (c : Dev nD) (s0 : St F) (t : Fin cfg0.N) : Vec F S1x8x128 .f32 :=
  outOf (grid0.coords t) (b0 m c t) (b1 m c t) (b2 m c t) (b3 m c t) (b4 m c t) (stFrom m c s0 t.val)

theorem stFrom_succ (c : Dev nD) (s0 : St F) (t : Fin cfg0.N) :
    stFrom m c s0 (t.val + 1) = stepAt m c t (stFrom m c s0 t.val) := by
  show (if h : t.val < cfg0.N then stepAt m c ⟨t.val, h⟩ (stFrom m c s0 t.val) else _) = _
  rw [dif_pos t.isLt]

/-- Contents nothing depends on: the entry contents the certificate's data are stated from. -/
def junkSt : St F :=
  ⟨fun _ => (Elt.nonempty F .f32).some, fun _ => (Elt.nonempty F .f32).some, fun _ => (Elt.nonempty F .f32).some, fun _ => (Elt.nonempty F .f32).some⟩

end Cert.KernelIdeal.Hand

end
-- ==== Proof.Sched.lean ====
/-
  The grid's points in closed form: point t of the 8 x 4 x 8 grid is batch t / 32, row tile t / 8 % 4, column tile
  t % 8; and at which points each of the body's four branches is taken.
-/
import proofs.«414573_j7155415515634_3_alg».proof.Proof.Step

noncomputable section

namespace Cert.KernelIdeal.Hand

open Cert.KernelIdeal Cert.KernelIdeal.Gen
open Idealize.ShloMosaic

theorem N_256 : cfg0.N = 256 := N_0

theorem coords_eq : ∀ t : Fin cfg0.N, ((grid0.coords t) 0).val = t.val / 32 ∧ ((grid0.coords t) 1).val = t.val / 8 % 4 ∧ ((grid0.coords t) 2).val = t.val % 8 :=
  (by decide +kernel : ∀ t : Fin grid0.N, ((grid0.coords t) 0).val = t.val / 32 ∧ ((grid0.coords t) 1).val = t.val / 8 % 4 ∧ ((grid0.coords t) 2).val = t.val % 8)

theorem C1_iff : ∀ t : Fin cfg0.N, C1 (grid0.coords t) ↔ t.val % 32 = 0 :=
  (by decide +kernel : ∀ t : Fin grid0.N, C1 (grid0.coords t) ↔ t.val % 32 = 0)
theorem C2_iff : ∀ t : Fin cfg0.N, C2 (grid0.coords t) ↔ t.val % 8 = 7 :=
  (by decide +kernel : ∀ t : Fin grid0.N, C2 (grid0.coords t) ↔ t.val % 8 = 7)
theorem C3_iff : ∀ t : Fin cfg0.N, C3 (grid0.coords t) ↔ 24 ≤ t.val % 32 :=
  (by decide +kernel : ∀ t : Fin grid0.N, C3 (grid0.coords t) ↔ 24 ≤ t.val % 32)
theorem C4_iff : ∀ t : Fin cfg0.N, C4 (grid0.coords t) ↔ t.val % 32 = 31 :=
  (by decide +kernel : ∀ t : Fin grid0.N, C4 (grid0.coords t) ↔ t.val % 32 = 31)

end Cert.KernelIdeal.Hand

end
-- ==== Proof.Dats.lean ====
/-
  The kernel region's proof data.

  The invariant before point k: the four scratch buffers hold what k points leave of SOME contents s0 at the region's
  entry (Proof/Step.lean `stFrom`), and the generator register is at some state.  The input windows' buffers hold their
  blocks and are left so; the result's window is idle except at the last point of each batch, where the block the body
  stores is stated from fixed entry contents (what is stored there does not depend on them).
-/
import proofs.«414573_j7155415515634_3_alg».proof.Proof.Sched
import Idealize.ShloMosaic.Lib.Tactic
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-! ## The proof data -/

/-- The scratch buffers at given contents. -/
def ownSt (c : Dev nD) (s : St F) : sProp 𝕄 :=
  iprop(owns (c : Thread nD τ) xM fullShare s.x ∗ owns (c : Thread nD τ) yM fullShare s.y
    ∗ owns (c : Thread nD τ) l1M fullShare s.l1 ∗ owns (c : Thread nD τ) l2M fullShare s.l2)

/-- The invariant before point k. -/
def Φs (c : Dev nD) (k : ℕ) : sProp 𝕄 :=
  iprop((∃ s0 : St F, ownSt c (stFrom m c s0 k)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c junkSt t
  Φ k := Φs m c k.val
  q _ := fullShare
  owed _ := 0

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = outAt m c junkSt t := rfl

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d

/-! ## Where the result's window is idle -/

theorem idle5_of (t : Fin cfg0.N) (h : C4 (grid0.coords t)) : idle0 5 (grid0.coords t) = false := by
  show (!(k0_cond4 (grid0.coords t) == 1#1)) = false; rw [show (k0_cond4 (grid0.coords t) == 1#1) = true from beq_iff_eq.mpr h]; rfl
theorem idle5_of_not (t : Fin cfg0.N) (h : ¬ C4 (grid0.coords t)) : idle0 5 (grid0.coords t) = true := by
  show (!(k0_cond4 (grid0.coords t) == 1#1)) = true; rw [show (k0_cond4 (grid0.coords t) == 1#1) = false from beq_eq_false_iff_ne.mpr h]; rfl
theorem flush5_of_not (t : Fin cfg0.N) (h : ¬ C4 (grid0.coords t)) : (cfg0.win 5).flush t = false :=
  Bool.eq_false_iff.mpr fun hf => h ((C4_iff t).mpr ((flush0_5 t).mp hf))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre (c : Dev nD) (t : Fin cfg0.N) : (dats m 0 c).Φ t.castSucc = Φs m c t.val := rfl
theorem Φ_post (c : Dev nD) (t : Fin cfg0.N) : (dats m 0 c).Φ t.succ = Φs m c (t.val + 1) := rfl

theorem stFrom_succ_x (c : Dev nD) (s0 : St F) (t : Fin cfg0.N) :
    (stFrom m c s0 (t.val + 1)).x = stepX (grid0.coords t) (b0 m c t) (b1 m c t) (b2 m c t) (b3 m c t) (stFrom m c s0 t.val).x := by
  rw [stFrom_succ]; simp only [stepAt, stepSt]
theorem stFrom_succ_y (c : Dev nD) (s0 : St F) (t : Fin cfg0.N) :
    (stFrom m c s0 (t.val + 1)).y = stepY (grid0.coords t) (b0 m c t) (b1 m c t) (b2 m c t) (b3 m c t) (stFrom m c s0 t.val).y := by
  rw [stFrom_succ]; simp only [stepAt, stepSt]
theorem stFrom_succ_l1 (c : Dev nD) (s0 : St F) (t : Fin cfg0.N) :
    (stFrom m c s0 (t.val + 1)).l1 = stepL1 (grid0.coords t) (b0 m c t) (b1 m c t) (b2 m c t) (b3 m c t) (stFrom m c s0 t.val).y (stFrom m c s0 t.val).l1 := by
  rw [stFrom_succ]; simp only [stepAt, stepSt]
theorem stFrom_succ_l2 (c : Dev nD) (s0 : St F) (t : Fin cfg0.N) :
    (stFrom m c s0 (t.val + 1)).l2 = stepL2 (grid0.coords t) (b0 m c t) (b1 m c t) (b2 m c t) (b3 m c t) (b4 m c t) (stFrom m c s0 t.val).x (stFrom m c s0 t.val).l2 := by
  rw [stFrom_succ]; simp only [stepAt, stepSt]

/-- The scratch buffers after point t are the step of what they held before it. -/
theorem ownSt_succ (c : Dev nD) (s0 : St F) (t : Fin cfg0.N) :
    (iprop(owns (c : Thread nD τ) xM fullShare (stFrom m c s0 (t.val + 1)).x ∗ owns (c : Thread nD τ) yM fullShare (stFrom m c s0 (t.val + 1)).y
        ∗ owns (c : Thread nD τ) l1M fullShare (stFrom m c s0 (t.val + 1)).l1 ∗ owns (c : Thread nD τ) l2M fullShare (stFrom m c s0 (t.val + 1)).l2) : sProp 𝕄)
      = iprop(owns (c : Thread nD τ) xM fullShare (stepX (grid0.coords t) (b0 m c t) (b1 m c t) (b2 m c t) (b3 m c t) (stFrom m c s0 t.val).x)
        ∗ owns (c : Thread nD τ) yM fullShare (stepY (grid0.coords t) (b0 m c t) (b1 m c t) (b2 m c t) (b3 m c t) (stFrom m c s0 t.val).y)
        ∗ owns (c : Thread nD τ) l1M fullShare (stepL1 (grid0.coords t) (b0 m c t) (b1 m c t) (b2 m c t) (b3 m c t) (stFrom m c s0 t.val).y (stFrom m c s0 t.val).l1)
        ∗ owns (c : Thread nD τ) l2M fullShare (stepL2 (grid0.coords t) (b0 m c t) (b1 m c t) (b2 m c t) (b3 m c t) (b4 m c t) (stFrom m c s0 t.val).x (stFrom m c s0 t.val).l2)) := by
  rw [stFrom_succ_x, stFrom_succ_y, stFrom_succ_l1, stFrom_succ_l2]

end Cert.KernelIdeal.Hand

end
-- ==== Proof.Body.lean ====
/-
  The kernel body at one grid point, run in each of the five control cases the grid meets, on any staging memrefs:
  from the five input buffers at their blocks and the four scratch buffers at contents s, the body ends with the inputs
  as they were and the scratch buffers at the point's step of s (Proof/Step.lean); the result's staging buffer is left as
  it was except at (i, j) = (3, 7), where it ends at the batch's total, broadcast.
  The cases: A (i, j) = (0, 0); B neither j = 7 nor i = 3, and not (0, 0); C j = 7, i < 3; D i = 3, j < 7; E (3, 7).
-/
import proofs.«414573_j7155415515634_3_alg».proof.Proof.Step
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

omit [FloatOps F] in
theorem hz2 : (![0, 0] : Fin 2 → Nat) = fun _ => 0 := by funext a; fin_cases a <;> rfl
omit [FloatOps F] in
theorem hz3 : (![0, 0, 0] : Fin 3 → Nat) = fun _ => 0 := by funext a; fin_cases a <;> rfl

/-- One store through the whole-shape rectangle leaves its payload, whatever the buffer held. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

section Runs

variable (c : Dev nD) (i : grid0.Coords)
  (M0 : Memref sig .tc .vmem S1x1024x128 .f32) (h0 : M0.IsWhole) (M1 : Memref sig .tc .vmem S1x1024x128 .f32) (h1 : M1.IsWhole)
  (M2 : Memref sig .tc .vmem S1x512x128 .f32) (h2 : M2.IsWhole) (M3 : Memref sig .tc .vmem S1x512x128 .f32) (h3 : M3.IsWhole)
  (M4 : Memref sig .tc .vmem S1x1024x1 .f32) (h4 : M4.IsWhole) (M5 : Memref sig .tc .vmem S1x8x128 .f32) (h5 : M5.IsWhole)
  (x0 : Vec F S1x1024x128 .f32) (x1 : Vec F S1x1024x128 .f32) (x2 : Vec F S1x512x128 .f32) (x3 : Vec F S1x512x128 .f32) (x4 : Vec F S1x1024x1 .f32)
  (s : St F)

local notation "KL" => cc0__kl_kernel i M0 h0 M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _)

/-- Case A, (i, j) = (0, 0): the accumulators are cleared; nothing else beyond the two running minima. -/
theorem run_A (hC1 : C1 i) (hC2 : ¬ C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_pos hC1, if_neg hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    unfold stepL2 stepX; simp only [if_pos hC1, if_neg hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

/-- Case B: only the two running minima are updated. -/
theorem run_B (hC1 : ¬ C1 i) (hC2 : ¬ C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    rw [hfl1]; unfold stepL1; simp only [if_neg hC1, if_neg hC2, if_neg hC3]
  · iexists _; isplitr; swap; (· iexact Hl2); ipureintro
    rw [hfl2]; unfold stepL2; simp only [if_neg hC1, if_neg hC2, if_neg hC3]

/-- Case C, j = 7 and i < 3: the second accumulator gains the masked sum of the row minima. -/
theorem run_C (hC1 : ¬ C1 i) (hC2 : C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    rw [hfl1]; unfold stepL1; simp only [if_neg hC1, if_pos hC2, if_neg hC3]
  · iexists _; isplitr; swap; (· iexact Hl2); ipureintro
    unfold stepL2 stepX; simp only [if_neg hC1, if_pos hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

/-- Case D, i = 3 and j < 7: the first accumulator gains the sum of slice j of the column minima. -/
theorem run_D (hC1 : ¬ C1 i) (hC2 : ¬ C2 i) (hC3 : C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_neg hC1, if_neg hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    rw [hfl2]; unfold stepL2; simp only [if_neg hC1, if_neg hC2, if_pos hC3]

/-- Case E, (i, j) = (3, 7): both accumulators gain their sums and the total is stored into the result's block. -/
theorem run_E (hC1 : ¬ C1 i) (hC2 : C2 i) (hC3 : C3 i) (hC4 : C4 i) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ (∃ d, owns (c : Thread nD τ) M5 fullShare d)
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare (outOf i x0 x1 x2 x3 x4 s)
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [H5]
  · iexists _; isplitr; swap; (· iexact H5); ipureintro
    unfold outOf stepL1 stepL2 stepX stepYs ySl; simp only [if_neg hC1, if_pos hC2, if_pos hC3]
    sl_unfold_words
    rw [read_writes_whole _ _ hz3]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_neg hC1, if_pos hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    unfold stepL2 stepX; simp only [if_neg hC1, if_pos hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

end Runs

end Cert.KernelIdeal.Hand

end
-- ==== Proof.Indep.lean ====
/-
  What the region stores does not depend on what the four scratch buffers hold at its entry.

  The row scratch is overwritten without being read at j = 0, slice j of the column scratch at i = 0, and the two
  accumulators are cleared at (i, j) = (0, 0).  So, along one batch's sweep of 32 points, the contents reached from two
  entry states agree on more and more: the row scratch after a point with j = 0 until the end of its row tile, slice j'
  of the column scratch from the point (0, j') on, the accumulators from the first point on.  At the sweep's last point
  everything the stored value reads is agreed on.
-/
import proofs.«414573_j7155415515634_3_alg».proof.Proof.Sched
import Idealize.ShloMosaic.Lib.WritesUnit
import Idealize.ShloMosaic.Lib.Pipeline.Frame
import Idealize.ShloMosaic.Lib.ValueIdx

noncomputable section

namespace Cert.KernelIdeal.Hand

open Cert.KernelIdeal Cert.KernelIdeal.Gen
open Idealize.ShloMosaic

variable {F : FTy → Type} [FloatOps F]

section Point

variable (i : grid0.Coords) (x0 x1 : Vec F S1x1024x128 .f32) (x2 x3 : Vec F S1x512x128 .f32) (x4 : Vec F S1x1024x1 .f32)

/-- Slice j of the column scratch after the point is the slice's step. -/
theorem ySl_stepY_same (ay : Vec F S1x4096 .f32) :
    ySl i (stepY i x0 x1 x2 x3 ay) = stepYs i x0 x1 x2 x3 (ySl i ay) := by
  funext x
  exact View.read_writes_cons_emb yM.view ((Memref.isWhole_whole cc0_scratch1).unread ay) (rY i)
    (stepYs i x0 x1 x2 x3 (ySl i ay)) [] x

/-- Another slice is untouched. -/
theorem ySl_stepY_other (i' : grid0.Coords) (h : (i' 2).val ≠ (i 2).val) (ay : Vec F S1x4096 .f32) :
    ySl i' (stepY i x0 x1 x2 x3 ay) = ySl i' ay := by
  funext x
  have hx : (x 1).val < 512 := (x 1).isLt
  have hi : (i 2).val < 8 := (i 2).isLt
  have hi' : (i' 2).val < 8 := (i' 2).isLt
  have hy : (((rY i').idx x) 1).val = 512 * (i' 2).val + (x 1).val := by
    show (k0_off1 i') 1 + 1 * (x 1).val = _
    rw [Gen.k0_off1_eq i', Nat.one_mul]
    rfl
  show yM.view.read (Elt F) (yM.view.writes (Elt F) ((Memref.isWhole_whole cc0_scratch1).unread ay)
      [⟨rY i, stepYs i x0 x1 x2 x3 (ySl i ay)⟩]) ((rY i').idx x) = ay ((rY i').idx x)
  rw [View.read_writes_cons_unit_of_not_mem yM.view _ (k0_off1_inb i) _ [] ((rY i').idx x) (Gen.k0_off1_eq i) 1
    (by
      rw [hy]
      show 512 * (i' 2).val + (x 1).val < 512 * (i 2).val ∨ 512 * (i 2).val + 512 ≤ 512 * (i' 2).val + (x 1).val
      omega)]
  rw [View.writes_nil, Memref.IsWhole.read_unread]

/-- Two slices are the same function when the column-tile coordinates are equal. -/
theorem ySl_congr (i' : grid0.Coords) (h : (i' 2).val = (i 2).val) (ay : Vec F S1x4096 .f32) :
    ySl i' ay = ySl i ay := by
  funext x
  show ay ((rY i').idx x) = ay ((rY i).idx x)
  congr 1
  funext a
  apply Fin.ext
  show (k0_off1 i') a + 1 * (x a).val = (k0_off1 i) a + 1 * (x a).val
  rw [Gen.k0_off1_eq i', Gen.k0_off1_eq i, h]

/-- At j = 0 the row scratch is overwritten without being read. -/
theorem stepX_reset (h : (i 2).val = 0) (ax ax' : Vec F S1024x1 .f32) :
    stepX i x0 x1 x2 x3 ax = stepX i x0 x1 x2 x3 ax' := by
  unfold stepX k0_pay15
  rw [h]
  have hc : Scalar.cmpi .eq (BitVec.ofNat 32 0) 0#32 = 1#1 := by decide
  simp only [hc, ValueIdx.select_one]

/-- At i = 0 slice j of the column scratch is overwritten without being read. -/
theorem stepYs_reset (h : (i 1).val = 0) (ys ys' : Vec F S1x512 .f32) :
    stepYs i x0 x1 x2 x3 ys = stepYs i x0 x1 x2 x3 ys' := by
  unfold stepYs k0_pay16
  rw [h]
  have hc : Scalar.cmpi .eq (BitVec.ofNat 32 0) 0#32 = 1#1 := by decide
  simp only [hc, ValueIdx.select_one]

end Point

/-! ## Agreement of two runs along a batch's sweep -/

/-- What two scratch contents agree on before sweep position n (n = 8 i + j): the row scratch once a point with j = 0
    has been passed in this row tile, the slices of the column scratch whose first point has been passed, the accumulators
    after the first point. -/
def Agree (n : ℕ) (s s' : St F) : Prop :=
  (n % 8 ≠ 0 → s.x = s'.x) ∧ (∀ i' : grid0.Coords, (i' 2).val < n → ySl i' s.y = ySl i' s'.y) ∧
    (n ≠ 0 → s.l1 = s'.l1 ∧ s.l2 = s'.l2)

section Point

variable (i : grid0.Coords) (x0 x1 : Vec F S1x1024x128 .f32) (x2 x3 : Vec F S1x512x128 .f32) (x4 : Vec F S1x1024x1 .f32)

/-- One point at sweep position n: from contents that agree before it, the row scratch, the slices up to position n of
    the column scratch and both accumulators agree after it. -/
theorem point_agree (n : ℕ) (h1 : (i 1).val = n / 8) (h2 : (i 2).val = n % 8) (c1 : C1 i ↔ n = 0)
    (s s' : St F) (hA : Agree n s s') :
    stepX i x0 x1 x2 x3 s.x = stepX i x0 x1 x2 x3 s'.x ∧
      (∀ i' : grid0.Coords, (i' 2).val < n + 1 →
        ySl i' (stepY i x0 x1 x2 x3 s.y) = ySl i' (stepY i x0 x1 x2 x3 s'.y)) ∧
      stepL1 i x0 x1 x2 x3 s.y s.l1 = stepL1 i x0 x1 x2 x3 s'.y s'.l1 ∧
      stepL2 i x0 x1 x2 x3 x4 s.x s.l2 = stepL2 i x0 x1 x2 x3 x4 s'.x s'.l2 := by
  obtain ⟨hx, hy, hl⟩ := hA
  -- the row scratch
  have hX : stepX i x0 x1 x2 x3 s.x = stepX i x0 x1 x2 x3 s'.x := by
    by_cases h0 : n % 8 = 0
    · exact stepX_reset i x0 x1 x2 x3 (h2.trans h0) s.x s'.x
    · rw [hx h0]
  -- this point's slice
  have hS' : stepYs i x0 x1 x2 x3 (ySl i s.y) = stepYs i x0 x1 x2 x3 (ySl i s'.y) := by
    by_cases h0 : n / 8 = 0
    · exact stepYs_reset i x0 x1 x2 x3 (h1.trans h0) _ _
    · rw [hy i (by omega)]
  have hS : ySl i (stepY i x0 x1 x2 x3 s.y) = ySl i (stepY i x0 x1 x2 x3 s'.y) := by
    rw [ySl_stepY_same, ySl_stepY_same]
    exact hS'
  -- every slice asked for
  have hY : ∀ i' : grid0.Coords, (i' 2).val < n + 1 →
      ySl i' (stepY i x0 x1 x2 x3 s.y) = ySl i' (stepY i x0 x1 x2 x3 s'.y) := by
    intro i' hi'
    by_cases he : (i' 2).val = (i 2).val
    · rw [ySl_congr i i' he, ySl_congr i i' he]
      exact hS
    · rw [ySl_stepY_other i x0 x1 x2 x3 i' he, ySl_stepY_other i x0 x1 x2 x3 i' he]
      have : (i' 2).val < 8 := (i' 2).isLt
      exact hy i' (by omega)
  refine ⟨hX, hY, ?_, ?_⟩
  · -- the first accumulator
    unfold stepL1
    by_cases h0 : n = 0
    · simp only [if_pos (c1.mpr h0), hS']
    · simp only [if_neg (fun h => h0 (c1.mp h)), hS', (hl h0).1]
  · -- the second accumulator
    unfold stepL2
    by_cases h0 : n = 0
    · simp only [if_pos (c1.mpr h0), hX]
    · simp only [if_neg (fun h => h0 (c1.mp h)), hX, (hl h0).2]

/-- The same, as agreement of the contents after the point at the next sweep position. -/
theorem stepSt_agree (n : ℕ) (h1 : (i 1).val = n / 8) (h2 : (i 2).val = n % 8) (c1 : C1 i ↔ n = 0)
    (s s' : St F) (hA : Agree n s s') :
    Agree (n + 1) (stepSt i x0 x1 x2 x3 x4 s) (stepSt i x0 x1 x2 x3 x4 s') := by
  obtain ⟨hX, hY, hL1, hL2⟩ := point_agree i x0 x1 x2 x3 x4 n h1 h2 c1 s s' hA
  unfold Agree stepSt
  dsimp only
  exact ⟨fun _ => hX, hY, fun _ => ⟨hL1, hL2⟩⟩

end Point

/-! ## The run -/

variable (m : (ℓ : Loc nD τ sig) → Buf (Elt F) ℓ)

/-- Before point k the contents reached from two entry contents agree at sweep position k % 32. -/
theorem stFrom_agree (c : Dev nD) (s0 s0' : St F) :
    ∀ k : ℕ, k ≤ cfg0.N → Agree (k % 32) (stFrom m c s0 k) (stFrom m c s0' k) := by
  intro k
  induction k with
  | zero =>
    intro _
    exact ⟨fun h => absurd rfl h, fun i' h => absurd h (Nat.not_lt_zero _), fun h => absurd rfl h⟩
  | succ k ih =>
    intro hk
    have hk' : k < cfg0.N := hk
    have hA := ih (Nat.le_of_lt hk')
    obtain ⟨-, e1, e2⟩ := coords_eq ⟨k, hk'⟩
    have e1' : ((grid0.coords ⟨k, hk'⟩) 1).val = k % 32 / 8 := by rw [e1]; show k / 8 % 4 = k % 32 / 8; omega
    have e2' : ((grid0.coords ⟨k, hk'⟩) 2).val = k % 32 % 8 := by rw [e2]; show k % 8 = k % 32 % 8; omega
    have c1 := C1_iff ⟨k, hk'⟩
    rw [stFrom_succ m c s0 ⟨k, hk'⟩, stFrom_succ m c s0' ⟨k, hk'⟩]
    by_cases h31 : (k + 1) % 32 = 0
    · rw [h31]
      exact ⟨fun h => absurd rfl h, fun i' h => absurd h (Nat.not_lt_zero _), fun h => absurd rfl h⟩
    · have hs : (k + 1) % 32 = k % 32 + 1 := by omega
      rw [hs]
      unfold stepAt
      exact stepSt_agree (grid0.coords ⟨k, hk'⟩) (b0 m c ⟨k, hk'⟩) (b1 m c ⟨k, hk'⟩) (b2 m c ⟨k, hk'⟩) (b3 m c ⟨k, hk'⟩)
        (b4 m c ⟨k, hk'⟩) (k % 32) e1' e2' c1 _ _ hA

/-- What the last point of a batch's sweep stores does not depend on the entry contents. -/
theorem outAt_indep (c : Dev nD) (s0 s0' : St F) (t : Fin cfg0.N) (ht : t.val % 32 = 31) :
    outAt m c s0 t = outAt m c s0' t := by
  have hA := stFrom_agree m c s0 s0' t.val (Nat.le_of_lt t.isLt)
  obtain ⟨-, e1, e2⟩ := coords_eq t
  have e1' : ((grid0.coords t) 1).val = t.val % 32 / 8 := by rw [e1]; omega
  have e2' : ((grid0.coords t) 2).val = t.val % 32 % 8 := by rw [e2]; omega
  obtain ⟨-, -, hL1, hL2⟩ := point_agree (grid0.coords t) (b0 m c t) (b1 m c t) (b2 m c t) (b3 m c t) (b4 m c t)
    (t.val % 32) e1' e2' (C1_iff t) _ _ hA
  unfold outAt outOf
  rw [hL1, hL2]

end Cert.KernelIdeal.Hand

end
-- ==== Proof.Launch.lean ====
/-
  The kernel region's body obligation and its launch.

  At every grid point the body, from the invariant and the windows' current buffers, runs to the invariant at the next
  point: the point's control case decides which run applies (Proof/Body.lean), and the scratch buffers' contents move by
  the point's step.  At the last point of a batch the block stored into the result's buffer is the one the data name,
  because it does not depend on the entry contents (Proof/Indep.lean).  The launch is the library's frame run with a
  tracking invariant, @main continuing after the region; the frame claim follows.
-/
import proofs.«414573_j7155415515634_3_alg».proof.Proof.Dats
import proofs.«414573_j7155415515634_3_alg».proof.Proof.Body
import proofs.«414573_j7155415515634_3_alg».proof.Proof.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

theorem idleIn_0 (t : Fin cfg0.N) : idle0 0 (grid0.coords t) = false := rfl
theorem idleIn_1 (t : Fin cfg0.N) : idle0 1 (grid0.coords t) = false := rfl
theorem idleIn_2 (t : Fin cfg0.N) : idle0 2 (grid0.coords t) = false := rfl
theorem idleIn_3 (t : Fin cfg0.N) : idle0 3 (grid0.coords t) = false := rfl
theorem idleIn_4 (t : Fin cfg0.N) : idle0 4 (grid0.coords t) = false := rfl

theorem ownSt_succ_intro (c : Dev nD) (s0 : St F) (t : Fin cfg0.N) :
    iprop(owns (c : Thread nD τ) xM fullShare (stepX (grid0.coords t) (b0 m c t) (b1 m c t) (b2 m c t) (b3 m c t) (stFrom m c s0 t.val).x)
        ∗ owns (c : Thread nD τ) yM fullShare (stepY (grid0.coords t) (b0 m c t) (b1 m c t) (b2 m c t) (b3 m c t) (stFrom m c s0 t.val).y)
        ∗ owns (c : Thread nD τ) l1M fullShare (stepL1 (grid0.coords t) (b0 m c t) (b1 m c t) (b2 m c t) (b3 m c t) (stFrom m c s0 t.val).y (stFrom m c s0 t.val).l1)
        ∗ owns (c : Thread nD τ) l2M fullShare (stepL2 (grid0.coords t) (b0 m c t) (b1 m c t) (b2 m c t) (b3 m c t) (b4 m c t) (stFrom m c s0 t.val).x (stFrom m c s0 t.val).l2))
      ⊢ (iprop(owns (c : Thread nD τ) xM fullShare (stFrom m c s0 (t.val + 1)).x ∗ owns (c : Thread nD τ) yM fullShare (stFrom m c s0 (t.val + 1)).y
        ∗ owns (c : Thread nD τ) l1M fullShare (stFrom m c s0 (t.val + 1)).l1 ∗ owns (c : Thread nD τ) l2M fullShare (stFrom m c s0 (t.val + 1)).l2) : sProp 𝕄) := by
  rw [ownSt_succ]

/-- What the last point of a batch stores is the block the data name, whatever the entry contents were. -/
theorem out_intro (c : Dev nD) (s0 : St F) (t : Fin cfg0.N) (ht : t.val % 32 = 31) (M5 : Memref sig .tc .vmem S1x8x128 .f32) :
    (owns (c : Thread nD τ) M5 fullShare (outOf (grid0.coords t) (b0 m c t) (b1 m c t) (b2 m c t) (b3 m c t) (b4 m c t) (stFrom m c s0 t.val)) : sProp 𝕄)
      ⊢ owns (c : Thread nD τ) M5 fullShare (outAt m c junkSt t) := by
  rw [show outOf (grid0.coords t) (b0 m c t) (b1 m c t) (b2 m c t) (b3 m c t) (b4 m c t) (stFrom m c s0 t.val) = outAt m c s0 t from rfl,
    outAt_indep m c s0 junkSt t ht]

theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl, Φ_pre, Φ_post]
  unfold Φs
  by_cases h4 : C4 (grid0.coords t)
  · have h31 := (C4_iff t).mp h4
    have h1 : ¬ C1 (grid0.coords t) := fun h => by have := (C1_iff t).mp h; omega
    have h2 : C2 (grid0.coords t) := (C2_iff t).mpr (by omega)
    have h3 : C3 (grid0.coords t) := (C3_iff t).mpr (by omega)
    simp only [idleIn_0, idleIn_1, idleIn_2, idleIn_3, idleIn_4, idle5_of t h4, before_0, before_1, before_2, before_3, before_4,
      after_0, after_1, after_2, after_3, after_4, after_5]
    iintro ⟨⟨⟨%s0, HS⟩, Hp⟩, ⟨%Wt, %hW, HO⟩, ⟨%d0, H0⟩, ⟨%d1, H1⟩, ⟨%d2, H2⟩, ⟨%d3, H3⟩, ⟨%d4, H4⟩, ⟨%d5, H5⟩⟩
    unfold ownSt
    icases HS with ⟨Hx, Hy, Hl1, Hl2⟩
    iapply (run_E c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (b0 m c t) (b1 m c t) (b2 m c t) (b3 m c t) (b4 m c t) (stFrom m c s0 t.val) h1 h2 h3 h4)
    isplitl [H0]; · iexact H0
    isplitl [H1]; · iexact H1
    isplitl [H2]; · iexact H2
    isplitl [H3]; · iexact H3
    isplitl [H4]; · iexact H4
    isplitl [H5]; · iexists _; iexact H5
    isplitl [Hx]; · iexact Hx
    isplitl [Hy]; · iexact Hy
    isplitl [Hl1]; · iexact Hl1
    isplitl [Hl2]; · iexact Hl2
    iintro ⟨H0, H1, H2, H3, H4, H5, Hx, Hy, Hl1, Hl2⟩
    isplitl [Hx Hy Hl1 Hl2 Hp]
    · isplitr [Hp]; swap; (· iexact Hp)
      iexists s0
      iapply (ownSt_succ_intro m c s0 t)
      isplitl [Hx]; · iexact Hx
      isplitl [Hy]; · iexact Hy
      isplitl [Hl1]; · iexact Hl1
      iexact Hl2
    isplitl [HO]; · iapply (owesAt_intro m c); iexact HO
    isplitl [H0]; · iexact H0
    isplitl [H1]; · iexact H1
    isplitl [H2]; · iexact H2
    isplitl [H3]; · iexact H3
    isplitl [H4]; · iexact H4
    iapply (out_intro m c s0 t h31); iexact H5
  · simp only [idleIn_0, idleIn_1, idleIn_2, idleIn_3, idleIn_4, idle5_of_not t h4, flush5_of_not t h4, before_0, before_1, before_2, before_3, before_4,
      after_0, after_1, after_2, after_3, after_4]
    have hn31 : t.val % 32 ≠ 31 := fun h => h4 ((C4_iff t).mpr h)
    by_cases h1 : C1 (grid0.coords t)
    · have h0 := (C1_iff t).mp h1
      have h2 : ¬ C2 (grid0.coords t) := fun h => by have := (C2_iff t).mp h; omega
      have h3 : ¬ C3 (grid0.coords t) := fun h => by have := (C3_iff t).mp h; omega
      iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
      unfold ownSt
      icases HS with ⟨Hx, Hy, Hl1, Hl2⟩
      iapply (run_A c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (b0 m c t) (b1 m c t) (b2 m c t) (b3 m c t) (b4 m c t) (stFrom m c s0 t.val) h1 h2 h3 h4 _)
      isplitl [H0]; · iexact H0
      isplitl [H1]; · iexact H1
      isplitl [H2]; · iexact H2
      isplitl [H3]; · iexact H3
      isplitl [H4]; · iexact H4
      isplitl [H5]; · iexact H5
      isplitl [Hx]; · iexact Hx
      isplitl [Hy]; · iexact Hy
      isplitl [Hl1]; · iexact Hl1
      isplitl [Hl2]; · iexact Hl2
      iintro ⟨H0, H1, H2, H3, H4, H5, Hx, Hy, Hl1, Hl2⟩
      isplitl [Hx Hy Hl1 Hl2 Hp]
      · isplitr [Hp]; swap; (· iexact Hp)
        iexists s0
        iapply (ownSt_succ_intro m c s0 t)
        isplitl [Hx]; · iexact Hx
        isplitl [Hy]; · iexact Hy
        isplitl [Hl1]; · iexact Hl1
        iexact Hl2
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · by_cases h2 : C2 (grid0.coords t)
      · have h7 := (C2_iff t).mp h2
        have h3 : ¬ C3 (grid0.coords t) := fun h => by have := (C3_iff t).mp h; omega
        iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
        unfold ownSt
        icases HS with ⟨Hx, Hy, Hl1, Hl2⟩
        iapply (run_C c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3))
          (st0_4 t) (hstage0_4 ((cfg0.slots t 4).cast nbuf0_4)) (st0_5 t) (hstage0_5 ((cfg0.slots t 5).cast nbuf0_5))
          (b0 m c t) (b1 m c t) (b2 m c t) (b3 m c t) (b4 m c t) (stFrom m c s0 t.val) h1 h2 h3 h4 _)
        isplitl [H0]; · iexact H0
        isplitl [H1]; · iexact H1
        isplitl [H2]; · iexact H2
        isplitl [H3]; · iexact H3
        isplitl [H4]; · iexact H4
        isplitl [H5]; · iexact H5
        isplitl [Hx]; · iexact Hx
        isplitl [Hy]; · iexact Hy
        isplitl [Hl1]; · iexact Hl1
        isplitl [Hl2]; · iexact Hl2
        iintro ⟨H0, H1, H2, H3, H4, H5, Hx, Hy, Hl1, Hl2⟩
        isplitl [Hx Hy Hl1 Hl2 Hp]
        · isplitr [Hp]; swap; (· iexact Hp)
          iexists s0
          iapply (ownSt_succ_intro m c s0 t)
          isplitl [Hx]; · iexact Hx
          isplitl [Hy]; · iexact Hy
          isplitl [Hl1]; · iexact Hl1
          iexact Hl2
        isplitl [HO]; · iapply (owesAt_intro m c); iexact HO
        isplitl [H0]; · iexact H0
        isplitl [H1]; · iexact H1
        isplitl [H2]; · iexact H2
        isplitl [H3]; · iexact H3
        isplitl [H4]; · iexact H4
        iexact H5
      · by_cases h3 : C3 (grid0.coords t)
        ·
          iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
          unfold ownSt
          icases HS with ⟨Hx, Hy, Hl1, Hl2⟩
          iapply (run_D c (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5))
            (b0 m c t) (b1 m c t) (b2 m c t) (b3 m c t) (b4 m c t) (stFrom m c s0 t.val) h1 h2 h3 h4 _)
          isplitl [H0]; · iexact H0
          isplitl [H1]; · iexact H1
          isplitl [H2]; · iexact H2
          isplitl [H3]; · iexact H3
          isplitl [H4]; · iexact H4
          isplitl [H5]; · iexact H5
          isplitl [Hx]; · iexact Hx
          isplitl [Hy]; · iexact Hy
          isplitl [Hl1]; · iexact Hl1
          isplitl [Hl2]; · iexact Hl2
          iintro ⟨H0, H1, H2, H3, H4, H5, Hx, Hy, Hl1, Hl2⟩
          isplitl [Hx Hy Hl1 Hl2 Hp]
          · isplitr [Hp]; swap; (· iexact Hp)
            iexists s0
            iapply (ownSt_succ_intro m c s0 t)
            isplitl [Hx]; · iexact Hx
            isplitl [Hy]; · iexact Hy
            isplitl [Hl1]; · iexact Hl1
            iexact Hl2
          isplitl [HO]; · iapply (owesAt_intro m c); iexact HO
          isplitl [H0]; · iexact H0
          isplitl [H1]; · iexact H1
          isplitl [H2]; · iexact H2
          isplitl [H3]; · iexact H3
          isplitl [H4]; · iexact H4
          iexact H5
        ·
          iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
          unfold ownSt
          icases HS with ⟨Hx, Hy, Hl1, Hl2⟩
          iapply (run_B c (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5))
            (b0 m c t) (b1 m c t) (b2 m c t) (b3 m c t) (b4 m c t) (stFrom m c s0 t.val) h1 h2 h3 h4 _)
          isplitl [H0]; · iexact H0
          isplitl [H1]; · iexact H1
          isplitl [H2]; · iexact H2
          isplitl [H3]; · iexact H3
          isplitl [H4]; · iexact H4
          isplitl [H5]; · iexact H5
          isplitl [Hx]; · iexact Hx
          isplitl [Hy]; · iexact Hy
          isplitl [Hl1]; · iexact Hl1
          isplitl [Hl2]; · iexact Hl2
          iintro ⟨H0, H1, H2, H3, H4, H5, Hx, Hy, Hl1, Hl2⟩
          isplitl [Hx Hy Hl1 Hl2 Hp]
          · isplitr [Hp]; swap; (· iexact Hp)
            iexists s0
            iapply (ownSt_succ_intro m c s0 t)
            isplitl [Hx]; · iexact Hx
            isplitl [Hy]; · iexact Hy
            isplitl [Hl1]; · iexact Hl1
            iexact Hl2
          isplitl [HO]; · iapply (owesAt_intro m c); iexact HO
          isplitl [H0]; · iexact H0
          isplitl [H1]; · iexact H1
          isplitl [H2]; · iexact H2
          isplitl [H3]; · iexact H3
          isplitl [H4]; · iexact H4
          iexact H5

/-! ## The launch -/

/-- The class's invariant is the four scratch buffers at some contents and the generator register at some state. -/
theorem PhiA_eq (c : Dev nD) :
    (Pipeline.ΦA spec0 c : sProp 𝕄)
      = iprop(((∃ d, owns (c : Thread nD τ) xM fullShare d) ∗ (∃ d, owns (c : Thread nD τ) yM fullShare d)
          ∗ (∃ d, owns (c : Thread nD τ) l1M fullShare d) ∗ (∃ d, owns (c : Thread nD τ) l2M fullShare d)) ∗ (∃ r, prngReg c r)) := by
  unfold Pipeline.ΦA; rw [scopedRest0_eq]; simp only [xM, yM, l1M, l2M, owns_whole]; try rfl

theorem hin (c : Dev nD) : (Pipeline.ΦA spec0 c : sProp 𝕄) ⊢ (dats m 0 c).Φ 0 := by
  rw [PhiA_eq, show (dats m 0 c).Φ 0 = Φs m c 0 from rfl]
  unfold Φs ownSt
  iintro ⟨⟨⟨%dx, Hx⟩, ⟨%dy, Hy⟩, ⟨%d1, Hl1⟩, ⟨%d2, Hl2⟩⟩, Hp⟩
  isplitr [Hp]; swap; (· iexact Hp)
  iexists (⟨dx, dy, d1, d2⟩ : St F)
  isplitl [Hx]; · iexact Hx
  isplitl [Hy]; · iexact Hy
  isplitl [Hl1]; · iexact Hl1
  iexact Hl2

theorem hout (c : Dev nD) : (dats m 0 c).Φ (Fin.last cfg0.N) ⊢ (Pipeline.ΦA spec0 c : sProp 𝕄) := by
  rw [PhiA_eq, show (dats m 0 c).Φ (Fin.last cfg0.N) = Φs m c cfg0.N from rfl]
  unfold Φs ownSt
  iintro ⟨⟨%s0, Hx, Hy, Hl1, Hl2⟩, Hp⟩
  isplitr [Hp]; swap; (· iexact Hp)
  isplitl [Hx]; · iexists _; iexact Hx
  isplitl [Hy]; · iexists _; iexact Hy
  isplitl [Hl1]; · iexists _; iexact Hl1
  iexists _; iexact Hl2

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

/-- The frame: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (fun _ _ => rfl) (run_main m ρ)

/-- From the frame run's post: the argument arrays as launched. -/
theorem args_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (V_main_arg0 m c)),
   ((h c).1 1).trans (((dats m 0 c).arrAt_in 1 rfl _).trans (V_main_arg1 m c)),
   ((h c).1 2).trans (((dats m 0 c).arrAt_in 2 rfl _).trans (V_main_arg2 m c)),
   ((h c).1 3).trans (((dats m 0 c).arrAt_in 3 rfl _).trans (V_main_arg3 m c)),
   ((h c).2 main_arg4 (Pipeline.mem_restRefs_of main_arg4 (by decide) (by decide))).trans (W_main_arg4 m (dats m) c)⟩

/-- From the frame run's post: @main's result is what its tail leaves of the region's result array. -/
theorem result_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_v3) = Pipeline.afterTail₀ cfgs (dats m) 0 (V0 m) [hostOps1] c main_v3 :=
  (h c).2 main_v3 (Pipeline.mem_restRefs_of main_v3 (by decide) (by decide))

end Cert.KernelIdeal.Hand

end
-- ==== Proof.KStep.lean ====
/-
  The kernel body as a function on the contents of its four carried scratch buffers.

  The grid is (b, i, j) = (8, 4, 8), walked in order; point t has b = t / 32, i = t / 8 % 4, j = t % 8.  At one
  point the body reads the row tile i of the first family (means, log-variances, the mask's column) and the column
  tile j of the second family, forms the 1024 x 512 tile of pairwise divergences, and updates

    * the row scratch (1024 x 1): the running minimum over the column tiles seen so far in this row tile (restarted
      at j = 0),
    * the column scratch (1 x 4096), on its slice j: the running minimum over the row tiles seen so far (restarted
      at i = 0),
    * the two 1 x 1 accumulators: cleared at (i, j) = (0, 0); the second gains the masked sum of the row scratch at
      j = 7, the first the sum of slice j of the column scratch at i = 3,

  and at (i, j) = (3, 7) stores the sum of the two accumulators, broadcast, into the result block of batch b.
  Everything here is stated for any float instance.
-/
import proofs.«414573_j7155415515634_3_alg».proof.Proof.Gen.Kernel
import proofs.«414573_j7155415515634_3_alg».proof.Proof.Gen.Kernel.Skeleton
import proofs.«414573_j7155415515634_3_alg».proof.Proof.Gen.Kernel.Launch
import proofs.«414573_j7155415515634_3_alg».proof.Proof.Gen.Kernel.Points
import proofs.«414573_j7155415515634_3_alg».proof.Proof.Gen.Kernel.Frame
import Idealize.ShloMosaic.Lib.Writes
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem

variable {F : FTy → Type} [FloatOps F]

/-! ## The four branch conditions, as the body computes them from the grid coordinates -/

/-- (i, j) = (0, 0): the accumulators are cleared. -/
abbrev C1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- j = 7: the row scratch is final for this row tile. -/
abbrev C2 (i : grid0.Coords) : Prop :=
  Scalar.cmpi .ne (Scalar.extui (Scalar.cmpi .eq (BitVec.ofNat 32 (i 2).val) 7#32)) 0#32 = 1#1
/-- i = 3: slice j of the column scratch is final. -/
abbrev C3 (i : grid0.Coords) : Prop := k0_cond3 i = 1#1
/-- (i, j) = (3, 7): the batch's result is stored. -/
abbrev C4 (i : grid0.Coords) : Prop := k0_cond4 i = 1#1

/-! ## The scratch memrefs and the rectangles the body goes through -/

abbrev xM : Memref sig .tc .vmem S1024x1 .f32 := Memref.whole cc0_scratch0
abbrev yM : Memref sig .tc .vmem S1x4096 .f32 := Memref.whole cc0_scratch1
abbrev l1M : Memref sig .tc .vmem S1x1 .f32 := Memref.whole cc0_scratch2
abbrev l2M : Memref sig .tc .vmem S1x1 .f32 := Memref.whole cc0_scratch3

/-- Slice j of the column scratch: 512 lanes from lane 512 j. -/
abbrev rY (i : grid0.Coords) : Rect S1x4096 := Rect.unit (s := S1x4096) (k0_off1 i) S1x512.size (k0_off1_inb i)

/-- The contents of the four scratch buffers. -/
structure St (F : FTy → Type) [FloatOps F] where
  x : Vec F S1024x1 .f32
  y : Vec F S1x4096 .f32
  l1 : Vec F S1x1 .f32
  l2 : Vec F S1x1 .f32

/-! ## One point -/

section Point

variable (i : grid0.Coords) (x0 x1 : Vec F S1x1024x128 .f32) (x2 x3 : Vec F S1x512x128 .f32) (x4 : Vec F S1x1024x1 .f32)

/-- The row scratch after the point: the tile's row minima, or at j > 0 their minimum with what it held. -/
def stepX (ax : Vec F S1024x1 .f32) : Vec F S1024x1 .f32 :=
  k0_pay15 (BitVec.ofNat 32 (i 2).val) (k0_pay10 x0 x1 x2 x3) (k0_pay11 x1) (k0_pay12 x3) (k0_pay13 x2 x3) ax

/-- Slice j of the column scratch after the point, from what the slice held: the tile's column minima, or at i > 0
    their minimum with it. -/
def stepYs (ys : Vec F S1x512 .f32) : Vec F S1x512 .f32 :=
  k0_pay16 (BitVec.ofNat 32 (i 1).val) (k0_pay10 x0 x1 x2 x3) (k0_pay11 x1) (k0_pay12 x3) (k0_pay13 x2 x3) ys

/-- Slice j of a column-scratch contents. -/
def ySl (ay : Vec F S1x4096 .f32) : Vec F S1x512 .f32 := View.ld ay (rY i)

/-- The column scratch after the point: slice j replaced. -/
def stepY (ay : Vec F S1x4096 .f32) : Vec F S1x4096 .f32 :=
  yM.view.read (Elt F) (yM.view.writes (Elt F) ((Memref.isWhole_whole cc0_scratch1).unread ay) [⟨rY i, stepYs i x0 x1 x2 x3 (ySl i ay)⟩])

open Classical in
/-- The first accumulator after the point. -/
def stepL1 (ay : Vec F S1x4096 .f32) (a1 : Vec F S1x1 .f32) : Vec F S1x1 .f32 :=
  let b1 : Vec F S1x1 .f32 := if C1 i then k0_pay3 else a1
  if C3 i then k0_pay1 (stepYs i x0 x1 x2 x3 (ySl i ay)) b1 else b1

open Classical in
/-- The second accumulator after the point. -/
def stepL2 (ax : Vec F S1024x1 .f32) (a2 : Vec F S1x1 .f32) : Vec F S1x1 .f32 :=
  let b2 : Vec F S1x1 .f32 := if C1 i then k0_pay4 else a2
  if C2 i then k0_pay17 (stepX i x0 x1 x2 x3 ax) x4 b2 else b2

/-- The four scratch buffers after the point. -/
def stepSt (s : St F) : St F where
  x := stepX i x0 x1 x2 x3 s.x
  y := stepY i x0 x1 x2 x3 s.y
  l1 := stepL1 i x0 x1 x2 x3 s.y s.l1
  l2 := stepL2 i x0 x1 x2 x3 x4 s.x s.l2

/-- What a point with (i, j) = (3, 7) stores into the result's block. -/
def outOf (s : St F) : Vec F S1x8x128 .f32 :=
  k0_pay2 (stepL1 i x0 x1 x2 x3 s.y s.l1) (stepL2 i x0 x1 x2 x3 x4 s.x s.l2)

end Point

/-! ## The run of points -/

variable (m : (ℓ : Loc nD τ sig) → Buf (Elt F) ℓ)

/-- The input windows' blocks at point t, at their literal types. -/
abbrev b0 (c : Dev nD) (t : Fin cfg0.N) : Vec F S1x1024x128 .f32 := iblk m c 0 t
abbrev b1 (c : Dev nD) (t : Fin cfg0.N) : Vec F S1x1024x128 .f32 := iblk m c 1 t
abbrev b2 (c : Dev nD) (t : Fin cfg0.N) : Vec F S1x512x128 .f32 := iblk m c 2 t
abbrev b3 (c : Dev nD) (t : Fin cfg0.N) : Vec F S1x512x128 .f32 := iblk m c 3 t
abbrev b4 (c : Dev nD) (t : Fin cfg0.N) : Vec F S1x1024x1 .f32 := iblk m c 4 t

/-- The scratch contents after point t from contents s before it. -/
def stepAt (c : Dev nD) (t : Fin cfg0.N) (s : St F) : St F :=
  stepSt (grid0.coords t) (b0 m c t) (b1 m c t) (b2 m c t) (b3 m c t) (b4 m c t) s

/-- The scratch contents before point k, from contents s0 at the region's entry. -/
def stFrom (c : Dev nD) (s0 : St F) : ℕ → St F
  | 0 => s0
  | k + 1 => if h : k < cfg0.N then stepAt m c ⟨k, h⟩ (stFrom c s0 k) else stFrom c s0 k

/-- What point t stores into the result's block when (i, j) = (3, 7), from contents s0 at the region's entry. -/
def outAt (c : Dev nD) (s0 : St F) (t : Fin cfg0.N) : Vec F S1x8x128 .f32 :=
  outOf (grid0.coords t) (b0 m c t) (b1 m c t) (b2 m c t) (b3 m c t) (b4 m c t) (stFrom m c s0 t.val)

theorem stFrom_succ (c : Dev nD) (s0 : St F) (t : Fin cfg0.N) :
    stFrom m c s0 (t.val + 1) = stepAt m c t (stFrom m c s0 t.val) := by
  show (if h : t.val < cfg0.N then stepAt m c ⟨t.val, h⟩ (stFrom m c s0 t.val) else _) = _
  rw [dif_pos t.isLt]

/-- Contents nothing depends on: the entry contents the certificate's data are stated from. -/
def junkSt : St F :=
  ⟨fun _ => (Elt.nonempty F .f32).some, fun _ => (Elt.nonempty F .f32).some, fun _ => (Elt.nonempty F .f32).some, fun _ => (Elt.nonempty F .f32).some⟩

end Cert.Kernel.Hand

end
-- ==== Proof.KSched.lean ====
/-
  The grid's points in closed form: point t of the 8 x 4 x 8 grid is batch t / 32, row tile t / 8 % 4, column tile
  t % 8; and at which points each of the body's four branches is taken.
-/
import proofs.«414573_j7155415515634_3_alg».proof.Proof.KStep

noncomputable section

namespace Cert.Kernel.Hand

open Cert.Kernel Cert.Kernel.Gen
open Idealize.ShloMosaic

theorem N_256 : cfg0.N = 256 := N_0

theorem coords_eq : ∀ t : Fin cfg0.N, ((grid0.coords t) 0).val = t.val / 32 ∧ ((grid0.coords t) 1).val = t.val / 8 % 4 ∧ ((grid0.coords t) 2).val = t.val % 8 :=
  (by decide +kernel : ∀ t : Fin grid0.N, ((grid0.coords t) 0).val = t.val / 32 ∧ ((grid0.coords t) 1).val = t.val / 8 % 4 ∧ ((grid0.coords t) 2).val = t.val % 8)

theorem C1_iff : ∀ t : Fin cfg0.N, C1 (grid0.coords t) ↔ t.val % 32 = 0 :=
  (by decide +kernel : ∀ t : Fin grid0.N, C1 (grid0.coords t) ↔ t.val % 32 = 0)
theorem C2_iff : ∀ t : Fin cfg0.N, C2 (grid0.coords t) ↔ t.val % 8 = 7 :=
  (by decide +kernel : ∀ t : Fin grid0.N, C2 (grid0.coords t) ↔ t.val % 8 = 7)
theorem C3_iff : ∀ t : Fin cfg0.N, C3 (grid0.coords t) ↔ 24 ≤ t.val % 32 :=
  (by decide +kernel : ∀ t : Fin grid0.N, C3 (grid0.coords t) ↔ 24 ≤ t.val % 32)
theorem C4_iff : ∀ t : Fin cfg0.N, C4 (grid0.coords t) ↔ t.val % 32 = 31 :=
  (by decide +kernel : ∀ t : Fin grid0.N, C4 (grid0.coords t) ↔ t.val % 32 = 31)

end Cert.Kernel.Hand

end
-- ==== Proof.KDats.lean ====
/-
  The kernel region's proof data.

  The invariant before point k: the four scratch buffers hold what k points leave of SOME contents s0 at the region's
  entry (Proof/Step.lean `stFrom`), and the generator register is at some state.  The input windows' buffers hold their
  blocks and are left so; the result's window is idle except at the last point of each batch, where the block the body
  stores is stated from fixed entry contents (what is stored there does not depend on them).
-/
import proofs.«414573_j7155415515634_3_alg».proof.Proof.KSched
import Idealize.ShloMosaic.Lib.Tactic
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

/-! ## The proof data -/

/-- The scratch buffers at given contents. -/
def ownSt (c : Dev nD) (s : St F) : sProp 𝕄 :=
  iprop(owns (c : Thread nD τ) xM fullShare s.x ∗ owns (c : Thread nD τ) yM fullShare s.y
    ∗ owns (c : Thread nD τ) l1M fullShare s.l1 ∗ owns (c : Thread nD τ) l2M fullShare s.l2)

/-- The invariant before point k. -/
def Φs (c : Dev nD) (k : ℕ) : sProp 𝕄 :=
  iprop((∃ s0 : St F, ownSt c (stFrom m c s0 k)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c junkSt t
  Φ k := Φs m c k.val
  q _ := fullShare
  owed _ := 0

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = outAt m c junkSt t := rfl

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d

/-! ## Where the result's window is idle -/

theorem idle5_of (t : Fin cfg0.N) (h : C4 (grid0.coords t)) : idle0 5 (grid0.coords t) = false := by
  show (!(k0_cond4 (grid0.coords t) == 1#1)) = false; rw [show (k0_cond4 (grid0.coords t) == 1#1) = true from beq_iff_eq.mpr h]; rfl
theorem idle5_of_not (t : Fin cfg0.N) (h : ¬ C4 (grid0.coords t)) : idle0 5 (grid0.coords t) = true := by
  show (!(k0_cond4 (grid0.coords t) == 1#1)) = true; rw [show (k0_cond4 (grid0.coords t) == 1#1) = false from beq_eq_false_iff_ne.mpr h]; rfl
theorem flush5_of_not (t : Fin cfg0.N) (h : ¬ C4 (grid0.coords t)) : (cfg0.win 5).flush t = false :=
  Bool.eq_false_iff.mpr fun hf => h ((C4_iff t).mpr ((flush0_5 t).mp hf))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre (c : Dev nD) (t : Fin cfg0.N) : (dats m 0 c).Φ t.castSucc = Φs m c t.val := rfl
theorem Φ_post (c : Dev nD) (t : Fin cfg0.N) : (dats m 0 c).Φ t.succ = Φs m c (t.val + 1) := rfl

theorem stFrom_succ_x (c : Dev nD) (s0 : St F) (t : Fin cfg0.N) :
    (stFrom m c s0 (t.val + 1)).x = stepX (grid0.coords t) (b0 m c t) (b1 m c t) (b2 m c t) (b3 m c t) (stFrom m c s0 t.val).x := by
  rw [stFrom_succ]; simp only [stepAt, stepSt]
theorem stFrom_succ_y (c : Dev nD) (s0 : St F) (t : Fin cfg0.N) :
    (stFrom m c s0 (t.val + 1)).y = stepY (grid0.coords t) (b0 m c t) (b1 m c t) (b2 m c t) (b3 m c t) (stFrom m c s0 t.val).y := by
  rw [stFrom_succ]; simp only [stepAt, stepSt]
theorem stFrom_succ_l1 (c : Dev nD) (s0 : St F) (t : Fin cfg0.N) :
    (stFrom m c s0 (t.val + 1)).l1 = stepL1 (grid0.coords t) (b0 m c t) (b1 m c t) (b2 m c t) (b3 m c t) (stFrom m c s0 t.val).y (stFrom m c s0 t.val).l1 := by
  rw [stFrom_succ]; simp only [stepAt, stepSt]
theorem stFrom_succ_l2 (c : Dev nD) (s0 : St F) (t : Fin cfg0.N) :
    (stFrom m c s0 (t.val + 1)).l2 = stepL2 (grid0.coords t) (b0 m c t) (b1 m c t) (b2 m c t) (b3 m c t) (b4 m c t) (stFrom m c s0 t.val).x (stFrom m c s0 t.val).l2 := by
  rw [stFrom_succ]; simp only [stepAt, stepSt]

/-- The scratch buffers after point t are the step of what they held before it. -/
theorem ownSt_succ (c : Dev nD) (s0 : St F) (t : Fin cfg0.N) :
    (iprop(owns (c : Thread nD τ) xM fullShare (stFrom m c s0 (t.val + 1)).x ∗ owns (c : Thread nD τ) yM fullShare (stFrom m c s0 (t.val + 1)).y
        ∗ owns (c : Thread nD τ) l1M fullShare (stFrom m c s0 (t.val + 1)).l1 ∗ owns (c : Thread nD τ) l2M fullShare (stFrom m c s0 (t.val + 1)).l2) : sProp 𝕄)
      = iprop(owns (c : Thread nD τ) xM fullShare (stepX (grid0.coords t) (b0 m c t) (b1 m c t) (b2 m c t) (b3 m c t) (stFrom m c s0 t.val).x)
        ∗ owns (c : Thread nD τ) yM fullShare (stepY (grid0.coords t) (b0 m c t) (b1 m c t) (b2 m c t) (b3 m c t) (stFrom m c s0 t.val).y)
        ∗ owns (c : Thread nD τ) l1M fullShare (stepL1 (grid0.coords t) (b0 m c t) (b1 m c t) (b2 m c t) (b3 m c t) (stFrom m c s0 t.val).y (stFrom m c s0 t.val).l1)
        ∗ owns (c : Thread nD τ) l2M fullShare (stepL2 (grid0.coords t) (b0 m c t) (b1 m c t) (b2 m c t) (b3 m c t) (b4 m c t) (stFrom m c s0 t.val).x (stFrom m c s0 t.val).l2)) := by
  rw [stFrom_succ_x, stFrom_succ_y, stFrom_succ_l1, stFrom_succ_l2]

end Cert.Kernel.Hand

end
-- ==== Proof.KBody.lean ====
/-
  The kernel body at one grid point, run in each of the five control cases the grid meets, on any staging memrefs:
  from the five input buffers at their blocks and the four scratch buffers at contents s, the body ends with the inputs
  as they were and the scratch buffers at the point's step of s (Proof/Step.lean); the result's staging buffer is left as
  it was except at (i, j) = (3, 7), where it ends at the batch's total, broadcast.
  The cases: A (i, j) = (0, 0); B neither j = 7 nor i = 3, and not (0, 0); C j = 7, i < 3; D i = 3, j < 7; E (3, 7).
-/
import proofs.«414573_j7155415515634_3_alg».proof.Proof.KStep
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

omit [FloatOps F] in
theorem hz2 : (![0, 0] : Fin 2 → Nat) = fun _ => 0 := by funext a; fin_cases a <;> rfl
omit [FloatOps F] in
theorem hz3 : (![0, 0, 0] : Fin 3 → Nat) = fun _ => 0 := by funext a; fin_cases a <;> rfl

/-- One store through the whole-shape rectangle leaves its payload, whatever the buffer held. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

section Runs

variable (c : Dev nD) (i : grid0.Coords)
  (M0 : Memref sig .tc .vmem S1x1024x128 .f32) (h0 : M0.IsWhole) (M1 : Memref sig .tc .vmem S1x1024x128 .f32) (h1 : M1.IsWhole)
  (M2 : Memref sig .tc .vmem S1x512x128 .f32) (h2 : M2.IsWhole) (M3 : Memref sig .tc .vmem S1x512x128 .f32) (h3 : M3.IsWhole)
  (M4 : Memref sig .tc .vmem S1x1024x1 .f32) (h4 : M4.IsWhole) (M5 : Memref sig .tc .vmem S1x8x128 .f32) (h5 : M5.IsWhole)
  (x0 : Vec F S1x1024x128 .f32) (x1 : Vec F S1x1024x128 .f32) (x2 : Vec F S1x512x128 .f32) (x3 : Vec F S1x512x128 .f32) (x4 : Vec F S1x1024x1 .f32)
  (s : St F)

local notation "KL" => cc0__kl_kernel i M0 h0 M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _)

/-- Case A, (i, j) = (0, 0): the accumulators are cleared; nothing else beyond the two running minima. -/
theorem run_A (hC1 : C1 i) (hC2 : ¬ C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_pos hC1, if_neg hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    unfold stepL2 stepX; simp only [if_pos hC1, if_neg hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

/-- Case B: only the two running minima are updated. -/
theorem run_B (hC1 : ¬ C1 i) (hC2 : ¬ C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    rw [hfl1]; unfold stepL1; simp only [if_neg hC1, if_neg hC2, if_neg hC3]
  · iexists _; isplitr; swap; (· iexact Hl2); ipureintro
    rw [hfl2]; unfold stepL2; simp only [if_neg hC1, if_neg hC2, if_neg hC3]

/-- Case C, j = 7 and i < 3: the second accumulator gains the masked sum of the row minima. -/
theorem run_C (hC1 : ¬ C1 i) (hC2 : C2 i) (hC3 : ¬ C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    rw [hfl1]; unfold stepL1; simp only [if_neg hC1, if_pos hC2, if_neg hC3]
  · iexists _; isplitr; swap; (· iexact Hl2); ipureintro
    unfold stepL2 stepX; simp only [if_neg hC1, if_pos hC2, if_neg hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

/-- Case D, i = 3 and j < 7: the first accumulator gains the sum of slice j of the column minima. -/
theorem run_D (hC1 : ¬ C1 i) (hC2 : ¬ C2 i) (hC3 : C3 i) (hC4 : ¬ C4 i) (O : sProp 𝕄) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ O
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ O
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, HO, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [HO]; · iexact HO
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_neg hC1, if_neg hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    rw [hfl2]; unfold stepL2; simp only [if_neg hC1, if_neg hC2, if_pos hC3]

/-- Case E, (i, j) = (3, 7): both accumulators gain their sums and the total is stored into the result's block. -/
theorem run_E (hC1 : ¬ C1 i) (hC2 : C2 i) (hC3 : C3 i) (hC4 : C4 i) (Q : PUnit → sProp 𝕄) :
    iprop(owns (c : Thread nD τ) M0 fullShare x0 ∗ owns (c : Thread nD τ) M1 fullShare x1 ∗ owns (c : Thread nD τ) M2 fullShare x2
      ∗ owns (c : Thread nD τ) M3 fullShare x3 ∗ owns (c : Thread nD τ) M4 fullShare x4 ∗ (∃ d, owns (c : Thread nD τ) M5 fullShare d)
      ∗ owns (c : Thread nD τ) xM fullShare s.x ∗ owns (c : Thread nD τ) yM fullShare s.y ∗ owns (c : Thread nD τ) l1M fullShare s.l1 ∗ owns (c : Thread nD τ) l2M fullShare s.l2
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare (outOf i x0 x1 x2 x3 x4 s)
          ∗ owns (c : Thread nD τ) xM fullShare (stepX i x0 x1 x2 x3 s.x) ∗ owns (c : Thread nD τ) yM fullShare (stepY i x0 x1 x2 x3 s.y)
          ∗ owns (c : Thread nD τ) l1M fullShare (stepL1 i x0 x1 x2 x3 s.y s.l1) ∗ owns (c : Thread nD τ) l2M fullShare (stepL2 i x0 x1 x2 x3 x4 s.x s.l2)) -∗ Q ⟨⟩))
      ⊢ wp frame (wpE (defs₀ (F := F)) Variants.none c none) Set.univ KL Q := by
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fx, %hfx, Hx⟩, ⟨%fy, %hfy, Hy⟩, ⟨%fl1, %hfl1, Hl1⟩, ⟨%fl2, %hfl2, Hl2⟩, Hk⟩
  obtain rfl := h0.eq_unread hf0; obtain rfl := h1.eq_unread hf1; obtain rfl := h2.eq_unread hf2; obtain rfl := h3.eq_unread hf3; obtain rfl := h4.eq_unread hf4
  obtain rfl := (Memref.isWhole_whole cc0_scratch0).eq_unread hfx; obtain rfl := (Memref.isWhole_whole cc0_scratch1).eq_unread hfy
  obtain rfl := (Memref.isWhole_whole cc0_scratch2).eq_unread hfl1; obtain rfl := (Memref.isWhole_whole cc0_scratch3).eq_unread hfl2
  sl_exec! (disch := assumption)
  sl_step
  iapply Hk
  isplitl [H0]; · iexists _; isplitr; (· ipureintro; exact h0.read_unread _); iexact H0
  isplitl [H1]; · iexists _; isplitr; (· ipureintro; exact h1.read_unread _); iexact H1
  isplitl [H2]; · iexists _; isplitr; (· ipureintro; exact h2.read_unread _); iexact H2
  isplitl [H3]; · iexists _; isplitr; (· ipureintro; exact h3.read_unread _); iexact H3
  isplitl [H4]; · iexists _; isplitr; (· ipureintro; exact h4.read_unread _); iexact H4
  isplitl [H5]
  · iexists _; isplitr; swap; (· iexact H5); ipureintro
    unfold outOf stepL1 stepL2 stepX stepYs ySl; simp only [if_neg hC1, if_pos hC2, if_pos hC3]
    sl_unfold_words
    rw [read_writes_whole _ _ hz3]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  isplitl [Hx]
  · iexists _; isplitr; swap; (· iexact Hx); ipureintro
    unfold stepX
    sl_unfold_words
    rw [read_writes_whole _ _ hz2]
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
  isplitl [Hy]
  · iexists _; isplitr; swap; (· iexact Hy); ipureintro
    unfold stepY stepYs ySl
    sl_unfold_words
    simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    rfl
  isplitl [Hl1]
  · iexists _; isplitr; swap; (· iexact Hl1); ipureintro
    unfold stepL1 stepYs ySl; simp only [if_neg hC1, if_pos hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl
  · iexists _; isplitr; swap; (· iexact Hl2); ipureintro
    unfold stepL2 stepX; simp only [if_neg hC1, if_pos hC2, if_pos hC3]
    sl_unfold_words
    rw [read_writes_whole _ _ hz2]
    try simp only [View.readAt_eq_ld, View.readCov_cons_toLoadRect, hf0, hf1, hf2, hf3, hf4, hfx, hfy, hfl1, hfl2, View.ld_unit_zero (S := S1x1024x128) hz3, View.ld_unit_zero (S := S1x512x128) hz3, View.ld_unit_zero (S := S1024x1) hz2, View.ld_unit_zero (S := S1x1) hz2, View.ld_unit_zero (S := S1x1024x1) hz3, View.ld_unit_zero (S := S1x8x128) hz3]
    try rfl

end Runs

end Cert.Kernel.Hand

end
-- ==== Proof.KIndep.lean ====
/-
  What the region stores does not depend on what the four scratch buffers hold at its entry.

  The row scratch is overwritten without being read at j = 0, slice j of the column scratch at i = 0, and the two
  accumulators are cleared at (i, j) = (0, 0).  So, along one batch's sweep of 32 points, the contents reached from two
  entry states agree on more and more: the row scratch after a point with j = 0 until the end of its row tile, slice j'
  of the column scratch from the point (0, j') on, the accumulators from the first point on.  At the sweep's last point
  everything the stored value reads is agreed on.
-/
import proofs.«414573_j7155415515634_3_alg».proof.Proof.KSched
import Idealize.ShloMosaic.Lib.WritesUnit
import Idealize.ShloMosaic.Lib.Pipeline.Frame
import Idealize.ShloMosaic.Lib.ValueIdx

noncomputable section

namespace Cert.Kernel.Hand

open Cert.Kernel Cert.Kernel.Gen
open Idealize.ShloMosaic

variable {F : FTy → Type} [FloatOps F]

section Point

variable (i : grid0.Coords) (x0 x1 : Vec F S1x1024x128 .f32) (x2 x3 : Vec F S1x512x128 .f32) (x4 : Vec F S1x1024x1 .f32)

/-- Slice j of the column scratch after the point is the slice's step. -/
theorem ySl_stepY_same (ay : Vec F S1x4096 .f32) :
    ySl i (stepY i x0 x1 x2 x3 ay) = stepYs i x0 x1 x2 x3 (ySl i ay) := by
  funext x
  exact View.read_writes_cons_emb yM.view ((Memref.isWhole_whole cc0_scratch1).unread ay) (rY i)
    (stepYs i x0 x1 x2 x3 (ySl i ay)) [] x

/-- Another slice is untouched. -/
theorem ySl_stepY_other (i' : grid0.Coords) (h : (i' 2).val ≠ (i 2).val) (ay : Vec F S1x4096 .f32) :
    ySl i' (stepY i x0 x1 x2 x3 ay) = ySl i' ay := by
  funext x
  have hx : (x 1).val < 512 := (x 1).isLt
  have hi : (i 2).val < 8 := (i 2).isLt
  have hi' : (i' 2).val < 8 := (i' 2).isLt
  have hy : (((rY i').idx x) 1).val = 512 * (i' 2).val + (x 1).val := by
    show (k0_off1 i') 1 + 1 * (x 1).val = _
    rw [Gen.k0_off1_eq i', Nat.one_mul]
    rfl
  show yM.view.read (Elt F) (yM.view.writes (Elt F) ((Memref.isWhole_whole cc0_scratch1).unread ay)
      [⟨rY i, stepYs i x0 x1 x2 x3 (ySl i ay)⟩]) ((rY i').idx x) = ay ((rY i').idx x)
  rw [View.read_writes_cons_unit_of_not_mem yM.view _ (k0_off1_inb i) _ [] ((rY i').idx x) (Gen.k0_off1_eq i) 1
    (by
      rw [hy]
      show 512 * (i' 2).val + (x 1).val < 512 * (i 2).val ∨ 512 * (i 2).val + 512 ≤ 512 * (i' 2).val + (x 1).val
      omega)]
  rw [View.writes_nil, Memref.IsWhole.read_unread]

/-- Two slices are the same function when the column-tile coordinates are equal. -/
theorem ySl_congr (i' : grid0.Coords) (h : (i' 2).val = (i 2).val) (ay : Vec F S1x4096 .f32) :
    ySl i' ay = ySl i ay := by
  funext x
  show ay ((rY i').idx x) = ay ((rY i).idx x)
  congr 1
  funext a
  apply Fin.ext
  show (k0_off1 i') a + 1 * (x a).val = (k0_off1 i) a + 1 * (x a).val
  rw [Gen.k0_off1_eq i', Gen.k0_off1_eq i, h]

/-- At j = 0 the row scratch is overwritten without being read. -/
theorem stepX_reset (h : (i 2).val = 0) (ax ax' : Vec F S1024x1 .f32) :
    stepX i x0 x1 x2 x3 ax = stepX i x0 x1 x2 x3 ax' := by
  unfold stepX k0_pay15
  rw [h]
  have hc : Scalar.cmpi .eq (BitVec.ofNat 32 0) 0#32 = 1#1 := by decide
  simp only [hc, ValueIdx.select_one]

/-- At i = 0 slice j of the column scratch is overwritten without being read. -/
theorem stepYs_reset (h : (i 1).val = 0) (ys ys' : Vec F S1x512 .f32) :
    stepYs i x0 x1 x2 x3 ys = stepYs i x0 x1 x2 x3 ys' := by
  unfold stepYs k0_pay16
  rw [h]
  have hc : Scalar.cmpi .eq (BitVec.ofNat 32 0) 0#32 = 1#1 := by decide
  simp only [hc, ValueIdx.select_one]

end Point

/-! ## Agreement of two runs along a batch's sweep -/

/-- What two scratch contents agree on before sweep position n (n = 8 i + j): the row scratch once a point with j = 0
    has been passed in this row tile, the slices of the column scratch whose first point has been passed, the accumulators
    after the first point. -/
def Agree (n : ℕ) (s s' : St F) : Prop :=
  (n % 8 ≠ 0 → s.x = s'.x) ∧ (∀ i' : grid0.Coords, (i' 2).val < n → ySl i' s.y = ySl i' s'.y) ∧
    (n ≠ 0 → s.l1 = s'.l1 ∧ s.l2 = s'.l2)

section Point

variable (i : grid0.Coords) (x0 x1 : Vec F S1x1024x128 .f32) (x2 x3 : Vec F S1x512x128 .f32) (x4 : Vec F S1x1024x1 .f32)

/-- One point at sweep position n: from contents that agree before it, the row scratch, the slices up to position n of
    the column scratch and both accumulators agree after it. -/
theorem point_agree (n : ℕ) (h1 : (i 1).val = n / 8) (h2 : (i 2).val = n % 8) (c1 : C1 i ↔ n = 0)
    (s s' : St F) (hA : Agree n s s') :
    stepX i x0 x1 x2 x3 s.x = stepX i x0 x1 x2 x3 s'.x ∧
      (∀ i' : grid0.Coords, (i' 2).val < n + 1 →
        ySl i' (stepY i x0 x1 x2 x3 s.y) = ySl i' (stepY i x0 x1 x2 x3 s'.y)) ∧
      stepL1 i x0 x1 x2 x3 s.y s.l1 = stepL1 i x0 x1 x2 x3 s'.y s'.l1 ∧
      stepL2 i x0 x1 x2 x3 x4 s.x s.l2 = stepL2 i x0 x1 x2 x3 x4 s'.x s'.l2 := by
  obtain ⟨hx, hy, hl⟩ := hA
  -- the row scratch
  have hX : stepX i x0 x1 x2 x3 s.x = stepX i x0 x1 x2 x3 s'.x := by
    by_cases h0 : n % 8 = 0
    · exact stepX_reset i x0 x1 x2 x3 (h2.trans h0) s.x s'.x
    · rw [hx h0]
  -- this point's slice
  have hS' : stepYs i x0 x1 x2 x3 (ySl i s.y) = stepYs i x0 x1 x2 x3 (ySl i s'.y) := by
    by_cases h0 : n / 8 = 0
    · exact stepYs_reset i x0 x1 x2 x3 (h1.trans h0) _ _
    · rw [hy i (by omega)]
  have hS : ySl i (stepY i x0 x1 x2 x3 s.y) = ySl i (stepY i x0 x1 x2 x3 s'.y) := by
    rw [ySl_stepY_same, ySl_stepY_same]
    exact hS'
  -- every slice asked for
  have hY : ∀ i' : grid0.Coords, (i' 2).val < n + 1 →
      ySl i' (stepY i x0 x1 x2 x3 s.y) = ySl i' (stepY i x0 x1 x2 x3 s'.y) := by
    intro i' hi'
    by_cases he : (i' 2).val = (i 2).val
    · rw [ySl_congr i i' he, ySl_congr i i' he]
      exact hS
    · rw [ySl_stepY_other i x0 x1 x2 x3 i' he, ySl_stepY_other i x0 x1 x2 x3 i' he]
      have : (i' 2).val < 8 := (i' 2).isLt
      exact hy i' (by omega)
  refine ⟨hX, hY, ?_, ?_⟩
  · -- the first accumulator
    unfold stepL1
    by_cases h0 : n = 0
    · simp only [if_pos (c1.mpr h0), hS']
    · simp only [if_neg (fun h => h0 (c1.mp h)), hS', (hl h0).1]
  · -- the second accumulator
    unfold stepL2
    by_cases h0 : n = 0
    · simp only [if_pos (c1.mpr h0), hX]
    · simp only [if_neg (fun h => h0 (c1.mp h)), hX, (hl h0).2]

/-- The same, as agreement of the contents after the point at the next sweep position. -/
theorem stepSt_agree (n : ℕ) (h1 : (i 1).val = n / 8) (h2 : (i 2).val = n % 8) (c1 : C1 i ↔ n = 0)
    (s s' : St F) (hA : Agree n s s') :
    Agree (n + 1) (stepSt i x0 x1 x2 x3 x4 s) (stepSt i x0 x1 x2 x3 x4 s') := by
  obtain ⟨hX, hY, hL1, hL2⟩ := point_agree i x0 x1 x2 x3 x4 n h1 h2 c1 s s' hA
  unfold Agree stepSt
  dsimp only
  exact ⟨fun _ => hX, hY, fun _ => ⟨hL1, hL2⟩⟩

end Point

/-! ## The run -/

variable (m : (ℓ : Loc nD τ sig) → Buf (Elt F) ℓ)

/-- Before point k the contents reached from two entry contents agree at sweep position k % 32. -/
theorem stFrom_agree (c : Dev nD) (s0 s0' : St F) :
    ∀ k : ℕ, k ≤ cfg0.N → Agree (k % 32) (stFrom m c s0 k) (stFrom m c s0' k) := by
  intro k
  induction k with
  | zero =>
    intro _
    exact ⟨fun h => absurd rfl h, fun i' h => absurd h (Nat.not_lt_zero _), fun h => absurd rfl h⟩
  | succ k ih =>
    intro hk
    have hk' : k < cfg0.N := hk
    have hA := ih (Nat.le_of_lt hk')
    obtain ⟨-, e1, e2⟩ := coords_eq ⟨k, hk'⟩
    have e1' : ((grid0.coords ⟨k, hk'⟩) 1).val = k % 32 / 8 := by rw [e1]; show k / 8 % 4 = k % 32 / 8; omega
    have e2' : ((grid0.coords ⟨k, hk'⟩) 2).val = k % 32 % 8 := by rw [e2]; show k % 8 = k % 32 % 8; omega
    have c1 := C1_iff ⟨k, hk'⟩
    rw [stFrom_succ m c s0 ⟨k, hk'⟩, stFrom_succ m c s0' ⟨k, hk'⟩]
    by_cases h31 : (k + 1) % 32 = 0
    · rw [h31]
      exact ⟨fun h => absurd rfl h, fun i' h => absurd h (Nat.not_lt_zero _), fun h => absurd rfl h⟩
    · have hs : (k + 1) % 32 = k % 32 + 1 := by omega
      rw [hs]
      unfold stepAt
      exact stepSt_agree (grid0.coords ⟨k, hk'⟩) (b0 m c ⟨k, hk'⟩) (b1 m c ⟨k, hk'⟩) (b2 m c ⟨k, hk'⟩) (b3 m c ⟨k, hk'⟩)
        (b4 m c ⟨k, hk'⟩) (k % 32) e1' e2' c1 _ _ hA

/-- What the last point of a batch's sweep stores does not depend on the entry contents. -/
theorem outAt_indep (c : Dev nD) (s0 s0' : St F) (t : Fin cfg0.N) (ht : t.val % 32 = 31) :
    outAt m c s0 t = outAt m c s0' t := by
  have hA := stFrom_agree m c s0 s0' t.val (Nat.le_of_lt t.isLt)
  obtain ⟨-, e1, e2⟩ := coords_eq t
  have e1' : ((grid0.coords t) 1).val = t.val % 32 / 8 := by rw [e1]; omega
  have e2' : ((grid0.coords t) 2).val = t.val % 32 % 8 := by rw [e2]; omega
  obtain ⟨-, -, hL1, hL2⟩ := point_agree (grid0.coords t) (b0 m c t) (b1 m c t) (b2 m c t) (b3 m c t) (b4 m c t)
    (t.val % 32) e1' e2' (C1_iff t) _ _ hA
  unfold outAt outOf
  rw [hL1, hL2]

end Cert.Kernel.Hand

end
-- ==== Proof.KLaunch.lean ====
/-
  The kernel region's body obligation and its launch.

  At every grid point the body, from the invariant and the windows' current buffers, runs to the invariant at the next
  point: the point's control case decides which run applies (Proof/Body.lean), and the scratch buffers' contents move by
  the point's step.  At the last point of a batch the block stored into the result's buffer is the one the data name,
  because it does not depend on the entry contents (Proof/Indep.lean).  The launch is the library's frame run with a
  tracking invariant, @main continuing after the region; the frame claim follows.
-/
import proofs.«414573_j7155415515634_3_alg».proof.Proof.KDats
import proofs.«414573_j7155415515634_3_alg».proof.Proof.KBody
import proofs.«414573_j7155415515634_3_alg».proof.Proof.KIndep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

theorem idleIn_0 (t : Fin cfg0.N) : idle0 0 (grid0.coords t) = false := rfl
theorem idleIn_1 (t : Fin cfg0.N) : idle0 1 (grid0.coords t) = false := rfl
theorem idleIn_2 (t : Fin cfg0.N) : idle0 2 (grid0.coords t) = false := rfl
theorem idleIn_3 (t : Fin cfg0.N) : idle0 3 (grid0.coords t) = false := rfl
theorem idleIn_4 (t : Fin cfg0.N) : idle0 4 (grid0.coords t) = false := rfl

theorem ownSt_succ_intro (c : Dev nD) (s0 : St F) (t : Fin cfg0.N) :
    iprop(owns (c : Thread nD τ) xM fullShare (stepX (grid0.coords t) (b0 m c t) (b1 m c t) (b2 m c t) (b3 m c t) (stFrom m c s0 t.val).x)
        ∗ owns (c : Thread nD τ) yM fullShare (stepY (grid0.coords t) (b0 m c t) (b1 m c t) (b2 m c t) (b3 m c t) (stFrom m c s0 t.val).y)
        ∗ owns (c : Thread nD τ) l1M fullShare (stepL1 (grid0.coords t) (b0 m c t) (b1 m c t) (b2 m c t) (b3 m c t) (stFrom m c s0 t.val).y (stFrom m c s0 t.val).l1)
        ∗ owns (c : Thread nD τ) l2M fullShare (stepL2 (grid0.coords t) (b0 m c t) (b1 m c t) (b2 m c t) (b3 m c t) (b4 m c t) (stFrom m c s0 t.val).x (stFrom m c s0 t.val).l2))
      ⊢ (iprop(owns (c : Thread nD τ) xM fullShare (stFrom m c s0 (t.val + 1)).x ∗ owns (c : Thread nD τ) yM fullShare (stFrom m c s0 (t.val + 1)).y
        ∗ owns (c : Thread nD τ) l1M fullShare (stFrom m c s0 (t.val + 1)).l1 ∗ owns (c : Thread nD τ) l2M fullShare (stFrom m c s0 (t.val + 1)).l2) : sProp 𝕄) := by
  rw [ownSt_succ]

/-- What the last point of a batch stores is the block the data name, whatever the entry contents were. -/
theorem out_intro (c : Dev nD) (s0 : St F) (t : Fin cfg0.N) (ht : t.val % 32 = 31) (M5 : Memref sig .tc .vmem S1x8x128 .f32) :
    (owns (c : Thread nD τ) M5 fullShare (outOf (grid0.coords t) (b0 m c t) (b1 m c t) (b2 m c t) (b3 m c t) (b4 m c t) (stFrom m c s0 t.val)) : sProp 𝕄)
      ⊢ owns (c : Thread nD τ) M5 fullShare (outAt m c junkSt t) := by
  rw [show outOf (grid0.coords t) (b0 m c t) (b1 m c t) (b2 m c t) (b3 m c t) (b4 m c t) (stFrom m c s0 t.val) = outAt m c s0 t from rfl,
    outAt_indep m c s0 junkSt t ht]

theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl, Φ_pre, Φ_post]
  unfold Φs
  by_cases h4 : C4 (grid0.coords t)
  · have h31 := (C4_iff t).mp h4
    have h1 : ¬ C1 (grid0.coords t) := fun h => by have := (C1_iff t).mp h; omega
    have h2 : C2 (grid0.coords t) := (C2_iff t).mpr (by omega)
    have h3 : C3 (grid0.coords t) := (C3_iff t).mpr (by omega)
    simp only [idleIn_0, idleIn_1, idleIn_2, idleIn_3, idleIn_4, idle5_of t h4, before_0, before_1, before_2, before_3, before_4,
      after_0, after_1, after_2, after_3, after_4, after_5]
    iintro ⟨⟨⟨%s0, HS⟩, Hp⟩, ⟨%Wt, %hW, HO⟩, ⟨%d0, H0⟩, ⟨%d1, H1⟩, ⟨%d2, H2⟩, ⟨%d3, H3⟩, ⟨%d4, H4⟩, ⟨%d5, H5⟩⟩
    unfold ownSt
    icases HS with ⟨Hx, Hy, Hl1, Hl2⟩
    iapply (run_E c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (b0 m c t) (b1 m c t) (b2 m c t) (b3 m c t) (b4 m c t) (stFrom m c s0 t.val) h1 h2 h3 h4)
    isplitl [H0]; · iexact H0
    isplitl [H1]; · iexact H1
    isplitl [H2]; · iexact H2
    isplitl [H3]; · iexact H3
    isplitl [H4]; · iexact H4
    isplitl [H5]; · iexists _; iexact H5
    isplitl [Hx]; · iexact Hx
    isplitl [Hy]; · iexact Hy
    isplitl [Hl1]; · iexact Hl1
    isplitl [Hl2]; · iexact Hl2
    iintro ⟨H0, H1, H2, H3, H4, H5, Hx, Hy, Hl1, Hl2⟩
    isplitl [Hx Hy Hl1 Hl2 Hp]
    · isplitr [Hp]; swap; (· iexact Hp)
      iexists s0
      iapply (ownSt_succ_intro m c s0 t)
      isplitl [Hx]; · iexact Hx
      isplitl [Hy]; · iexact Hy
      isplitl [Hl1]; · iexact Hl1
      iexact Hl2
    isplitl [HO]; · iapply (owesAt_intro m c); iexact HO
    isplitl [H0]; · iexact H0
    isplitl [H1]; · iexact H1
    isplitl [H2]; · iexact H2
    isplitl [H3]; · iexact H3
    isplitl [H4]; · iexact H4
    iapply (out_intro m c s0 t h31); iexact H5
  · simp only [idleIn_0, idleIn_1, idleIn_2, idleIn_3, idleIn_4, idle5_of_not t h4, flush5_of_not t h4, before_0, before_1, before_2, before_3, before_4,
      after_0, after_1, after_2, after_3, after_4]
    have hn31 : t.val % 32 ≠ 31 := fun h => h4 ((C4_iff t).mpr h)
    by_cases h1 : C1 (grid0.coords t)
    · have h0 := (C1_iff t).mp h1
      have h2 : ¬ C2 (grid0.coords t) := fun h => by have := (C2_iff t).mp h; omega
      have h3 : ¬ C3 (grid0.coords t) := fun h => by have := (C3_iff t).mp h; omega
      iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
      unfold ownSt
      icases HS with ⟨Hx, Hy, Hl1, Hl2⟩
      iapply (run_A c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5))
        (b0 m c t) (b1 m c t) (b2 m c t) (b3 m c t) (b4 m c t) (stFrom m c s0 t.val) h1 h2 h3 h4 _)
      isplitl [H0]; · iexact H0
      isplitl [H1]; · iexact H1
      isplitl [H2]; · iexact H2
      isplitl [H3]; · iexact H3
      isplitl [H4]; · iexact H4
      isplitl [H5]; · iexact H5
      isplitl [Hx]; · iexact Hx
      isplitl [Hy]; · iexact Hy
      isplitl [Hl1]; · iexact Hl1
      isplitl [Hl2]; · iexact Hl2
      iintro ⟨H0, H1, H2, H3, H4, H5, Hx, Hy, Hl1, Hl2⟩
      isplitl [Hx Hy Hl1 Hl2 Hp]
      · isplitr [Hp]; swap; (· iexact Hp)
        iexists s0
        iapply (ownSt_succ_intro m c s0 t)
        isplitl [Hx]; · iexact Hx
        isplitl [Hy]; · iexact Hy
        isplitl [Hl1]; · iexact Hl1
        iexact Hl2
      isplitl [HO]; · iapply (owesAt_intro m c); iexact HO
      isplitl [H0]; · iexact H0
      isplitl [H1]; · iexact H1
      isplitl [H2]; · iexact H2
      isplitl [H3]; · iexact H3
      isplitl [H4]; · iexact H4
      iexact H5
    · by_cases h2 : C2 (grid0.coords t)
      · have h7 := (C2_iff t).mp h2
        have h3 : ¬ C3 (grid0.coords t) := fun h => by have := (C3_iff t).mp h; omega
        iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
        unfold ownSt
        icases HS with ⟨Hx, Hy, Hl1, Hl2⟩
        iapply (run_C c (grid0.coords t) (st0_0 t) (hstage0_0 ((cfg0.slots t 0).cast nbuf0_0)) (st0_1 t) (hstage0_1 ((cfg0.slots t 1).cast nbuf0_1))
          (st0_2 t) (hstage0_2 ((cfg0.slots t 2).cast nbuf0_2)) (st0_3 t) (hstage0_3 ((cfg0.slots t 3).cast nbuf0_3))
          (st0_4 t) (hstage0_4 ((cfg0.slots t 4).cast nbuf0_4)) (st0_5 t) (hstage0_5 ((cfg0.slots t 5).cast nbuf0_5))
          (b0 m c t) (b1 m c t) (b2 m c t) (b3 m c t) (b4 m c t) (stFrom m c s0 t.val) h1 h2 h3 h4 _)
        isplitl [H0]; · iexact H0
        isplitl [H1]; · iexact H1
        isplitl [H2]; · iexact H2
        isplitl [H3]; · iexact H3
        isplitl [H4]; · iexact H4
        isplitl [H5]; · iexact H5
        isplitl [Hx]; · iexact Hx
        isplitl [Hy]; · iexact Hy
        isplitl [Hl1]; · iexact Hl1
        isplitl [Hl2]; · iexact Hl2
        iintro ⟨H0, H1, H2, H3, H4, H5, Hx, Hy, Hl1, Hl2⟩
        isplitl [Hx Hy Hl1 Hl2 Hp]
        · isplitr [Hp]; swap; (· iexact Hp)
          iexists s0
          iapply (ownSt_succ_intro m c s0 t)
          isplitl [Hx]; · iexact Hx
          isplitl [Hy]; · iexact Hy
          isplitl [Hl1]; · iexact Hl1
          iexact Hl2
        isplitl [HO]; · iapply (owesAt_intro m c); iexact HO
        isplitl [H0]; · iexact H0
        isplitl [H1]; · iexact H1
        isplitl [H2]; · iexact H2
        isplitl [H3]; · iexact H3
        isplitl [H4]; · iexact H4
        iexact H5
      · by_cases h3 : C3 (grid0.coords t)
        ·
          iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
          unfold ownSt
          icases HS with ⟨Hx, Hy, Hl1, Hl2⟩
          iapply (run_D c (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5))
            (b0 m c t) (b1 m c t) (b2 m c t) (b3 m c t) (b4 m c t) (stFrom m c s0 t.val) h1 h2 h3 h4 _)
          isplitl [H0]; · iexact H0
          isplitl [H1]; · iexact H1
          isplitl [H2]; · iexact H2
          isplitl [H3]; · iexact H3
          isplitl [H4]; · iexact H4
          isplitl [H5]; · iexact H5
          isplitl [Hx]; · iexact Hx
          isplitl [Hy]; · iexact Hy
          isplitl [Hl1]; · iexact Hl1
          isplitl [Hl2]; · iexact Hl2
          iintro ⟨H0, H1, H2, H3, H4, H5, Hx, Hy, Hl1, Hl2⟩
          isplitl [Hx Hy Hl1 Hl2 Hp]
          · isplitr [Hp]; swap; (· iexact Hp)
            iexists s0
            iapply (ownSt_succ_intro m c s0 t)
            isplitl [Hx]; · iexact Hx
            isplitl [Hy]; · iexact Hy
            isplitl [Hl1]; · iexact Hl1
            iexact Hl2
          isplitl [HO]; · iapply (owesAt_intro m c); iexact HO
          isplitl [H0]; · iexact H0
          isplitl [H1]; · iexact H1
          isplitl [H2]; · iexact H2
          isplitl [H3]; · iexact H3
          isplitl [H4]; · iexact H4
          iexact H5
        ·
          iintro ⟨⟨⟨%s0, HS⟩, Hp⟩, ⟨%Wt, %hW, HO⟩, ⟨%d0, H0⟩, ⟨%d1, H1⟩, ⟨%d2, H2⟩, ⟨%d3, H3⟩, ⟨%d4, H4⟩, H5⟩
          unfold ownSt
          icases HS with ⟨Hx, Hy, Hl1, Hl2⟩
          iapply (run_B c (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4)) (st0_5 t) (hstage0_5 ((cfg0.slots t 5).cast nbuf0_5))
            (b0 m c t) (b1 m c t) (b2 m c t) (b3 m c t) (b4 m c t) (stFrom m c s0 t.val) h1 h2 h3 h4 _)
          isplitl [H0]; · iexact H0
          isplitl [H1]; · iexact H1
          isplitl [H2]; · iexact H2
          isplitl [H3]; · iexact H3
          isplitl [H4]; · iexact H4
          isplitl [H5]; · iexact H5
          isplitl [Hx]; · iexact Hx
          isplitl [Hy]; · iexact Hy
          isplitl [Hl1]; · iexact Hl1
          isplitl [Hl2]; · iexact Hl2
          iintro ⟨H0, H1, H2, H3, H4, H5, Hx, Hy, Hl1, Hl2⟩
          isplitl [Hx Hy Hl1 Hl2 Hp]
          · isplitr [Hp]; swap; (· iexact Hp)
            iexists s0
            iapply (ownSt_succ_intro m c s0 t)
            isplitl [Hx]; · iexact Hx
            isplitl [Hy]; · iexact Hy
            isplitl [Hl1]; · iexact Hl1
            iexact Hl2
          isplitl [HO]; · iapply (owesAt_intro m c); iexact HO
          isplitl [H0]; · iexact H0
          isplitl [H1]; · iexact H1
          isplitl [H2]; · iexact H2
          isplitl [H3]; · iexact H3
          isplitl [H4]; · iexact H4
          iexact H5

/-! ## The launch -/

/-- The class's invariant is the four scratch buffers at some contents and the generator register at some state. -/
theorem PhiA_eq (c : Dev nD) :
    (Pipeline.ΦA spec0 c : sProp 𝕄)
      = iprop(((∃ d, owns (c : Thread nD τ) xM fullShare d) ∗ (∃ d, owns (c : Thread nD τ) yM fullShare d)
          ∗ (∃ d, owns (c : Thread nD τ) l1M fullShare d) ∗ (∃ d, owns (c : Thread nD τ) l2M fullShare d)) ∗ (∃ r, prngReg c r)) := by
  unfold Pipeline.ΦA; rw [scopedRest0_eq]; simp only [xM, yM, l1M, l2M, owns_whole]; try rfl

theorem hin (c : Dev nD) : (Pipeline.ΦA spec0 c : sProp 𝕄) ⊢ (dats m 0 c).Φ 0 := by
  rw [PhiA_eq, show (dats m 0 c).Φ 0 = Φs m c 0 from rfl]
  unfold Φs ownSt
  iintro ⟨⟨⟨%dx, Hx⟩, ⟨%dy, Hy⟩, ⟨%d1, Hl1⟩, ⟨%d2, Hl2⟩⟩, Hp⟩
  isplitr [Hp]; swap; (· iexact Hp)
  iexists (⟨dx, dy, d1, d2⟩ : St F)
  isplitl [Hx]; · iexact Hx
  isplitl [Hy]; · iexact Hy
  isplitl [Hl1]; · iexact Hl1
  iexact Hl2

theorem hout (c : Dev nD) : (dats m 0 c).Φ (Fin.last cfg0.N) ⊢ (Pipeline.ΦA spec0 c : sProp 𝕄) := by
  rw [PhiA_eq, show (dats m 0 c).Φ (Fin.last cfg0.N) = Φs m c cfg0.N from rfl]
  unfold Φs ownSt
  iintro ⟨⟨%s0, Hx, Hy, Hl1, Hl2⟩, Hp⟩
  isplitr [Hp]; swap; (· iexact Hp)
  isplitl [Hx]; · iexists _; iexact Hx
  isplitl [Hy]; · iexists _; iexact Hy
  isplitl [Hl1]; · iexists _; iexact Hl1
  iexists _; iexact Hl2

theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

/-- The frame: @main runs to its end and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (fun _ _ => rfl) (run_main m ρ)

/-- From the frame run's post: the argument arrays as launched. -/
theorem args_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans (V_main_arg0 m c)),
   ((h c).1 1).trans (((dats m 0 c).arrAt_in 1 rfl _).trans (V_main_arg1 m c)),
   ((h c).1 2).trans (((dats m 0 c).arrAt_in 2 rfl _).trans (V_main_arg2 m c)),
   ((h c).1 3).trans (((dats m 0 c).arrAt_in 3 rfl _).trans (V_main_arg3 m c)),
   ((h c).2 main_arg4 (Pipeline.mem_restRefs_of main_arg4 (by decide) (by decide))).trans (W_main_arg4 m (dats m) c)⟩

/-- From the frame run's post: @main's result is what its tail leaves of the region's result array. -/
theorem result_of_post {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_v3) = Pipeline.afterTail₀ cfgs (dats m) 0 (V0 m) [hostOps1] c main_v3 :=
  (h c).2 main_v3 (Pipeline.mem_restRefs_of main_v3 (by decide) (by decide))

end Cert.Kernel.Hand

end
-- ==== Proof.Final.lean ====
/-
  The result array after the region, and @main's result after the tail.

  The result array, of shape [8, 8, 128], is tiled by eight blocks of shape [1, 8, 128], block b written back at the last
  point of batch b and holding what that point stored.  The tail takes entry (b, 0, 0) of the array into entry b of the
  result.
-/
import proofs.«414573_j7155415515634_3_alg».proof.Proof.Dats
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

variable (m : (ℓ : Loc nD τ sig) → Buf (Elt F) ℓ)

/-- The last point of batch b. -/
def lastPt (b : Fin 8) : Fin cfg0.N := ⟨32 * b.val + 31, by have := N_256; have := b.isLt; omega⟩

/-! ## The result array after the region -/

/-- The result window's block index at point t: (t / 32, 0, 0). -/
theorem index5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-- What the result array ends holding: entry (b, s, l) is what the last point of batch b stored at (0, s, l). -/
def Gout (c : Dev nD) : S8x8x128.Idx → Elt F .f32 :=
  fun i => outAt m c junkSt (lastPt ⟨(i 0).val, (i 0).isLt⟩) (ix3 0 ⟨(i 1).val, (i 1).isLt⟩ ⟨(i 2).val, (i 2).isLt⟩)

/-- Read at an index whose leading coordinate is the batch of a last point t and whose other two are those of y:
    what t stored at y. -/
theorem Gout_at (c : Dev nD) (t : Fin cfg0.N) (ht : t.val % 32 = 31) (i : S8x8x128.Idx) (y : S1x8x128.Idx)
    (h0 : (i 0).val = t.val / 32) (h1 : (i 1).val = (y 1).val) (h2 : (i 2).val = (y 2).val) :
    Gout m c i = outAt m c junkSt t y := by
  unfold Gout
  have e1 : lastPt ⟨(i 0).val, (i 0).isLt⟩ = t := Fin.ext (by show 32 * (i 0).val + 31 = t.val; omega)
  rw [e1]
  congr 1
  funext a
  match a with
  | ⟨0, _⟩ => apply Fin.ext; show 0 = (y 0).val; have : (y 0).val < 1 := (y 0).isLt; omega
  | ⟨1, _⟩ => apply Fin.ext; exact h1
  | ⟨2, _⟩ => apply Fin.ext; exact h2

/-- What a last point writes back is its block of Gout. -/
theorem flushed5_eq (c : Dev nD) (t : Fin cfg0.N) (hf : (cfg0.win 5).flush t = true) :
    (dats m 0 c).flushed 5 t = ((cfg0.win 5).blk t).view.read (Elt F) (Gout m c) := by
  have ht : t.val % 32 = 31 := (flush0_5 t).mp hf
  obtain ⟨e0, e1, e2⟩ := index5 t
  show (cfg0.win 5).cut (grid0.coords t) ((dats m 0 c).after 5 t) = _
  rw [after_5]
  funext y
  show outAt m c junkSt t _ = Gout m c (((cfg0.win 5).blk t).view.emb y)
  refine (Gout_at m c t ht _ _ ?_ ?_ ?_).symm
  · show win0_5.index t (0 : Fin 3) * 1 + 1 * (y 0).val = t.val / 32
    have : (y 0).val < 1 := (y 0).isLt
    omega
  · show win0_5.index t (1 : Fin 3) * 8 + 1 * (y 1).val = (y 1).val
    omega
  · show win0_5.index t (2 : Fin 3) * 128 + 1 * (y 2).val = (y 2).val
    omega

/-- An index of the array is in point t's block iff each coordinate is in the block's range on its axis. -/
theorem mem_blk5 (t : Fin cfg0.N) (i : S8x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v1).slice (win0_5.rect t)).set ↔ _
  rw [View.set_slice_whole, Rect.mem_set_unit]
  exact Iff.rfl

/-- Every index (b, s, l) of the array lies in the block written back at the last point of batch b. -/
theorem cover5 (i : S8x8x128.Idx) : ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 128 := (i 2).isLt
  refine ⟨lastPt ⟨(i 0).val, hi0⟩, (flush0_5 _).mpr (by show (32 * (i 0).val + 31) % 32 = 31; omega), ?_⟩
  rw [mem_blk5]
  obtain ⟨e0, e1, e2⟩ := index5 (lastPt ⟨(i 0).val, hi0⟩)
  have e0' : win0_5.index (lastPt ⟨(i 0).val, hi0⟩) (0 : Fin 3) = (i 0).val := by
    rw [e0]; show (32 * (i 0).val + 31) / 32 = (i 0).val; omega
  intro a
  match a with
  | ⟨0, _⟩ =>
    show win0_5.index (lastPt ⟨(i 0).val, hi0⟩) (0 : Fin 3) * 1 ≤ (i 0).val ∧ (i 0).val < win0_5.index (lastPt ⟨(i 0).val, hi0⟩) (0 : Fin 3) * 1 + 1
    omega
  | ⟨1, _⟩ =>
    show win0_5.index (lastPt ⟨(i 0).val, hi0⟩) (1 : Fin 3) * 8 ≤ (i 1).val ∧ (i 1).val < win0_5.index (lastPt ⟨(i 0).val, hi0⟩) (1 : Fin 3) * 8 + 8
    omega
  | ⟨2, _⟩ =>
    show win0_5.index (lastPt ⟨(i 0).val, hi0⟩) (2 : Fin 3) * 128 ≤ (i 2).val ∧ (i 2).val < win0_5.index (lastPt ⟨(i 0).val, hi0⟩) (2 : Fin 3) * 128 + 128
    omega

/-- The result array after the region: entry (b, s, l) is what the last point of batch b stored at (0, s, l). -/
theorem final_v1 (c : Dev nD) : ((dats m 0 c).arrAt 5 cfg0.N : S8x8x128.Idx → Elt F .f32)
    = fun i => outAt m c junkSt (lastPt ⟨(i 0).val, (i 0).isLt⟩) (ix3 0 ⟨(i 1).val, (i 1).isLt⟩ ⟨(i 2).val, (i 2).isLt⟩) :=
  (dats m 0 c).arrAt_eq_of_cover 5 (Gout m c) (flushed5_eq m c) cover5

/-! ## @main's result after the tail -/

/-- The result array as the tail finds it. -/
theorem tail_v1 (c : Dev nD) :
    (Pipeline.withArrays spec0 c (V0 m c) (fun w => (dats m 0 c).arrAt w cfg0.N) (Proc.devRef .tc main_v1) : S8x8x128.Idx → Elt F .f32)
      = fun i => outAt m c junkSt (lastPt ⟨(i 0).val, (i 0).isLt⟩) (ix3 0 ⟨(i 1).val, (i 1).isLt⟩ ⟨(i 2).val, (i 2).isLt⟩) :=
  (Pipeline.withArrays_arr spec0 launch0.win.arr_inj c _ _ 5).trans (final_v1 m c)

/-- @main's result after the tail. -/
theorem result_v3 (c : Dev nD) (b : Fin 8) :
    (Pipeline.afterTail₀ cfgs (dats m) 0 (V0 m) [hostOps1] c main_v3 : S8.Idx → Elt F .f32) (ix1 b) = outAt m c junkSt (lastPt b) (ix3 0 0 0) := by
  unfold Pipeline.afterTail₀
  show StableHlo.after hostOps1 _ (Proc.devRef .tc main_v3) (ix1 b) = _
  after_results
  refine (shapeCast_apply _ _ (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ _ _ (ix3 b (0 : Fin 1) (0 : Fin 1)) (ix3 b (0 : Fin 8) (0 : Fin 128)) ?_).trans ?_
  · intro a
    match a with
    | ⟨0, _⟩ => show b.val = 0 + b.val; omega
    | ⟨1, _⟩ => rfl
    | ⟨2, _⟩ => rfl
  exact congrFun (tail_v1 m c) (ix3 b (0 : Fin 8) (0 : Fin 128))

end Cert.KernelIdeal.Hand

end
-- ==== Proof.Spec.lean ====
/-
  What both programs compute, as one function of the five argument arrays on the extended reals.

  For batch b, a row x of the first family and a row y of the second, the pairwise term is
      P b x y = -1/2 * ((((((128 + sum_d la) - sum_d lb) - sum_d e^la * w) - sum_d mua^2 * w) + 2 * sum_d mua * (mub * w))
                         - sum_d mub^2 * w),        w = e^(-lb),
  and the result for batch b is
      G b = (0 + sum_y min_x P b x y) + (0 + sum_x (min_y P b x y) * mask b x),
  each minimum a fold of `min` from +inf.  The float literals stay the words the programs print.
-/
import Idealize.ShloMosaic.PureOps.Ideal
import Idealize.ShloMosaic.Lib.ValueIdx

noncomputable section

namespace Cert.Spec

open Idealize.ShloMosaic Idealize.ShloMosaic.ValueIdx

abbrev A3 : Shape := ⟨3, ![8, 4096, 128]⟩
abbrev A2 : Shape := ⟨2, ![8, 4096]⟩

/-- The literals: 128, -1/2, 2 and 0 as the words of the printed programs. -/
abbrev c128 : EReal := Ideal.ofBits .f32 0x43000000#32
abbrev cmh : EReal := Ideal.ofBits .f32 0xBF000000#32
abbrev c2 : EReal := Ideal.ofBits .f32 0x40000000#32
abbrev c0 : EReal := Ideal.ofBits .f32 0x00000000#32

variable (mua la mub lb : A3.Idx → EReal) (mask : A2.Idx → EReal)

/-- e^(-lb) at (b, y, d). -/
def w (b : Fin 8) (y : Fin 4096) (d : Fin 128) : EReal := Ideal.exp (-(lb (ix3 b y d)))

/-- The pairwise term, in the reference's order of operations. -/
def P (b : Fin 8) (x y : Fin 4096) : EReal :=
  cmh * (((((((c128 + (c0 + ∑ d : Fin 128, la (ix3 b x d))) - (c0 + ∑ d : Fin 128, lb (ix3 b y d)))
      - ∑ d : Fin 128, Ideal.exp (la (ix3 b x d)) * w lb b y d)
      - ∑ d : Fin 128, (mua (ix3 b x d) * mua (ix3 b x d)) * w lb b y d)
      + c2 * ∑ d : Fin 128, mua (ix3 b x d) * (mub (ix3 b y d) * w lb b y d))
      - (c0 + ∑ d : Fin 128, (mub (ix3 b y d) * mub (ix3 b y d)) * w lb b y d)))

/-- The minimum over the first family's rows, for a row of the second. -/
def minX (b : Fin 8) (y : Fin 4096) : EReal := (Finset.univ : Finset (Fin 4096)).fold min ⊤ fun x => P mua la mub lb b x y
/-- The minimum over the second family's rows, for a row of the first. -/
def minY (b : Fin 8) (x : Fin 4096) : EReal := (Finset.univ : Finset (Fin 4096)).fold min ⊤ fun y => P mua la mub lb b x y

/-- The result for batch b. -/
def G (b : Fin 8) : EReal :=
  (c0 + ∑ y : Fin 4096, minX mua la mub lb b y) + (c0 + ∑ x : Fin 4096, minY mua la mub lb b x * mask (ix2 b x))

end Cert.Spec

end
-- ==== Proof.Tile.lean ====
/-
  One tile of pairwise terms, as the kernel's body computes it at the ideal floats from its four input blocks
  (the row tile's means x0 and log-variances x1, the column tile's means x2 and log-variances x3):
      tileP r q = -1/2 * ((((128 + sum_d x1) - sum_d x3) - ((sum_d e^x1 * w + sum_d x0^2 * w) + sum_d (-2 x0) * (x2 w))) - sum_d x2 * (x2 w)),
      w = e^(0 - x3),
  the three middle sums being the kernel's one contraction over the 384 concatenated features.
-/
import proofs.«414573_j7155415515634_3_alg».proof.Proof.Step
import proofs.«414573_j7155415515634_3_alg».proof.Proof.Spec

noncomputable section

namespace Cert.KernelIdeal.Hand

open Cert.KernelIdeal Cert.KernelIdeal.Gen
open Idealize.ShloMosaic Idealize.ShloMosaic.ValueIdx

/-- The literal -2 as the kernel prints it. -/
abbrev cm2 : EReal := Ideal.ofBits .f32 0xC0000000#32

/-- The tile as the body's payload term. -/
abbrev tileK (x0 x1 : Vec Ideal S1x1024x128 .f32) (x2 x3 : Vec Ideal S1x512x128 .f32) : FVec Ideal S1024x512 .f32 :=
  k0_pay14 (k0_pay10 x0 x1 x2 x3) (k0_pay11 x1) (k0_pay12 x3) (k0_pay13 x2 x3)

/-- e^(0 - x3) at (q, d). -/
def tw (x3 : Vec Ideal S1x512x128 .f32) (q : Fin 512) (d : Fin 128) : EReal := Ideal.exp (Spec.c0 - x3 (ix3 0 q d))

/-- The tile's entry (r, q) as a formula. -/
def tileP (x0 x1 : Vec Ideal S1x1024x128 .f32) (x2 x3 : Vec Ideal S1x512x128 .f32) (r : Fin 1024) (q : Fin 512) : EReal :=
  Spec.cmh * ((((Spec.c128 + ∑ d : Fin 128, x1 (ix3 0 r d)) - ∑ d : Fin 128, x3 (ix3 0 q d))
      - ((∑ d : Fin 128, Ideal.exp (x1 (ix3 0 r d)) * tw x3 q d + ∑ d : Fin 128, (x0 (ix3 0 r d) * x0 (ix3 0 r d)) * tw x3 q d)
          + ∑ d : Fin 128, (cm2 * x0 (ix3 0 r d)) * (x2 (ix3 0 q d) * tw x3 q d)))
      - ∑ d : Fin 128, x2 (ix3 0 q d) * (x2 (ix3 0 q d) * tw x3 q d))

end Cert.KernelIdeal.Hand

end
-- ==== Proof.Recur.lean ====
/-
  One batch's sweep as a recurrence on numbers.

  A batch is 4 x 8 tiles T i j of 1024 x 512 pairwise terms, visited row tile by row tile.  The sweep keeps the
  running row minima X (restarted at each row tile's first column tile), the running column minima Y, one slice per
  column tile (restarted in the first row tile), and two accumulators, cleared at the first tile: the second gains the
  masked sum of X after a row tile's last column tile, the first the sum of slice j of Y in the last row tile.
  Whatever the sweep starts from, the two accumulators end at the sums of the full minima.
-/
import Mathlib.Data.EReal.Basic
import Mathlib.Algebra.BigOperators.Group.Finset.Basic
import Mathlib.Data.Finset.Fold
import Mathlib.Data.Fintype.Basic

noncomputable section

namespace Cert.Recur

/-- What the sweep carries. -/
structure S where
  X : Fin 1024 → EReal
  Y : Fin 8 → Fin 512 → EReal
  l1 : EReal
  l2 : EReal

variable (T : Fin 4 → Fin 8 → Fin 1024 → Fin 512 → EReal) (M : Fin 4 → Fin 1024 → EReal)

/-- A tile's row minima and column minima. -/
def rowMin (i : Fin 4) (j : Fin 8) (r : Fin 1024) : EReal := (Finset.univ : Finset (Fin 512)).fold min ⊤ fun q => T i j r q
def colMin (i : Fin 4) (j : Fin 8) (q : Fin 512) : EReal := (Finset.univ : Finset (Fin 1024)).fold min ⊤ fun r => T i j r q

/-- The row minima after tile (i, j). -/
def nextX (i : Fin 4) (j : Fin 8) (s : S) : Fin 1024 → EReal :=
  fun r => if j.val = 0 then rowMin T i j r else min (s.X r) (rowMin T i j r)

/-- Slice j of the column minima after tile (i, j). -/
def nextYs (i : Fin 4) (j : Fin 8) (s : S) : Fin 512 → EReal :=
  fun q => if i.val = 0 then colMin T i j q else min (s.Y j q) (colMin T i j q)

/-- One tile. -/
def step (i : Fin 4) (j : Fin 8) (s : S) : S where
  X := nextX T i j s
  Y := fun j' => if j' = j then nextYs T i j s else s.Y j'
  l1 := if i.val = 3 then (if i.val = 0 ∧ j.val = 0 then 0 else s.l1) + ∑ q : Fin 512, nextYs T i j s q
        else (if i.val = 0 ∧ j.val = 0 then 0 else s.l1)
  l2 := if j.val = 7 then (if i.val = 0 ∧ j.val = 0 then 0 else s.l2) + ∑ r : Fin 1024, nextX T i j s r * M i r
        else (if i.val = 0 ∧ j.val = 0 then 0 else s.l2)

/-- The first n tiles of the sweep, in order (tile n is (n / 8, n % 8)). -/
def run (s0 : S) : ℕ → S
  | 0 => s0
  | n + 1 => if h : n < 32 then step T M ⟨n / 8, by omega⟩ ⟨n % 8, by omega⟩ (run s0 n) else run s0 n

/-- The full column minimum and row minimum of the batch, tile by tile. -/
def fullCol (j : Fin 8) (q : Fin 512) : EReal := (Finset.univ : Finset (Fin 4)).fold min ⊤ fun i => colMin T i j q
def fullRow (i : Fin 4) (r : Fin 1024) : EReal := (Finset.univ : Finset (Fin 8)).fold min ⊤ fun j => rowMin T i j r

end Cert.Recur

end
-- ==== Proof.BatchDefs.lean ====
/-
  One batch of the grid: its 32 points, the 4 x 8 tiles of pairwise terms the body forms at them, and the mask's rows.
-/
import proofs.«414573_j7155415515634_3_alg».proof.Proof.Tile
import proofs.«414573_j7155415515634_3_alg».proof.Proof.Sched
import proofs.«414573_j7155415515634_3_alg».proof.Proof.Recur

noncomputable section

namespace Cert.KernelIdeal.Hand

open Cert.KernelIdeal Cert.KernelIdeal.Gen
open Idealize.ShloMosaic Idealize.ShloMosaic.ValueIdx

variable (m : (ℓ : Loc nD τ sig) → Buf (Elt Ideal) ℓ)

/-- Point (b, i, j) of the grid. -/
def pt (b : Fin 8) (i : Fin 4) (j : Fin 8) : Fin cfg0.N :=
  ⟨32 * b.val + 8 * i.val + j.val, by have := N_256; have := b.isLt; have := i.isLt; have := j.isLt; omega⟩

/-- Tile (i, j) of batch b, as the body forms it from the point's input blocks. -/
def Tb (c : Dev nD) (b : Fin 8) : Fin 4 → Fin 8 → Fin 1024 → Fin 512 → EReal :=
  fun i j r q => tileP (b0 m c (pt b i j)) (b1 m c (pt b i j)) (b2 m c (pt b i j)) (b3 m c (pt b i j)) r q

/-- The mask's rows of row tile i of batch b, as the body reads them at the row tile's last point. -/
def Mb (c : Dev nD) (b : Fin 8) : Fin 4 → Fin 1024 → EReal :=
  fun i r => b4 m c (pt b i 7) (ix3 0 r 0)

end Cert.KernelIdeal.Hand

end
-- ==== Proof.PayApply.lean ====
/-
  The body's payload terms of the four scratch buffers and of the result block, read at an index at the ideal floats.

  The row scratch after a point is, at row r, the minimum over the tile's 512 columns of the tile's row r, taken from
  +inf, and at j > 0 the minimum of that with what the scratch held; the column scratch's slice likewise over the
  tile's 1024 rows, at i > 0 with what the slice held.  The second accumulator gains the sum over the 1024 rows of the
  row scratch times the mask's column, the first the sum over the 512 lanes of the column scratch's slice; the result
  block holds the sum of the two accumulators everywhere; the cleared accumulators hold zero.
-/
import proofs.«414573_j7155415515634_3_alg».proof.Proof.Tile
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## Small forms: a trailing unit axis, a select between vectors, a minimum over one axis -/

section Small
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A select between whole vectors on one condition bit, read at an index, selects between the elements. -/
theorem select_fn_apply {ι : Type} (c : BitVec 1) (a b : ι → α) (i : ι) :
    (Scalar.select c a b : ι → α) i = Scalar.select c (a i) (b i) := by
  unfold Scalar.select; split <;> rfl

/-- A select on "the coordinate n is 0", n below 8, is the if on n. -/
theorem select_eq0_lt8 (n : Nat) (hn : n < 8) (A B : α) :
    Scalar.select (Scalar.cmpi .eq (BitVec.ofNat 32 n) 0#32) A B = if n = 0 then A else B := by
  interval_cases n <;> rfl

end Small

/-- A minimum reduction over one axis, at the ideal floats: the fold of min from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The word 0x7F800000 is +inf. -/
theorem ofBits_top_f32 : Ideal.ofBits .f32 0x7F800000#32 = ⊤ := by simp [Ideal.ofBits, Ideal.ieee]

/-! ## The tile's row and column minima -/

/-- The row minima of a 1024 x 512 tile, as a column: at (r, u) the minimum over the 512 columns of row r. -/
theorem rowMin_apply (T : FVec Ideal S1024x512 .f32) (r : Fin 1024) (u : Fin 1) :
    shapeCast S1024x1 (multiReduction (F := Ideal) .minimumf [1] S1024 T 0x7F800000#32 reduces_S1024x512_S1024 (.inl rfl) rfl)
        shapeCasts_S1024_S1024x1 (ix2 r u)
      = (Finset.univ : Finset (Fin 512)).fold min ⊤ (fun q => T (ix2 r q)) := by
  refine (shapeCast_a_a1_apply _ _ r u).trans ?_
  refine (multiReduction_minimumf_single T _ _ _ _ (ix1 r)).trans ?_
  show (Finset.univ : Finset (Fin 512)).fold min (Ideal.ofBits .f32 0x7F800000#32)
      (fun q => T (reduces_S1024x512_S1024.lift (ix1 r) q)) = _
  rw [ofBits_top_f32]
  refine congrArg (fun f => (Finset.univ : Finset (Fin 512)).fold min ⊤ f) (funext fun q => congrArg T (funext fun a => ?_))
  match a with
  | ⟨0, _⟩ => rfl
  | ⟨1, _⟩ => rfl

/-- The column minima of a 1024 x 512 tile, as a row: at (u, q) the minimum over the 1024 rows of column q. -/
theorem colMin_apply (T : FVec Ideal S1024x512 .f32) (u : Fin 1) (q : Fin 512) :
    shapeCast S1x512 (multiReduction (F := Ideal) .minimumf [0] S512 T 0x7F800000#32 reduces_S1024x512_S512 (.inl rfl) rfl)
        shapeCasts_S512_S1x512 (ix2 u q)
      = (Finset.univ : Finset (Fin 1024)).fold min ⊤ (fun r => T (ix2 r q)) := by
  refine (shapeCast_a_1a_apply _ _ u q).trans ?_
  refine (multiReduction_minimumf_single T _ _ _ _ (ix1 q)).trans ?_
  show (Finset.univ : Finset (Fin 1024)).fold min (Ideal.ofBits .f32 0x7F800000#32)
      (fun r => T (reduces_S1024x512_S512.lift (ix1 q) r)) = _
  rw [ofBits_top_f32]
  refine congrArg (fun f => (Finset.univ : Finset (Fin 1024)).fold min ⊤ f) (funext fun r => congrArg T (funext fun a => ?_))
  match a with
  | ⟨0, _⟩ => rfl
  | ⟨1, _⟩ => rfl

/-! ## The two scratch payloads for any condition word -/

/-- The row scratch's payload at (r, 0): on the condition bit, the tile's row minimum or its minimum with the old entry. -/
theorem pay15_apply (c : BitVec 32) (v29 : FVec Ideal S1024x512 .f32) (v31 : FVec Ideal S1024x1 .f32)
    (v33 : FVec Ideal S512x1 .f32) (v34 : FVec Ideal S512x128 .f32) (ax : Vec Ideal S1024x1 .f32) (r : Fin 1024) :
    k0_pay15 c v29 v31 v33 v34 ax (ix2 r 0) =
      Scalar.select (Scalar.cmpi .eq c 0#32)
        ((Finset.univ : Finset (Fin 512)).fold min ⊤ (fun q => k0_pay14 v29 v31 v33 v34 (ix2 r q)))
        (min (ax (ix2 r 0)) ((Finset.univ : Finset (Fin 512)).fold min ⊤ (fun q => k0_pay14 v29 v31 v33 v34 (ix2 r q)))) := by
  unfold k0_pay15
  refine (congrFun (shapeCast_self _ _) (ix2 r 0)).trans ?_
  refine (select_fn_apply _ _ _ _).trans ?_
  rw [minimumf_apply, rowMin_apply]

/-- The column scratch's payload at (0, q): on the condition bit, the tile's column minimum or its minimum with the old
    entry. -/
theorem pay16_apply (c : BitVec 32) (v29 : FVec Ideal S1024x512 .f32) (v31 : FVec Ideal S1024x1 .f32)
    (v33 : FVec Ideal S512x1 .f32) (v34 : FVec Ideal S512x128 .f32) (ys : Vec Ideal S1x512 .f32) (q : Fin 512) :
    k0_pay16 c v29 v31 v33 v34 ys (ix2 0 q) =
      Scalar.select (Scalar.cmpi .eq c 0#32)
        ((Finset.univ : Finset (Fin 1024)).fold min ⊤ (fun r => k0_pay14 v29 v31 v33 v34 (ix2 r q)))
        (min (ys (ix2 0 q)) ((Finset.univ : Finset (Fin 1024)).fold min ⊤ (fun r => k0_pay14 v29 v31 v33 v34 (ix2 r q)))) := by
  unfold k0_pay16
  refine (congrFun (shapeCast_self _ _) (ix2 0 q)).trans ?_
  refine (select_fn_apply _ _ _ _).trans ?_
  rw [minimumf_apply, colMin_apply]

/-! ## The statements -/

section Point

variable (i : grid0.Coords) (x0 x1 : Vec Ideal S1x1024x128 .f32) (x2 x3 : Vec Ideal S1x512x128 .f32)

/-- The row scratch after a point, at row r: the minimum of the tile's row r at j = 0, and its minimum with the old
    entry at j > 0. -/
theorem stepX_apply (ax : Vec Ideal S1024x1 .f32) (r : Fin 1024) :
    stepX i x0 x1 x2 x3 ax (ix2 r 0) =
      if (i 2).val = 0 then (Finset.univ : Finset (Fin 512)).fold min ⊤ (fun q => tileK x0 x1 x2 x3 (ix2 r q))
      else min (ax (ix2 r 0)) ((Finset.univ : Finset (Fin 512)).fold min ⊤ (fun q => tileK x0 x1 x2 x3 (ix2 r q))) := by
  unfold stepX
  refine (pay15_apply _ _ _ _ _ ax r).trans ?_
  exact select_eq0_lt8 (i 2).val (i 2).isLt _ _

/-- The column scratch's slice after a point, at lane q: the minimum of the tile's column q at i = 0, and its minimum
    with the old entry at i > 0. -/
theorem stepYs_apply (ys : Vec Ideal S1x512 .f32) (q : Fin 512) :
    stepYs i x0 x1 x2 x3 ys (ix2 0 q) =
      if (i 1).val = 0 then (Finset.univ : Finset (Fin 1024)).fold min ⊤ (fun r => tileK x0 x1 x2 x3 (ix2 r q))
      else min (ys (ix2 0 q)) ((Finset.univ : Finset (Fin 1024)).fold min ⊤ (fun r => tileK x0 x1 x2 x3 (ix2 r q))) := by
  unfold stepYs
  refine (pay16_apply _ _ _ _ _ ys q).trans ?_
  exact select_eq0_lt8 (i 1).val (Nat.lt_of_lt_of_le (i 1).isLt (by decide)) _ _

end Point

/-- The second accumulator's payload: the old value plus the sum over the rows of the row scratch times the mask's
    column. -/
theorem pay17_apply (vx : Vec Ideal S1024x1 .f32) (x4 : Vec Ideal S1x1024x1 .f32) (a : Vec Ideal S1x1 .f32) :
    k0_pay17 vx x4 a (ix2 0 0) = a (ix2 0 0) + ∑ r : Fin 1024, vx (ix2 r 0) * x4 (ix3 0 r 0) := by
  unfold k0_pay17
  refine (congrFun (shapeCast_self _ _) (ix2 0 0)).trans ?_
  refine congrArg (a (ix2 0 0) + ·) ?_
  refine (shapeCast_a_1a_apply _ _ 0 0).trans ?_
  refine (Ideal.multiReduction_add_single _ _ _ _ _ (ix1 0)).trans ?_
  show ∑ k : Fin 1024, (mulf (F := Ideal) (φ := .f32) vx (shapeCast S1024x1 (x4 : S1x1024x1.Idx → Ideal .f32) shapeCasts_S1x1024x1_S1024x1))
      (reduces_S1024x1_S1.lift (ix1 0) k) = _
  refine Finset.sum_congr rfl fun k _ => ?_
  have hk : reduces_S1024x1_S1.lift (ix1 0) k = ix2 k 0 :=
    funext fun a => match a with | ⟨0, _⟩ => rfl | ⟨1, _⟩ => rfl
  rw [hk, mulf_apply, shapeCast_1ab_ab_apply]

/-- The first accumulator's payload: the old value plus the sum over the lanes of the column scratch's slice. -/
theorem pay1_apply (vy : Vec Ideal S1x512 .f32) (a : Vec Ideal S1x1 .f32) :
    k0_pay1 vy a (ix2 0 0) = a (ix2 0 0) + ∑ q : Fin 512, vy (ix2 0 q) := by
  unfold k0_pay1
  refine (congrFun (shapeCast_self _ _) (ix2 0 0)).trans ?_
  refine congrArg (a (ix2 0 0) + ·) ?_
  refine (shapeCast_a_1a_apply _ _ 0 0).trans ?_
  refine (Ideal.multiReduction_add_single _ _ _ _ _ (ix1 0)).trans ?_
  show ∑ k : Fin 512, vy (reduces_S1x512_S1.lift (ix1 0) k) = _
  refine Finset.sum_congr rfl fun k _ => congrArg vy (funext fun a => ?_)
  match a with
  | ⟨0, _⟩ => rfl
  | ⟨1, _⟩ => rfl

/-- The result block's payload: the sum of the two accumulators, at every index. -/
theorem pay2_apply (a1 a2 : Vec Ideal S1x1 .f32) (j : S1x8x128.Idx) : k0_pay2 a1 a2 j = a1 (ix2 0 0) + a2 (ix2 0 0) := by
  obtain ⟨u, p, q, rfl⟩ : ∃ u p q, j = ix3 u p q := ⟨_, _, _, eq_ix3 j⟩
  unfold k0_pay2
  refine (shapeCast_ab_1ab_apply _ _ u p q).trans ?_
  show addf (F := Ideal) (φ := .f32) a1 a2 (fun a => (⟨(![0, 0] : Fin 2 → Nat) a, inpos_S1x1_p0_0 a⟩ : Fin (S1x1.size a))) = _
  have h0 : (fun a => (⟨(![0, 0] : Fin 2 → Nat) a, inpos_S1x1_p0_0 a⟩ : Fin (S1x1.size a))) = ix2 0 0 :=
    funext fun a => match a with | ⟨0, _⟩ => rfl | ⟨1, _⟩ => rfl
  rw [h0, addf_apply]

/-- The cleared first accumulator holds zero. -/
theorem pay3_apply : k0_pay3 (F := Ideal) (ix2 0 0) = 0 := by
  unfold k0_pay3
  refine (congrFun (shapeCast_self _ _) (ix2 0 0)).trans ?_
  exact Ideal.ofBits_zero_f32

/-- The cleared second accumulator holds zero. -/
theorem pay4_apply : k0_pay4 (F := Ideal) (ix2 0 0) = 0 := by
  unfold k0_pay4
  refine (congrFun (shapeCast_self _ _) (ix2 0 0)).trans ?_
  exact Ideal.ofBits_zero_f32

end Cert.KernelIdeal.Hand

end
-- ==== Proof.TileEntry.lean ====
/-
  One entry of the tile: the body's payload term read at (r, q) is the formula tileP.

  The four input blocks [1, n, 128] are viewed [n, 128] (row d of block row r is the block at (0, r, d)); w = e^(0 - x3).
  The one product contracts, over the 384 features laid side by side, row r of [e^x1, x0 * x0, (-2) * x0] with row q of
  [w, w, x2 * w]; a sum over 384 features is the sum of its three runs of 128, so the product at (r, q) is
      (sum_d e^x1 * w + sum_d x0^2 * w) + sum_d (-2 x0) * (x2 w).
  The lane sums sum_d x1 (a column over r), sum_d x3 and sum_d x2 * (x2 w) (columns over q, transposed to rows) are
  broadcast over the tile, and the entry is -1/2 * ((((128 + sum_d x1) - sum_d x3) - product) - sum_d x2 * (x2 w)).
-/
import proofs.«414573_j7155415515634_3_alg».proof.Proof.Tile
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations at coordinates -/

/-- A [1, 1024, 128] block viewed [1024, 128] reads (0, r, d) at (r, d). -/
theorem cast_rows_1024 (x : FVec Ideal S1x1024x128 .f32) (r : Fin 1024) (d : Fin 128) :
    shapeCast S1024x128 x shapeCasts_S1x1024x128_S1024x128 (ix2 r d) = x (ix3 0 r d) :=
  shapeCast_1ab_ab_apply x _ r d

/-- A [1, 512, 128] block viewed [512, 128] reads (0, q, d) at (q, d). -/
theorem cast_rows_512 (x : FVec Ideal S1x512x128 .f32) (q : Fin 512) (d : Fin 128) :
    shapeCast S512x128 x shapeCasts_S1x512x128_S512x128 (ix2 q d) = x (ix3 0 q d) :=
  shapeCast_1ab_ab_apply x _ q d

/-- The lane sum of a [1024, 128] array at row r is the sum over d of its entries (r, d). -/
theorem lane_sum_1024 (v : FVec Ideal S1024x128 .f32) (r : Fin 1024) :
    multiReduction (F := Ideal) .add [1] S1024 v 0x00000000#32 reduces_S1024x128_S1024 (.inl rfl) rfl (ix1 r)
      = ∑ d : Fin 128, v (ix2 r d) := by
  refine (Ideal.multiReduction_add_single v _ reduces_S1024x128_S1024 (.inl rfl) rfl (ix1 r)).trans ?_
  refine Finset.sum_congr rfl fun d _ => congrArg v ?_
  funext a
  match a with
  | ⟨0, _⟩ => rfl
  | ⟨1, _⟩ => rfl

/-- The lane sum of a [512, 128] array at row q is the sum over d of its entries (q, d). -/
theorem lane_sum_512 (v : FVec Ideal S512x128 .f32) (q : Fin 512) :
    multiReduction (F := Ideal) .add [1] S512 v 0x00000000#32 reduces_S512x128_S512 (.inl rfl) rfl (ix1 q)
      = ∑ d : Fin 128, v (ix2 q d) := by
  refine (Ideal.multiReduction_add_single v _ reduces_S512x128_S512 (.inl rfl) rfl (ix1 q)).trans ?_
  refine Finset.sum_congr rfl fun d _ => congrArg v ?_
  funext a
  match a with
  | ⟨0, _⟩ => rfl
  | ⟨1, _⟩ => rfl

/-- An [n] array viewed as a column [n, 1] reads i at (i, u). -/
theorem cast_col {n : ℕ} {α : Type} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] broadcast to [n, m] reads (i, 0) at (i, j). -/
theorem bcast_col {n m : ℕ} {α : Type} (x : (⟨2, ![n, 1]⟩ : Shape).Idx → α) (h : (⟨2, ![n, 1]⟩ : Shape).Broadcasts ⟨2, ![n, m]⟩)
    (i : Fin n) (j : Fin m) : broadcastTo ⟨2, ![n, m]⟩ x h (ix2 i j) = x (ix2 i (0 : Fin 1)) := by
  refine broadcastTo_apply x h (ix2 i j) (ix2 i (0 : Fin 1)) fun ax => ?_
  match ax with
  | ⟨0, _⟩ =>
    show i.val = if n = 1 then 0 else i.val
    split
    · have := i.isLt; omega
    · rfl
  | ⟨1, _⟩ => rfl

/-! ## Three [n, 128] arrays laid side by side along the features: feature d of the k-th array is feature 128 k + d -/

theorem concat3_fst {n : ℕ} {α : Type} (y0 y1 y2 : (⟨2, ![n, 128]⟩ : Shape).Idx → α)
    (h : Shape.Concatenates [⟨2, ![n, 128]⟩, ⟨2, ![n, 128]⟩, ⟨2, ![n, 128]⟩] ⟨2, ![n, 384]⟩ 1) (i : Fin n) (d : Fin 128) :
    concatenate ⟨2, ![n, 384]⟩ 1 [⟨⟨2, ![n, 128]⟩, y0⟩, ⟨⟨2, ![n, 128]⟩, y1⟩, ⟨⟨2, ![n, 128]⟩, y2⟩] h
        (ix2 i (⟨d.val, by have := d.isLt; omega⟩ : Fin 384)) = y0 (ix2 i d) :=
  concatenate_apply_piece (t := ⟨2, ![n, 384]⟩) 1 [⟨⟨2, ![n, 128]⟩, y0⟩, ⟨⟨2, ![n, 128]⟩, y1⟩, ⟨⟨2, ![n, 128]⟩, y2⟩] h
    (ix2 i (⟨d.val, by have := d.isLt; omega⟩ : Fin 384)) 0 (by show 0 < 3; omega) ⟨2, ![n, 128]⟩ y0 rfl rfl 0 rfl (ix2 i d)
    (fun b hb => match b with
      | ⟨0, _⟩ => rfl
      | ⟨1, _⟩ => absurd rfl hb)
    (Nat.zero_add _)

theorem concat3_snd {n : ℕ} {α : Type} (y0 y1 y2 : (⟨2, ![n, 128]⟩ : Shape).Idx → α)
    (h : Shape.Concatenates [⟨2, ![n, 128]⟩, ⟨2, ![n, 128]⟩, ⟨2, ![n, 128]⟩] ⟨2, ![n, 384]⟩ 1) (i : Fin n) (d : Fin 128) :
    concatenate ⟨2, ![n, 384]⟩ 1 [⟨⟨2, ![n, 128]⟩, y0⟩, ⟨⟨2, ![n, 128]⟩, y1⟩, ⟨⟨2, ![n, 128]⟩, y2⟩] h
        (ix2 i (⟨128 + d.val, by have := d.isLt; omega⟩ : Fin 384)) = y1 (ix2 i d) :=
  concatenate_apply_piece (t := ⟨2, ![n, 384]⟩) 1 [⟨⟨2, ![n, 128]⟩, y0⟩, ⟨⟨2, ![n, 128]⟩, y1⟩, ⟨⟨2, ![n, 128]⟩, y2⟩] h
    (ix2 i (⟨128 + d.val, by have := d.isLt; omega⟩ : Fin 384)) 1 (by show 1 < 3; omega) ⟨2, ![n, 128]⟩ y1 rfl rfl 128 rfl (ix2 i d)
    (fun b hb => match b with
      | ⟨0, _⟩ => rfl
      | ⟨1, _⟩ => absurd rfl hb)
    rfl

theorem concat3_trd {n : ℕ} {α : Type} (y0 y1 y2 : (⟨2, ![n, 128]⟩ : Shape).Idx → α)
    (h : Shape.Concatenates [⟨2, ![n, 128]⟩, ⟨2, ![n, 128]⟩, ⟨2, ![n, 128]⟩] ⟨2, ![n, 384]⟩ 1) (i : Fin n) (d : Fin 128) :
    concatenate ⟨2, ![n, 384]⟩ 1 [⟨⟨2, ![n, 128]⟩, y0⟩, ⟨⟨2, ![n, 128]⟩, y1⟩, ⟨⟨2, ![n, 128]⟩, y2⟩] h
        (ix2 i (⟨256 + d.val, by have := d.isLt; omega⟩ : Fin 384)) = y2 (ix2 i d) :=
  concatenate_apply_piece (t := ⟨2, ![n, 384]⟩) 1 [⟨⟨2, ![n, 128]⟩, y0⟩, ⟨⟨2, ![n, 128]⟩, y1⟩, ⟨⟨2, ![n, 128]⟩, y2⟩] h
    (ix2 i (⟨256 + d.val, by have := d.isLt; omega⟩ : Fin 384)) 2 (by show 2 < 3; omega) ⟨2, ![n, 128]⟩ y2 rfl rfl 256 rfl (ix2 i d)
    (fun b hb => match b with
      | ⟨0, _⟩ => rfl
      | ⟨1, _⟩ => absurd rfl hb)
    rfl

/-- A sum over 384 features is the sum of its three runs of 128. -/
theorem sum_384 {M : Type} [AddCommMonoid M] (f : Fin 384 → M) :
    ∑ k : Fin 384, f k = (∑ d : Fin 128, f ⟨d.val, by have := d.isLt; omega⟩ + ∑ d : Fin 128, f ⟨128 + d.val, by have := d.isLt; omega⟩)
        + ∑ d : Fin 128, f ⟨256 + d.val, by have := d.isLt; omega⟩ := by
  have h1 := Fin.sum_univ_add (a := 256) (b := 128) f
  have h2 := Fin.sum_univ_add (a := 128) (b := 128) (fun i : Fin (128 + 128) => f (Fin.castAdd 128 i))
  rw [h1, h2]
  rfl

/-! ## The product: one contraction over the 384 features -/

theorem lhs_mm_0 (i : S1024x512.Idx) (k : dot_S1024x384_S512x384_S1024x512_1_1_0_0_n_n.contr.Idx) :
    (dot_S1024x384_S512x384_S1024x512_1_1_0_0_n_n.lhsIdx i k 0).val = (i 0).val := by
  unfold DotDims.lhsIdx
  rw [dif_neg (show ¬(0 : Fin S1024x384.rank) ∈ dot_S1024x384_S512x384_S1024x512_1_1_0_0_n_n.lhsBatch by decide), dif_pos (show (0 : Fin S1024x384.rank) ∈ dot_S1024x384_S512x384_S1024x512_1_1_0_0_n_n.lhsNonContracting by decide)]
  rfl
theorem lhs_mm_1 (i : S1024x512.Idx) (k : dot_S1024x384_S512x384_S1024x512_1_1_0_0_n_n.contr.Idx) :
    (dot_S1024x384_S512x384_S1024x512_1_1_0_0_n_n.lhsIdx i k 1).val = (k ⟨0, by decide⟩).val :=
  dot_S1024x384_S512x384_S1024x512_1_1_0_0_n_n.lhsIdx_val_of_single rfl i k
theorem rhs_mm_0 (i : S1024x512.Idx) (k : dot_S1024x384_S512x384_S1024x512_1_1_0_0_n_n.contr.Idx) :
    (dot_S1024x384_S512x384_S1024x512_1_1_0_0_n_n.rhsIdx i k 0).val = (i 1).val := by
  unfold DotDims.rhsIdx
  rw [dif_neg (show ¬(0 : Fin S512x384.rank) ∈ dot_S1024x384_S512x384_S1024x512_1_1_0_0_n_n.rhsBatch by decide), dif_pos (show (0 : Fin S512x384.rank) ∈ dot_S1024x384_S512x384_S1024x512_1_1_0_0_n_n.rhsNonContracting by decide)]
  rfl
theorem rhs_mm_1 (i : S1024x512.Idx) (k : dot_S1024x384_S512x384_S1024x512_1_1_0_0_n_n.contr.Idx) :
    (dot_S1024x384_S512x384_S1024x512_1_1_0_0_n_n.rhsIdx i k 1).val = (k ⟨0, by decide⟩).val :=
  dot_S1024x384_S512x384_S1024x512_1_1_0_0_n_n.rhsIdx_val_of_single rfl i k

/-- The product into the zero accumulator at (r, q): the sum over the features of row r of the left operand times row q
    of the right. -/
theorem matmul_entry (lhs : FVec Ideal S1024x384 .bf16) (rhs : FVec Ideal S512x384 .bf16) (r : Fin 1024) (q : Fin 512) :
    matmul (F := Ideal) dot_S1024x384_S512x384_S1024x512_1_1_0_0_n_n none lhs rhs (constant (F := Ideal) S1024x512 .f32 0x00000000#32) (ix2 r q)
      = ∑ k : Fin 384, lhs (ix2 r k) * rhs (ix2 q k) := by
  simp only [matmul]
  rw [Ideal.matmul_constant_zero_apply, ← Equiv.sum_comp (contrEquiv1 dot_S1024x384_S512x384_S1024x512_1_1_0_0_n_n 384 rfl rfl).symm]
  refine Finset.sum_congr rfl fun k _ => ?_
  have hk := contrEquiv1_symm_val dot_S1024x384_S512x384_S1024x512_1_1_0_0_n_n 384 rfl rfl k
  have el : dot_S1024x384_S512x384_S1024x512_1_1_0_0_n_n.lhsIdx (ix2 r q) ((contrEquiv1 dot_S1024x384_S512x384_S1024x512_1_1_0_0_n_n 384 rfl rfl).symm k) = ix2 r k := funext fun a => Fin.ext (by
    match a with
    | ⟨0, _⟩ => exact lhs_mm_0 _ _
    | ⟨1, _⟩ => exact (lhs_mm_1 _ _).trans hk)
  have er : dot_S1024x384_S512x384_S1024x512_1_1_0_0_n_n.rhsIdx (ix2 r q) ((contrEquiv1 dot_S1024x384_S512x384_S1024x512_1_1_0_0_n_n 384 rfl rfl).symm k) = ix2 q k := funext fun a => Fin.ext (by
    match a with
    | ⟨0, _⟩ => exact rhs_mm_0 _ _
    | ⟨1, _⟩ => exact (rhs_mm_1 _ _).trans hk)
  rw [el, er]

/-! ## The payloads at coordinates -/

theorem pay5_apply (x1 : Vec Ideal S1x1024x128 .f32) (r : Fin 1024) (d : Fin 128) :
    k0_pay5 x1 (ix2 r d) = x1 (ix3 0 r d) := cast_rows_1024 x1 r d

theorem pay6_apply (x2 : Vec Ideal S1x512x128 .f32) (q : Fin 512) (d : Fin 128) :
    k0_pay6 x2 (ix2 q d) = x2 (ix3 0 q d) := cast_rows_512 x2 q d

theorem pay7_apply (x3 : Vec Ideal S1x512x128 .f32) (q : Fin 512) (d : Fin 128) :
    k0_pay7 x3 (ix2 q d) = x3 (ix3 0 q d) := cast_rows_512 x3 q d

/-- w = e^(0 - x3) at (q, d). -/
theorem pay8_apply (x3 : Vec Ideal S1x512x128 .f32) (q : Fin 512) (d : Fin 128) :
    k0_pay8 x3 (ix2 q d) = tw x3 q d := by
  unfold k0_pay8 tw
  show Ideal.exp (Spec.c0 - k0_pay7 x3 (ix2 q d)) = _
  rw [pay7_apply]

/-- x2 * w at (q, d). -/
theorem pay9_apply (x2 x3 : Vec Ideal S1x512x128 .f32) (q : Fin 512) (d : Fin 128) :
    k0_pay9 x2 x3 (ix2 q d) = x2 (ix3 0 q d) * tw x3 q d := by
  unfold k0_pay9
  show k0_pay6 x2 (ix2 q d) * k0_pay8 x3 (ix2 q d) = _
  rw [pay6_apply, pay8_apply]

/-- x2 * (x2 * w) at (q, d). -/
theorem pay13_apply (x2 x3 : Vec Ideal S1x512x128 .f32) (q : Fin 512) (d : Fin 128) :
    k0_pay13 x2 x3 (ix2 q d) = x2 (ix3 0 q d) * (x2 (ix3 0 q d) * tw x3 q d) := by
  unfold k0_pay13
  show k0_pay6 x2 (ix2 q d) * k0_pay9 x2 x3 (ix2 q d) = _
  rw [pay6_apply, pay9_apply]

/-- The column of lane sums of x1 at (r, 0). -/
theorem pay11_apply (x1 : Vec Ideal S1x1024x128 .f32) (r : Fin 1024) (u : Fin 1) :
    k0_pay11 x1 (ix2 r u) = ∑ d : Fin 128, x1 (ix3 0 r d) := by
  unfold k0_pay11
  refine (cast_col _ shapeCasts_S1024_S1024x1 r u).trans ?_
  refine (lane_sum_1024 (k0_pay5 x1) r).trans ?_
  exact Finset.sum_congr rfl fun d _ => pay5_apply x1 r d

/-- The column of lane sums of x3 at (q, 0). -/
theorem pay12_apply (x3 : Vec Ideal S1x512x128 .f32) (q : Fin 512) (u : Fin 1) :
    k0_pay12 x3 (ix2 q u) = ∑ d : Fin 128, x3 (ix3 0 q d) := by
  unfold k0_pay12
  refine (cast_col _ shapeCasts_S512_S512x1 q u).trans ?_
  refine (lane_sum_512 (k0_pay7 x3) q).trans ?_
  exact Finset.sum_congr rfl fun d _ => pay7_apply x3 q d

/-- The product at (r, q): the three sums over d. -/
theorem pay10_apply (x0 x1 : Vec Ideal S1x1024x128 .f32) (x2 x3 : Vec Ideal S1x512x128 .f32) (r : Fin 1024) (q : Fin 512) :
    k0_pay10 x0 x1 x2 x3 (ix2 r q)
      = (∑ d : Fin 128, Ideal.exp (x1 (ix3 0 r d)) * tw x3 q d + ∑ d : Fin 128, (x0 (ix3 0 r d) * x0 (ix3 0 r d)) * tw x3 q d)
          + ∑ d : Fin 128, (cm2 * x0 (ix3 0 r d)) * (x2 (ix3 0 q d) * tw x3 q d) := by
  unfold k0_pay10
  refine (matmul_entry _ _ r q).trans ?_
  refine (sum_384 _).trans ?_
  refine congrArg₂ (· + ·) (congrArg₂ (· + ·) (Finset.sum_congr rfl fun d _ => ?_) (Finset.sum_congr rfl fun d _ => ?_))
    (Finset.sum_congr rfl fun d _ => ?_)
  · refine congrArg₂ (· * ·) ((concat3_fst _ _ _ _ r d).trans ?_) ((concat3_fst _ _ _ _ q d).trans ?_)
    · show Ideal.exp (k0_pay5 x1 (ix2 r d)) = _
      rw [pay5_apply]
    · show k0_pay8 x3 (ix2 q d) = _
      exact pay8_apply x3 q d
  · refine congrArg₂ (· * ·) ((concat3_snd _ _ _ _ r d).trans ?_) ((concat3_snd _ _ _ _ q d).trans ?_)
    · show shapeCast S1024x128 x0 shapeCasts_S1x1024x128_S1024x128 (ix2 r d) * shapeCast S1024x128 x0 shapeCasts_S1x1024x128_S1024x128 (ix2 r d) = _
      rw [cast_rows_1024]
    · show k0_pay8 x3 (ix2 q d) = _
      exact pay8_apply x3 q d
  · refine congrArg₂ (· * ·) ((concat3_trd _ _ _ _ r d).trans ?_) ((concat3_trd _ _ _ _ q d).trans ?_)
    · show cm2 * shapeCast S1024x128 x0 shapeCasts_S1x1024x128_S1024x128 (ix2 r d) = _
      rw [cast_rows_1024]
    · show k0_pay9 x2 x3 (ix2 q d) = _
      exact pay9_apply x2 x3 q d

/-- The last payload at (r, q), from its four operands at coordinates. -/
theorem pay14_apply (v29 : FVec Ideal S1024x512 .f32) (v31 : FVec Ideal S1024x1 .f32) (v33 : FVec Ideal S512x1 .f32)
    (v34 : FVec Ideal S512x128 .f32) (r : Fin 1024) (q : Fin 512) :
    k0_pay14 v29 v31 v33 v34 (ix2 r q)
      = Spec.cmh * ((((Spec.c128 + v31 (ix2 r (0 : Fin 1))) - v33 (ix2 q (0 : Fin 1))) - v29 (ix2 r q)) - ∑ d : Fin 128, v34 (ix2 q d)) := by
  unfold k0_pay14
  show Spec.cmh * ((((broadcastTo S1024x512 (addf (broadcast S1024x1 Spec.c128) v31) broadcasts_S1024x1_S1024x512 (ix2 r q))
        - broadcastTo S1024x512 (transpose S1x512 [1, 0] v33 transposes_S512x1_p1_0_S1x512) broadcasts_S1x512_S1024x512 (ix2 r q))
        - v29 (ix2 r q))
        - broadcastTo S1024x512 (transpose S1x512 [1, 0] (shapeCast S512x1
            (multiReduction (F := Ideal) .add [1] S512 v34 0x00000000#32 reduces_S512x128_S512 (.inl rfl) rfl) shapeCasts_S512_S512x1)
            transposes_S512x1_p1_0_S1x512) broadcasts_S1x512_S1024x512 (ix2 r q)) = _
  rw [bcast_col, broadcastTo_1b_ab_apply, broadcastTo_1b_ab_apply, transpose_ix2_apply, transpose_ix2_apply, cast_col, lane_sum_512]
  rfl

/-! ## The entry -/

theorem tileK_apply (x0 x1 : Vec Ideal S1x1024x128 .f32) (x2 x3 : Vec Ideal S1x512x128 .f32) (r : Fin 1024) (q : Fin 512) :
    tileK x0 x1 x2 x3 (ix2 r q) = tileP x0 x1 x2 x3 r q := by
  refine (pay14_apply _ _ _ _ r q).trans ?_
  rw [pay10_apply, pay11_apply, pay12_apply]
  unfold tileP
  simp only [pay13_apply]

end Cert.KernelIdeal.Hand

end
-- ==== Proof.RecurFinal.lean ====
/-
  The sweep's two accumulators end at the sums of the full minima.

  The 32 tiles are visited as (i, j), i < 4 the row tile and j < 8 the column tile.  After j tiles of row tile i the
  running row minima are the minima over the column tiles below j, slice j' of the running column minima is the minimum
  over the row tiles below i + 1 (if j' < j) or below i (otherwise), the first accumulator is 0 before the last row
  tile and there the sum of the full column minima of the column tiles below j, and the second accumulator is the
  masked sum of the full row minima of the finished row tiles.  All of this is an invariant of one tile's step.
-/
import proofs.«414573_j7155415515634_3_alg».proof.Proof.Recur
import Mathlib.Data.EReal.Basic
import Mathlib.Algebra.BigOperators.Group.Finset.Basic
import Mathlib.Data.Finset.Fold
import Mathlib.Data.Fintype.Basic
import Mathlib.Algebra.BigOperators.Fin

noncomputable section

namespace Cert.Recur

/-! ### Minima and sums over the indices below a bound -/

/-- The indices of Fin m below k + 1 are k and the indices below k. -/
theorem filter_lt_succ {m : ℕ} (k : ℕ) (h : k < m) :
    (Finset.univ.filter fun a : Fin m => a.val < k + 1)
      = insert (⟨k, h⟩ : Fin m) (Finset.univ.filter fun a : Fin m => a.val < k) := by
  ext a
  simp only [Finset.mem_filter, Finset.mem_univ, true_and, Finset.mem_insert, Fin.ext_iff]
  omega

theorem not_mem_filter_lt {m : ℕ} (k : ℕ) (h : k < m) :
    (⟨k, h⟩ : Fin m) ∉ (Finset.univ.filter fun a : Fin m => a.val < k) := by
  simp

/-- The minimum of f over the indices below k (the top element if there are none). -/
def minBelow {m : ℕ} (k : ℕ) (f : Fin m → EReal) : EReal :=
  (Finset.univ.filter fun a : Fin m => a.val < k).fold min ⊤ f

theorem minBelow_zero {m : ℕ} (f : Fin m → EReal) : minBelow 0 f = ⊤ := by
  simp [minBelow]

theorem minBelow_succ {m : ℕ} (k : ℕ) (h : k < m) (f : Fin m → EReal) :
    minBelow (k + 1) f = min (f ⟨k, h⟩) (minBelow k f) := by
  unfold minBelow
  rw [filter_lt_succ k h, Finset.fold_insert (not_mem_filter_lt k h)]

theorem minBelow_one {m : ℕ} (h : 0 < m) (f : Fin m → EReal) : minBelow 1 f = f ⟨0, h⟩ := by
  rw [minBelow_succ 0 h, minBelow_zero, min_top_right]

theorem minBelow_full {m : ℕ} (f : Fin m → EReal) :
    minBelow m f = (Finset.univ : Finset (Fin m)).fold min ⊤ f := by
  unfold minBelow
  congr 1
  ext a
  simp

/-- The sum of f over the indices below k. -/
def sumBelow {m : ℕ} (k : ℕ) (f : Fin m → EReal) : EReal :=
  ∑ a ∈ Finset.univ.filter fun a : Fin m => a.val < k, f a

theorem sumBelow_zero {m : ℕ} (f : Fin m → EReal) : sumBelow 0 f = 0 := by
  simp [sumBelow]

theorem sumBelow_succ {m : ℕ} (k : ℕ) (h : k < m) (f : Fin m → EReal) :
    sumBelow (k + 1) f = sumBelow k f + f ⟨k, h⟩ := by
  unfold sumBelow
  rw [filter_lt_succ k h, Finset.sum_insert (not_mem_filter_lt k h), add_comm]

theorem sumBelow_full {m : ℕ} (f : Fin m → EReal) : sumBelow m f = ∑ a : Fin m, f a := by
  unfold sumBelow
  congr 1
  ext a
  simp

/-! ### The sweep, tile by tile -/

variable (T : Fin 4 → Fin 8 → Fin 1024 → Fin 512 → EReal) (M : Fin 4 → Fin 1024 → EReal)

/-- Tile number 8 * i + j is tile (i, j). -/
theorem run_succ (s0 : S) (i j : ℕ) (hi : i < 4) (hj : j < 8) :
    run T M s0 (8 * i + j + 1) = step T M ⟨i, hi⟩ ⟨j, hj⟩ (run T M s0 (8 * i + j)) := by
  have h : 8 * i + j < 32 := by omega
  have h1 : (8 * i + j) / 8 = i := by omega
  have h2 : (8 * i + j) % 8 = j := by omega
  simp only [run, h, dite_true, h1, h2]

/-- A property of the state after j tiles of row tile i that holds at the start, is kept by every tile, and passes from
the end of a row tile to the start of the next, holds all along the sweep. -/
theorem run_induction (s0 : S) (P : ℕ → ℕ → S → Prop)
    (h0 : P 0 0 s0)
    (hstep : ∀ (i j : ℕ) (hi : i < 4) (hj : j < 8) (s : S), P i j s → P i (j + 1) (step T M ⟨i, hi⟩ ⟨j, hj⟩ s))
    (hrow : ∀ (i : ℕ) (s : S), i < 3 → P i 8 s → P (i + 1) 0 s) :
    ∀ i j : ℕ, i < 4 → j ≤ 8 → P i j (run T M s0 (8 * i + j)) := by
  have inner : ∀ i : ℕ, i < 4 → P i 0 (run T M s0 (8 * i)) →
      ∀ j : ℕ, j ≤ 8 → P i j (run T M s0 (8 * i + j)) := by
    intro i hi hstart j
    induction j with
    | zero => intro _; exact hstart
    | succ j ih =>
      intro hj
      have hj' : j < 8 := by omega
      have := hstep i j hi hj' _ (ih (by omega))
      rw [← run_succ T M s0 i j hi hj'] at this
      exact this
  have outer : ∀ i : ℕ, i < 4 → P i 0 (run T M s0 (8 * i)) := by
    intro i
    induction i with
    | zero => intro _; exact h0
    | succ i ih =>
      intro hi
      have h8 := inner i (by omega) (ih (by omega)) 8 (le_refl 8)
      have := hrow i _ (by omega) h8
      have e : 8 * (i + 1) = 8 * i + 8 := by ring
      rw [e]
      exact this
  intro i j hi hj
  exact inner i hi (outer i hi) j hj

/-! ### The invariant -/

/-- What the state is after j tiles of row tile i (j ≤ 8). -/
def Inv (i j : ℕ) (s : S) : Prop :=
  (j ≠ 0 → ∀ i' : Fin 4, i'.val = i → ∀ r : Fin 1024,
      s.X r = minBelow j fun j' : Fin 8 => rowMin T i' j' r) ∧
  (∀ (j' : Fin 8) (q : Fin 512), (if j'.val < j then i + 1 else i) ≠ 0 →
      s.Y j' q = minBelow (if j'.val < j then i + 1 else i) fun i' : Fin 4 => colMin T i' j' q) ∧
  (¬(i = 0 ∧ j = 0) →
      s.l1 = if i = 3 then sumBelow j fun j' : Fin 8 => ∑ q : Fin 512, fullCol T j' q else 0) ∧
  (¬(i = 0 ∧ j = 0) →
      s.l2 = sumBelow (if j = 8 then i + 1 else i) fun i' : Fin 4 => ∑ r : Fin 1024, fullRow T i' r * M i' r)

/-- Nothing is claimed of the state the sweep starts from. -/
theorem inv_start (s0 : S) : Inv T M 0 0 s0 := by
  refine ⟨fun h => absurd rfl h, ?_, fun h => absurd ⟨rfl, rfl⟩ h, fun h => absurd ⟨rfl, rfl⟩ h⟩
  intro j' q h
  simp at h

/-- The end of a row tile is the start of the next. -/
theorem inv_row (i : ℕ) (s : S) (hi : i < 3) (h : Inv T M i 8 s) : Inv T M (i + 1) 0 s := by
  obtain ⟨_, hY, h1, h2⟩ := h
  refine ⟨fun h => absurd rfl h, ?_, ?_, ?_⟩
  · intro j' q _
    have hj' : j'.val < 8 := j'.isLt
    have := hY j' q (by simp [hj'])
    simpa [hj'] using this
  · intro _
    have := h1 (by omega)
    have hi3 : i ≠ 3 := by omega
    rw [if_neg hi3] at this
    rw [this]
    split
    · rw [sumBelow_zero]
    · rfl
  · intro _
    have := h2 (by omega)
    simpa using this

/-- The minimum over all 8 column tiles is the full row minimum, over all 4 row tiles the full column minimum. -/
theorem minBelow_rowMin_full (i : Fin 4) (r : Fin 1024) :
    (minBelow 8 fun j' : Fin 8 => rowMin T i j' r) = fullRow T i r := by
  rw [minBelow_full]; rfl

theorem minBelow_colMin_full (j : Fin 8) (q : Fin 512) :
    (minBelow 4 fun i' : Fin 4 => colMin T i' j q) = fullCol T j q := by
  rw [minBelow_full]; rfl

/-- The row minima after tile (i, j) are the minima over the column tiles below j + 1. -/
theorem nextX_eq (i j : ℕ) (hi : i < 4) (hj : j < 8) (s : S) (h : Inv T M i j s) (r : Fin 1024) :
    nextX T ⟨i, hi⟩ ⟨j, hj⟩ s r = minBelow (j + 1) fun j' : Fin 8 => rowMin T ⟨i, hi⟩ j' r := by
  rw [minBelow_succ j hj]
  unfold nextX
  by_cases hj0 : j = 0
  · subst hj0
    simp [minBelow_zero]
  · simp only [hj0, if_false]
    rw [h.1 hj0 ⟨i, hi⟩ rfl r, min_comm]

/-- Slice j of the column minima after tile (i, j) is the minimum over the row tiles below i + 1. -/
theorem nextYs_eq (i j : ℕ) (hi : i < 4) (hj : j < 8) (s : S) (h : Inv T M i j s) (q : Fin 512) :
    nextYs T ⟨i, hi⟩ ⟨j, hj⟩ s q = minBelow (i + 1) fun i' : Fin 4 => colMin T i' ⟨j, hj⟩ q := by
  rw [minBelow_succ i hi]
  unfold nextYs
  by_cases hi0 : i = 0
  · subst hi0
    simp [minBelow_zero]
  · have := h.2.1 ⟨j, hj⟩ q (by simp [hi0])
    simp only [lt_irrefl, if_false] at this
    simp only [hi0, if_false]
    rw [this, min_comm]

/-- One tile keeps the invariant. -/
theorem inv_step (i j : ℕ) (hi : i < 4) (hj : j < 8) (s : S) (h : Inv T M i j s) :
    Inv T M i (j + 1) (step T M ⟨i, hi⟩ ⟨j, hj⟩ s) := by
  have hX' := nextX_eq T M i j hi hj s h
  have hYs' := nextYs_eq T M i j hi hj s h
  obtain ⟨_, hY, h1, h2⟩ := h
  refine ⟨?_, ?_, ?_, ?_⟩
  · -- the row minima
    intro _ i' hi' r
    have e : i' = ⟨i, hi⟩ := Fin.ext hi'
    subst e
    exact hX' r
  · -- the column minima: slice j is renewed, the others are kept
    intro j' q hc
    dsimp only [step]
    by_cases hjj : j' = ⟨j, hj⟩
    · subst hjj
      rw [if_pos rfl, hYs' q]
      simp
    · have hne : j'.val ≠ j := fun e => hjj (Fin.ext e)
      have hiff : (j'.val < j + 1) = (j'.val < j) := by
        apply propext; omega
      rw [if_neg hjj]
      simp only [hiff] at hc ⊢
      exact hY j' q hc
  · -- the first accumulator gains a full column minimum's sum in the last row tile
    intro _
    dsimp only [step]
    by_cases hi3 : i = 3
    · subst hi3
      have hl1 := h1 (by omega)
      rw [if_pos rfl] at hl1
      have hfull : ∀ q : Fin 512, nextYs T ⟨3, hi⟩ ⟨j, hj⟩ s q = fullCol T ⟨j, hj⟩ q := by
        intro q
        rw [hYs' q]
        exact minBelow_colMin_full T ⟨j, hj⟩ q
      simp only [hfull]
      rw [if_pos trivial, if_pos trivial, if_neg (by omega), hl1, sumBelow_succ j hj]
    · rw [if_neg hi3, if_neg hi3]
      by_cases h00 : i = 0 ∧ j = 0
      · rw [if_pos h00]
      · rw [if_neg h00, h1 h00, if_neg hi3]
  · -- the second accumulator gains a full row minimum's masked sum after the last column tile
    intro _
    dsimp only [step]
    have hbase : (if i = 0 ∧ j = 0 then (0 : EReal) else s.l2)
        = sumBelow i fun i' : Fin 4 => ∑ r : Fin 1024, fullRow T i' r * M i' r := by
      by_cases h00 : i = 0 ∧ j = 0
      · rw [if_pos h00, h00.1, sumBelow_zero]
      · rw [if_neg h00, h2 h00, if_neg (by omega)]
    rw [hbase]
    by_cases hj7 : j = 7
    · subst hj7
      have hfull : ∀ r : Fin 1024, nextX T ⟨i, hi⟩ ⟨7, hj⟩ s r = fullRow T ⟨i, hi⟩ r := by
        intro r
        rw [hX' r]
        exact minBelow_rowMin_full T ⟨i, hi⟩ r
      simp only [hfull]
      rw [if_pos trivial, if_pos trivial, sumBelow_succ i hi]
    · rw [if_neg hj7, if_neg (by omega)]

/-- The invariant holds all along the sweep. -/
theorem inv_run (s0 : S) (i j : ℕ) (hi : i < 4) (hj : j ≤ 8) : Inv T M i j (run T M s0 (8 * i + j)) :=
  run_induction T M s0 (Inv T M) (inv_start T M s0)
    (fun i j hi hj s h => inv_step T M i j hi hj s h) (fun i s hi h => inv_row T M i s hi h) i j hi hj

/-- The first accumulator ends at the sum of the full column minima. -/
theorem run_l1 (s0 : S) : (run T M s0 32).l1 = ∑ j : Fin 8, ∑ q : Fin 512, fullCol T j q := by
  have h := (inv_run T M s0 3 8 (by omega) (le_refl 8)).2.2.1 (by omega)
  rw [if_pos rfl, sumBelow_full] at h
  exact h

/-- The second accumulator ends at the masked sum of the full row minima. -/
theorem run_l2 (s0 : S) : (run T M s0 32).l2 = ∑ i : Fin 4, ∑ r : Fin 1024, fullRow T i r * M i r := by
  have h := (inv_run T M s0 3 8 (by omega) (le_refl 8)).2.2.2 (by omega)
  rw [if_pos rfl, sumBelow_full] at h
  exact h

end Cert.Recur

end
-- ==== Proof.Bridge.lean ====
/-
  One batch's 32 points as the numeric sweep.

  Reading the four scratch buffers at their indices (the row scratch at (r, 0), slice j of the column scratch at lane
  q, the two accumulators at (0, 0)) turns the contents of the buffers into a state of the numeric recurrence, and one
  point of the grid into one tile's step of it, over the batch's tiles and mask rows.  Hence the 32 points of a batch
  are the recurrence's run from whatever the buffers held when the batch began, and what the batch's last point stores
  is the sum of the two accumulators at the run's end: the sums of the full minima.
-/
import proofs.«414573_j7155415515634_3_alg».proof.Proof.BatchDefs
import proofs.«414573_j7155415515634_3_alg».proof.Proof.Indep
import proofs.«414573_j7155415515634_3_alg».proof.Proof.PayApply
import proofs.«414573_j7155415515634_3_alg».proof.Proof.TileEntry
import proofs.«414573_j7155415515634_3_alg».proof.Proof.RecurFinal
import proofs.«414573_j7155415515634_3_alg».proof.Proof.Sched
import proofs.«414573_j7155415515634_3_alg».proof.Proof.Step

noncomputable section

namespace Cert.KernelIdeal.Hand

open Cert.KernelIdeal Cert.KernelIdeal.Gen
open Idealize.ShloMosaic Idealize.ShloMosaic.ValueIdx
open scoped BigOperators

/-! ## Reading the buffers -/

/-- A coordinate vector whose column tile is j. -/
def cj (j : Fin 8) : grid0.Coords := grid0.coords (pt 0 0 j)

theorem cj_val (j : Fin 8) : ((cj j) 2).val = j.val := by
  unfold cj
  rw [(coords_eq (pt 0 0 j)).2.2]
  show (32 * 0 + 8 * 0 + j.val) % 8 = j.val
  have := j.isLt
  omega

/-- The buffers' contents as a state of the numeric sweep. -/
def absSt (s : St Ideal) : Cert.Recur.S :=
  ⟨fun r => s.x (ix2 r 0), fun j q => ySl (cj j) s.y (ix2 0 q), s.l1 (ix2 0 0), s.l2 (ix2 0 0)⟩

/-- Two states of the sweep with the same four fields are equal. -/
theorem S_ext : ∀ (s s' : Cert.Recur.S), s.X = s'.X → s.Y = s'.Y → s.l1 = s'.l1 → s.l2 = s'.l2 → s = s'
  | ⟨_, _, _, _⟩, ⟨_, _, _, _⟩, rfl, rfl, rfl, rfl => rfl

theorem absSt_X (s : St Ideal) : (absSt s).X = fun r => s.x (ix2 r 0) := rfl
theorem absSt_Y (s : St Ideal) : (absSt s).Y = fun j q => ySl (cj j) s.y (ix2 0 q) := rfl
theorem absSt_l1 (s : St Ideal) : (absSt s).l1 = s.l1 (ix2 0 0) := rfl
theorem absSt_l2 (s : St Ideal) : (absSt s).l2 = s.l2 (ix2 0 0) := rfl

section Step
variable (T : Fin 4 → Fin 8 → Fin 1024 → Fin 512 → EReal) (M : Fin 4 → Fin 1024 → EReal)
  (i : Fin 4) (j : Fin 8) (s : Cert.Recur.S)
theorem step_X : (Cert.Recur.step T M i j s).X = Cert.Recur.nextX T i j s := rfl
theorem step_Y : (Cert.Recur.step T M i j s).Y = fun j' => if j' = j then Cert.Recur.nextYs T i j s else s.Y j' := rfl
theorem step_l1 : (Cert.Recur.step T M i j s).l1
    = if i.val = 3 then (if i.val = 0 ∧ j.val = 0 then 0 else s.l1) + ∑ q : Fin 512, Cert.Recur.nextYs T i j s q
      else (if i.val = 0 ∧ j.val = 0 then 0 else s.l1) := rfl
theorem step_l2 : (Cert.Recur.step T M i j s).l2
    = if j.val = 7 then (if i.val = 0 ∧ j.val = 0 then 0 else s.l2) + ∑ r : Fin 1024, Cert.Recur.nextX T i j s r * M i r
      else (if i.val = 0 ∧ j.val = 0 then 0 else s.l2) := rfl
end Step

/-! ## One point is one tile's step -/

section Point

variable (i : grid0.Coords) (x0 x1 : Vec Ideal S1x1024x128 .f32) (x2 x3 : Vec Ideal S1x512x128 .f32)
  (x4 : Vec Ideal S1x1024x1 .f32)

theorem stepSt_x (s : St Ideal) : (stepSt i x0 x1 x2 x3 x4 s).x = stepX i x0 x1 x2 x3 s.x := by
  simp only [stepSt]
theorem stepSt_y (s : St Ideal) : (stepSt i x0 x1 x2 x3 x4 s).y = stepY i x0 x1 x2 x3 s.y := by
  simp only [stepSt]
theorem stepSt_l1 (s : St Ideal) : (stepSt i x0 x1 x2 x3 x4 s).l1 = stepL1 i x0 x1 x2 x3 s.y s.l1 := by
  simp only [stepSt]
theorem stepSt_l2 (s : St Ideal) : (stepSt i x0 x1 x2 x3 x4 s).l2 = stepL2 i x0 x1 x2 x3 x4 s.x s.l2 := by
  simp only [stepSt]

variable (T : Fin 4 → Fin 8 → Fin 1024 → Fin 512 → EReal) (M : Fin 4 → Fin 1024 → EReal)
  (ii : Fin 4) (jj : Fin 8)

/-- The row scratch after the point is the sweep's next row minima. -/
theorem stepX_next (h2 : (i 2).val = jj.val) (hT : ∀ r q, T ii jj r q = tileP x0 x1 x2 x3 r q) (s : St Ideal)
    (r : Fin 1024) : stepX i x0 x1 x2 x3 s.x (ix2 r 0) = Cert.Recur.nextX T ii jj (absSt s) r := by
  rw [stepX_apply]
  simp only [Cert.Recur.nextX, Cert.Recur.rowMin, h2, tileK_apply, hT, absSt]

/-- The point's slice of the column scratch after the point is the sweep's next column minima of that slice. -/
theorem stepYs_next (h1 : (i 1).val = ii.val) (h2 : (i 2).val = jj.val)
    (hT : ∀ r q, T ii jj r q = tileP x0 x1 x2 x3 r q) (s : St Ideal) (q : Fin 512) :
    stepYs i x0 x1 x2 x3 (ySl i s.y) (ix2 0 q) = Cert.Recur.nextYs T ii jj (absSt s) q := by
  rw [stepYs_apply]
  have e : ySl (cj jj) s.y = ySl i s.y := ySl_congr i (cj jj) (by rw [cj_val, h2]) s.y
  simp only [Cert.Recur.nextYs, Cert.Recur.colMin, h1, tileK_apply, hT, absSt, e]

/-- The accumulators before the point's gains: cleared at the batch's first point. -/
theorem base1_eq (c1 : C1 i ↔ ii.val = 0 ∧ jj.val = 0) (s : St Ideal) [Decidable (C1 i)] :
    (if C1 i then k0_pay3 (F := Ideal) else s.l1 : Vec Ideal S1x1 .f32) (ix2 0 0)
      = if ii.val = 0 ∧ jj.val = 0 then 0 else (absSt s).l1 := by
  by_cases h : ii.val = 0 ∧ jj.val = 0
  · rw [if_pos (c1.mpr h), if_pos h, pay3_apply]
  · rw [if_neg (fun hc => h (c1.mp hc)), if_neg h, absSt_l1]

theorem base2_eq (c1 : C1 i ↔ ii.val = 0 ∧ jj.val = 0) (s : St Ideal) [Decidable (C1 i)] :
    (if C1 i then k0_pay4 (F := Ideal) else s.l2 : Vec Ideal S1x1 .f32) (ix2 0 0)
      = if ii.val = 0 ∧ jj.val = 0 then 0 else (absSt s).l2 := by
  by_cases h : ii.val = 0 ∧ jj.val = 0
  · rw [if_pos (c1.mpr h), if_pos h, pay4_apply]
  · rw [if_neg (fun hc => h (c1.mp hc)), if_neg h, absSt_l2]

/-- The row scratch. -/
theorem absSt_stepSt_X (h2 : (i 2).val = jj.val) (hT : ∀ r q, T ii jj r q = tileP x0 x1 x2 x3 r q) (s : St Ideal) :
    (absSt (stepSt i x0 x1 x2 x3 x4 s)).X = (Cert.Recur.step T M ii jj (absSt s)).X := by
  rw [absSt_X, step_X, stepSt_x]
  exact funext (stepX_next i x0 x1 x2 x3 T ii jj h2 hT s)

/-- The column scratch: the point's slice is renewed, the others are kept. -/
theorem absSt_stepSt_Y (h1 : (i 1).val = ii.val) (h2 : (i 2).val = jj.val)
    (hT : ∀ r q, T ii jj r q = tileP x0 x1 x2 x3 r q) (s : St Ideal) :
    (absSt (stepSt i x0 x1 x2 x3 x4 s)).Y = (Cert.Recur.step T M ii jj (absSt s)).Y := by
  rw [absSt_Y, step_Y, stepSt_y]
  funext j'
  by_cases hj : j' = jj
  · subst hj
    rw [if_pos rfl]
    funext q
    rw [ySl_congr i (cj j') (by rw [cj_val, h2]) _, ySl_stepY_same]
    exact stepYs_next i x0 x1 x2 x3 T ii j' h1 h2 hT s q
  · rw [if_neg hj, absSt_Y]
    funext q
    rw [ySl_stepY_other i x0 x1 x2 x3 (cj j') (by rw [cj_val, h2]; exact fun e => hj (Fin.ext e)) s.y]

/-- The first accumulator. -/
theorem absSt_stepSt_l1 (h1 : (i 1).val = ii.val) (h2 : (i 2).val = jj.val)
    (c1 : C1 i ↔ ii.val = 0 ∧ jj.val = 0) (c3 : C3 i ↔ ii.val = 3)
    (hT : ∀ r q, T ii jj r q = tileP x0 x1 x2 x3 r q) (s : St Ideal) :
    (absSt (stepSt i x0 x1 x2 x3 x4 s)).l1 = (Cert.Recur.step T M ii jj (absSt s)).l1 := by
  rw [absSt_l1, step_l1, stepSt_l1]
  unfold stepL1
  by_cases h3 : ii.val = 3
  · rw [if_pos (c3.mpr h3), if_pos h3, pay1_apply, base1_eq i ii jj c1 s]
    exact congrArg _ (Finset.sum_congr rfl fun q _ => stepYs_next i x0 x1 x2 x3 T ii jj h1 h2 hT s q)
  · rw [if_neg (fun hc => h3 (c3.mp hc)), if_neg h3, base1_eq i ii jj c1 s]

/-- The second accumulator. -/
theorem absSt_stepSt_l2 (h2 : (i 2).val = jj.val)
    (c1 : C1 i ↔ ii.val = 0 ∧ jj.val = 0) (c2 : C2 i ↔ jj.val = 7)
    (hT : ∀ r q, T ii jj r q = tileP x0 x1 x2 x3 r q) (hM : jj.val = 7 → ∀ r, M ii r = x4 (ix3 0 r 0))
    (s : St Ideal) :
    (absSt (stepSt i x0 x1 x2 x3 x4 s)).l2 = (Cert.Recur.step T M ii jj (absSt s)).l2 := by
  rw [absSt_l2, step_l2, stepSt_l2]
  unfold stepL2
  by_cases h7 : jj.val = 7
  · rw [if_pos (c2.mpr h7), if_pos h7, pay17_apply, base2_eq i ii jj c1 s]
    exact congrArg _ (Finset.sum_congr rfl fun r _ => by
      rw [stepX_next i x0 x1 x2 x3 T ii jj h2 hT s r, hM h7 r])
  · rw [if_neg (fun hc => h7 (c2.mp hc)), if_neg h7, base2_eq i ii jj c1 s]

/-- One point of the grid is one tile's step of the sweep. -/
theorem absSt_stepSt (h1 : (i 1).val = ii.val) (h2 : (i 2).val = jj.val)
    (c1 : C1 i ↔ ii.val = 0 ∧ jj.val = 0) (c2 : C2 i ↔ jj.val = 7) (c3 : C3 i ↔ ii.val = 3)
    (hT : ∀ r q, T ii jj r q = tileP x0 x1 x2 x3 r q) (hM : jj.val = 7 → ∀ r, M ii r = x4 (ix3 0 r 0))
    (s : St Ideal) :
    absSt (stepSt i x0 x1 x2 x3 x4 s) = Cert.Recur.step T M ii jj (absSt s) :=
  S_ext _ _ (absSt_stepSt_X i x0 x1 x2 x3 x4 T M ii jj h2 hT s) (absSt_stepSt_Y i x0 x1 x2 x3 x4 T M ii jj h1 h2 hT s)
    (absSt_stepSt_l1 i x0 x1 x2 x3 x4 T M ii jj h1 h2 c1 c3 hT s)
    (absSt_stepSt_l2 i x0 x1 x2 x3 x4 T M ii jj h2 c1 c2 hT hM s)

end Point

/-! ## The batch's points are the sweep's run -/

variable (m : (ℓ : Loc nD τ sig) → Buf (Elt Ideal) ℓ)

/-- Point (b, i, j) is tile (i, j)'s step over the batch's tiles and mask rows. -/
theorem absSt_stepAt (c : Dev nD) (b : Fin 8) (i : Fin 4) (j : Fin 8) (s : St Ideal) :
    absSt (stepAt m c (pt b i j) s) = Cert.Recur.step (Tb m c b) (Mb m c b) i j (absSt s) := by
  have hb := b.isLt
  have hi := i.isLt
  have hj := j.isLt
  have hv : (pt b i j).val = 32 * b.val + 8 * i.val + j.val := rfl
  obtain ⟨-, e1, e2⟩ := coords_eq (pt b i j)
  have h1 : ((grid0.coords (pt b i j)) 1).val = i.val := by rw [e1, hv]; omega
  have h2 : ((grid0.coords (pt b i j)) 2).val = j.val := by rw [e2, hv]; omega
  have c1 : C1 (grid0.coords (pt b i j)) ↔ i.val = 0 ∧ j.val = 0 := by rw [C1_iff, hv]; omega
  have c2 : C2 (grid0.coords (pt b i j)) ↔ j.val = 7 := by rw [C2_iff, hv]; omega
  have c3 : C3 (grid0.coords (pt b i j)) ↔ i.val = 3 := by rw [C3_iff, hv]; omega
  unfold stepAt
  refine absSt_stepSt _ _ _ _ _ _ (Tb m c b) (Mb m c b) i j h1 h2 c1 c2 c3 (fun r q => rfl) ?_ s
  intro h7 r
  have e : j = 7 := Fin.ext h7
  subst e
  rfl

/-- The contents before the batch's n-th point are the sweep's state after n tiles, from the contents at the batch's
    first point. -/
theorem absSt_stFrom (c : Dev nD) (s0 : St Ideal) (b : Fin 8) : ∀ n : ℕ, n ≤ 32 →
    absSt (stFrom m c s0 (32 * b.val + n))
      = Cert.Recur.run (Tb m c b) (Mb m c b) (absSt (stFrom m c s0 (32 * b.val))) n := by
  intro n
  induction n with
  | zero =>
    intro _
    simp only [Nat.add_zero, Cert.Recur.run]
  | succ n ih =>
    intro hn
    have hn' : n < 32 := hn
    have hb := b.isLt
    have hlt : 32 * b.val + n < cfg0.N := by rw [N_256]; omega
    have e : 32 * b.val + (n + 1) = (⟨32 * b.val + n, hlt⟩ : Fin cfg0.N).val + 1 := rfl
    have et : (⟨32 * b.val + n, hlt⟩ : Fin cfg0.N) = pt b ⟨n / 8, by omega⟩ ⟨n % 8, by omega⟩ := by
      apply Fin.ext
      show 32 * b.val + n = 32 * b.val + 8 * (n / 8) + n % 8
      omega
    rw [e, stFrom_succ m c s0 ⟨32 * b.val + n, hlt⟩]
    show absSt (stepAt m c ⟨32 * b.val + n, hlt⟩ (stFrom m c s0 (32 * b.val + n))) = _
    rw [et, absSt_stepAt, ih (Nat.le_of_lt hn')]
    simp only [Cert.Recur.run, hn', dite_true]

/-! ## What the batch's last point stores -/

/-- The batch's last point stores, at every index, the sum of the full column minima plus the masked sum of the full
    row minima, whatever the buffers held at the region's entry. -/
theorem outAt_eq_sums (c : Dev nD) (s0 : St Ideal) (b : Fin 8) (idx : S1x8x128.Idx) :
    outAt m c s0 (pt b 3 7) idx
      = (∑ j : Fin 8, ∑ q : Fin 512, Cert.Recur.fullCol (Tb m c b) j q)
        + ∑ i : Fin 4, ∑ r : Fin 1024, Cert.Recur.fullRow (Tb m c b) i r * Mb m c b i r := by
  have H := absSt_stFrom m c s0 b 32 (le_refl 32)
  have e : 32 * b.val + 32 = (pt b 3 7).val + 1 := rfl
  rw [e, stFrom_succ m c s0 (pt b 3 7)] at H
  have H1 := congrArg Cert.Recur.S.l1 H
  have H2 := congrArg Cert.Recur.S.l2 H
  rw [Cert.Recur.run_l1] at H1
  rw [Cert.Recur.run_l2] at H2
  unfold outAt outOf
  rw [pay2_apply, ← H1, ← H2]
  simp only [absSt, stepAt, stepSt]

end Cert.KernelIdeal.Hand

end
-- ==== Proof.Algebra.lean ====
/-
  Pure mathematics on the extended reals for this certificate.

  Part 1: on arrays whose entries are all real numbers, the pairwise term written with the three
  squared-distance sums grouped as  (S1 + S2) + sum (-2 a) (c w)  and subtracted at once, with
  w = e^(0 - lb), equals the pairwise term `P` of the specification, which subtracts S1 and S2 in
  turn, adds 2 * sum a (c w) and subtracts sum (c c) w, with w = e^(-lb).  Every entry being real, both
  sides are coercions of real numbers, and the identity is one of real arithmetic.

  Part 2: a minimum (a fold of `min` from +inf) or a sum over `Fin (a * n)` may be taken tile by tile:
  over the `a` tiles of the minima, or sums, over the `n` members  n * i + r  of tile i.  No finiteness
  is needed: the extended reals are a complete linear order and an additive commutative monoid.
-/
import proofs.«414573_j7155415515634_3_alg».proof.Proof.Spec
import Idealize.ShloMosaic.PureOps.Ideal
import Mathlib.Data.EReal.Basic
import Mathlib.Data.EReal.Operations
import Mathlib.Data.Fintype.Lattice
import Mathlib.Algebra.BigOperators.Fin
import Mathlib.Logic.Equiv.Fin.Basic
import Mathlib.Algebra.BigOperators.Group.Finset.Basic

noncomputable section

namespace Cert.Spec

open Idealize.ShloMosaic Idealize.ShloMosaic.ValueIdx

/-! ## Part 1: the two orders of operations agree on real entries -/

/-- The literal -2. -/
abbrev cm2 : EReal := Ideal.ofBits .f32 0xC0000000#32

/-- e^(0 - lb) at (b, y, d). -/
def wk (lb : A3.Idx → EReal) (b : Fin 8) (y : Fin 4096) (d : Fin 128) : EReal := Ideal.exp (c0 - lb (ix3 b y d))

/-- The pairwise term in the kernel's order of operations. -/
def Pk (mua la mub lb : A3.Idx → EReal) (b : Fin 8) (x y : Fin 4096) : EReal :=
  cmh * ((((c128 + ∑ d : Fin 128, la (ix3 b x d)) - ∑ d : Fin 128, lb (ix3 b y d))
      - ((∑ d : Fin 128, Ideal.exp (la (ix3 b x d)) * wk lb b y d + ∑ d : Fin 128, (mua (ix3 b x d) * mua (ix3 b x d)) * wk lb b y d)
          + ∑ d : Fin 128, (cm2 * mua (ix3 b x d)) * (mub (ix3 b y d) * wk lb b y d)))
      - ∑ d : Fin 128, mub (ix3 b y d) * (mub (ix3 b y d) * wk lb b y d))

/-- Every entry is a real number. -/
def Fin3 (a : A3.Idx → EReal) : Prop := ∀ i, ∃ r : ℝ, a i = (r : EReal)

/-- The word 0x00000000 denotes 0. -/
theorem c0_eq : c0 = 0 := by simp [Ideal.ofBits, Ideal.ieee]

/-- The word 0xC0000000 denotes the real -2. -/
theorem cm2_eq : cm2 = ((-2 : ℝ) : EReal) := by
  simp [Ideal.ofBits, Ideal.ieee, -EReal.coe_mul]; norm_num

/-- The word 0x40000000 denotes the real 2. -/
theorem c2_eq : c2 = ((2 : ℝ) : EReal) := by
  simp [Ideal.ofBits, Ideal.ieee, -EReal.coe_mul]; norm_num

/-- The word 0x43000000 denotes the real 128. -/
theorem c128_eq : c128 = ((128 : ℝ) : EReal) := by
  simp [Ideal.ofBits, Ideal.ieee, -EReal.coe_mul]; norm_num

/-- The word 0xBF000000 denotes the real -1/2. -/
theorem cmh_eq : cmh = ((-(1/2) : ℝ) : EReal) := by
  simp [Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in ℝ:  A - ((S1 + S2) + sum (-2 a)(c w)) - sum c (c w)
    = ((A - S1) - S2) + 2 * sum a (c w) - sum (c c) w,  under a common factor H, with w = e^(-k). -/
theorem real_identity (C H : ℝ) (l k m c : Fin 128 → ℝ) :
    H * ((((C + ∑ d, l d) - ∑ d, k d)
        - ((∑ d, Real.exp (l d) * Real.exp (-(k d)) + ∑ d, (m d * m d) * Real.exp (-(k d)))
            + ∑ d, (-2 * m d) * (c d * Real.exp (-(k d)))))
        - ∑ d, c d * (c d * Real.exp (-(k d))))
    = H * ((((((C + ∑ d, l d) - ∑ d, k d)
        - ∑ d, Real.exp (l d) * Real.exp (-(k d)))
        - ∑ d, (m d * m d) * Real.exp (-(k d)))
        + 2 * ∑ d, m d * (c d * Real.exp (-(k d))))
        - ∑ d, (c d * c d) * Real.exp (-(k d))) := by
  have e1 : ∑ d, (-2 * m d) * (c d * Real.exp (-(k d))) = -2 * ∑ d, m d * (c d * Real.exp (-(k d))) := by
    rw [Finset.mul_sum]; exact Finset.sum_congr rfl fun d _ => by ring
  have e2 : ∑ d, c d * (c d * Real.exp (-(k d))) = ∑ d, (c d * c d) * Real.exp (-(k d)) :=
    Finset.sum_congr rfl fun d _ => by ring
  rw [e1, e2]; ring

/-- On arrays of real entries the two orders of operations give the same pairwise term: each side is the
    coercion of a real number (0 + s = s, e^(0 - l) = e^(-l), and coercion commutes with sums, products,
    differences and the exponential), and the two real numbers are equal by `real_identity`. -/
theorem Pk_eq_P (mua la mub lb : A3.Idx → EReal) (h0 : Fin3 mua) (h1 : Fin3 la) (h2 : Fin3 mub) (h3 : Fin3 lb)
    (b : Fin 8) (x y : Fin 4096) :
    Pk mua la mub lb b x y = P mua la mub lb b x y := by
  choose m hm using h0
  choose l hl using h1
  choose c hc using h2
  choose k hk using h3
  simp only [Pk, P, wk, w, hm, hl, hc, hk, c0_eq, cm2_eq, c2_eq, c128_eq, cmh_eq, zero_sub, zero_add,
    ← EReal.coe_neg, Ideal.exp_coe, ← EReal.coe_mul, ← coe_sum, ← EReal.coe_add, ← EReal.coe_sub]
  exact congrArg _ (real_identity _ _ (fun d => l (ix3 b x d)) (fun d => k (ix3 b y d))
    (fun d => m (ix3 b x d)) (fun d => c (ix3 b y d)))

/-! ## Part 2: minima and sums tile by tile -/

/-- Member r of tile i, at position n * i + r, lies below a * n. -/
theorem tile_lt {a n : ℕ} (i : Fin a) (r : Fin n) : n * i.val + r.val < a * n :=
  calc n * i.val + r.val < n * i.val + n := by omega
    _ = n * (i.val + 1) := by ring
    _ ≤ n * a := Nat.mul_le_mul_left _ i.isLt
    _ = a * n := Nat.mul_comm _ _

/-- A fold of `min` from +inf over a finite type is the infimum of the family. -/
theorem fold_min_eq_iInf {ι : Type} [Fintype ι] (g : ι → EReal) :
    (Finset.univ : Finset ι).fold min ⊤ g = ⨅ i, g i := by
  rw [← Finset.inf_univ_eq_iInf]; rfl

/-- The minimum over `Fin (a * n)` is the minimum over the tiles of the minima within each tile:
    (i, r) ↦ n * i + r is a bijection of `Fin a × Fin n` with `Fin (a * n)`, and an infimum over a
    product is the iterated infimum. -/
theorem fold_min_tiles (a n : ℕ) (f : Fin (a * n) → EReal) :
    (Finset.univ : Finset (Fin a)).fold min ⊤ (fun i => (Finset.univ : Finset (Fin n)).fold min ⊤ fun r => f ⟨n * i.val + r.val, tile_lt i r⟩)
      = (Finset.univ : Finset (Fin (a * n))).fold min ⊤ f := by
  simp only [fold_min_eq_iInf]
  rw [← (finProdFinEquiv : Fin a × Fin n ≃ Fin (a * n)).iInf_comp, iInf_prod]
  refine iInf_congr fun i => iInf_congr fun r => congrArg f (Fin.ext ?_)
  simp [finProdFinEquiv, Nat.add_comm]

/-- The sum over `Fin (a * n)` is the sum over the tiles of the sums within each tile, by the same bijection. -/
theorem sum_tiles (a n : ℕ) (f : Fin (a * n) → EReal) :
    ∑ i : Fin a, ∑ r : Fin n, f ⟨n * i.val + r.val, tile_lt i r⟩ = ∑ x : Fin (a * n), f x := by
  rw [← Fintype.sum_prod_type']
  refine Fintype.sum_equiv finProdFinEquiv _ _ fun p => congrArg f (Fin.ext ?_)
  simp [finProdFinEquiv, Nat.add_comm]

/-- 4096 rows as 4 tiles of 1024: the minimum. -/
theorem fold_min_4x1024 (f : Fin 4096 → EReal) :
    (Finset.univ : Finset (Fin 4)).fold min ⊤ (fun i => (Finset.univ : Finset (Fin 1024)).fold min ⊤ fun r => f ⟨1024 * i.val + r.val, by omega⟩)
      = (Finset.univ : Finset (Fin 4096)).fold min ⊤ f :=
  fold_min_tiles 4 1024 f

/-- 4096 rows as 8 tiles of 512: the minimum. -/
theorem fold_min_8x512 (f : Fin 4096 → EReal) :
    (Finset.univ : Finset (Fin 8)).fold min ⊤ (fun j => (Finset.univ : Finset (Fin 512)).fold min ⊤ fun q => f ⟨512 * j.val + q.val, by omega⟩)
      = (Finset.univ : Finset (Fin 4096)).fold min ⊤ f :=
  fold_min_tiles 8 512 f

/-- 4096 rows as 4 tiles of 1024: the sum. -/
theorem sum_4x1024 (f : Fin 4096 → EReal) :
    ∑ i : Fin 4, ∑ r : Fin 1024, f ⟨1024 * i.val + r.val, by omega⟩ = ∑ x : Fin 4096, f x :=
  sum_tiles 4 1024 f

/-- 4096 rows as 8 tiles of 512: the sum. -/
theorem sum_8x512 (f : Fin 4096 → EReal) :
    ∑ j : Fin 8, ∑ q : Fin 512, f ⟨512 * j.val + q.val, by omega⟩ = ∑ y : Fin 4096, f y :=
  sum_tiles 8 512 f

end Cert.Spec

end
-- ==== Proof.Blocks.lean ====
/-
  The input windows' blocks read entry by entry off the argument arrays.

  At grid point t (batch t / 32, row tile t / 8 % 4, column tile t % 8) the first, second and fifth windows take
  block (batch, row tile, 0) of their arrays, the third and fourth block (batch, column tile, 0).  Entry (0, r, d)
  of a block is the array's entry at block index times block size plus the offset inside the block, on every axis.
  The fifth window's array is the mask [8, 4096] broadcast to [8, 4096, 1] before the region, so its entry
  (b, p, 0) is the mask's entry (b, p).
-/
import proofs.«414573_j7155415515634_3_alg».proof.Proof.Sched
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]

variable (m : (ℓ : Loc nD τ sig) → Buf (Elt F) ℓ)

/-! ## The windows' index maps over the grid -/

/-- The row-tile windows' block indices at point t: (t / 32, t / 8 % 4, 0). -/
theorem idx_row : ∀ t : Fin cfg0.N,
    (win0_0.index t (0 : Fin 3) = t.val / 32 ∧ win0_0.index t (1 : Fin 3) = t.val / 8 % 4 ∧ win0_0.index t (2 : Fin 3) = 0)
    ∧ (win0_1.index t (0 : Fin 3) = t.val / 32 ∧ win0_1.index t (1 : Fin 3) = t.val / 8 % 4 ∧ win0_1.index t (2 : Fin 3) = 0)
    ∧ (win0_4.index t (0 : Fin 3) = t.val / 32 ∧ win0_4.index t (1 : Fin 3) = t.val / 8 % 4 ∧ win0_4.index t (2 : Fin 3) = 0) :=
  (by decide +kernel : ∀ t : Fin grid0.N, _)

/-- The column-tile windows' block indices at point t: (t / 32, t % 8, 0). -/
theorem idx_col : ∀ t : Fin cfg0.N,
    (win0_2.index t (0 : Fin 3) = t.val / 32 ∧ win0_2.index t (1 : Fin 3) = t.val % 8 ∧ win0_2.index t (2 : Fin 3) = 0)
    ∧ (win0_3.index t (0 : Fin 3) = t.val / 32 ∧ win0_3.index t (1 : Fin 3) = t.val % 8 ∧ win0_3.index t (2 : Fin 3) = 0) :=
  (by decide +kernel : ∀ t : Fin grid0.N, _)

/-! ## The four windows on argument arrays -/

theorem b0_apply (c : Dev nD) (t : Fin cfg0.N) (r : Fin 1024) (d : Fin 128) :
    b0 m c t (ix3 0 r d) = (m ((c : Thread nD τ).loc main_arg0) : S8x4096x128.Idx → Elt F .f32)
      (ix3 ⟨t.val / 32, by have := t.isLt; have := N_256; omega⟩ ⟨1024 * (t.val / 8 % 4) + r.val, by omega⟩ d) := by
  show V m c main_arg0 (((cfg0.win 0).blk t).view.emb (ix3 0 r d)) = _
  rw [V_main_arg0]
  obtain ⟨⟨e0, e1, e2⟩, -, -⟩ := idx_row t
  refine congrArg _ (funext fun a => Fin.ext ?_)
  match a with
  | ⟨0, _⟩ => show win0_0.index t (0 : Fin 3) * 1 + 1 * 0 = t.val / 32; omega
  | ⟨1, _⟩ => show win0_0.index t (1 : Fin 3) * 1024 + 1 * r.val = 1024 * (t.val / 8 % 4) + r.val; omega
  | ⟨2, _⟩ => show win0_0.index t (2 : Fin 3) * 128 + 1 * d.val = d.val; omega

theorem b1_apply (c : Dev nD) (t : Fin cfg0.N) (r : Fin 1024) (d : Fin 128) :
    b1 m c t (ix3 0 r d) = (m ((c : Thread nD τ).loc main_arg1) : S8x4096x128.Idx → Elt F .f32)
      (ix3 ⟨t.val / 32, by have := t.isLt; have := N_256; omega⟩ ⟨1024 * (t.val / 8 % 4) + r.val, by omega⟩ d) := by
  show V m c main_arg1 (((cfg0.win 1).blk t).view.emb (ix3 0 r d)) = _
  rw [V_main_arg1]
  obtain ⟨-, ⟨e0, e1, e2⟩, -⟩ := idx_row t
  refine congrArg _ (funext fun a => Fin.ext ?_)
  match a with
  | ⟨0, _⟩ => show win0_1.index t (0 : Fin 3) * 1 + 1 * 0 = t.val / 32; omega
  | ⟨1, _⟩ => show win0_1.index t (1 : Fin 3) * 1024 + 1 * r.val = 1024 * (t.val / 8 % 4) + r.val; omega
  | ⟨2, _⟩ => show win0_1.index t (2 : Fin 3) * 128 + 1 * d.val = d.val; omega

theorem b2_apply (c : Dev nD) (t : Fin cfg0.N) (q : Fin 512) (d : Fin 128) :
    b2 m c t (ix3 0 q d) = (m ((c : Thread nD τ).loc main_arg2) : S8x4096x128.Idx → Elt F .f32)
      (ix3 ⟨t.val / 32, by have := t.isLt; have := N_256; omega⟩ ⟨512 * (t.val % 8) + q.val, by omega⟩ d) := by
  show V m c main_arg2 (((cfg0.win 2).blk t).view.emb (ix3 0 q d)) = _
  rw [V_main_arg2]
  obtain ⟨⟨e0, e1, e2⟩, -⟩ := idx_col t
  refine congrArg _ (funext fun a => Fin.ext ?_)
  match a with
  | ⟨0, _⟩ => show win0_2.index t (0 : Fin 3) * 1 + 1 * 0 = t.val / 32; omega
  | ⟨1, _⟩ => show win0_2.index t (1 : Fin 3) * 512 + 1 * q.val = 512 * (t.val % 8) + q.val; omega
  | ⟨2, _⟩ => show win0_2.index t (2 : Fin 3) * 128 + 1 * d.val = d.val; omega

theorem b3_apply (c : Dev nD) (t : Fin cfg0.N) (q : Fin 512) (d : Fin 128) :
    b3 m c t (ix3 0 q d) = (m ((c : Thread nD τ).loc main_arg3) : S8x4096x128.Idx → Elt F .f32)
      (ix3 ⟨t.val / 32, by have := t.isLt; have := N_256; omega⟩ ⟨512 * (t.val % 8) + q.val, by omega⟩ d) := by
  show V m c main_arg3 (((cfg0.win 3).blk t).view.emb (ix3 0 q d)) = _
  rw [V_main_arg3]
  obtain ⟨-, ⟨e0, e1, e2⟩⟩ := idx_col t
  refine congrArg _ (funext fun a => Fin.ext ?_)
  match a with
  | ⟨0, _⟩ => show win0_3.index t (0 : Fin 3) * 1 + 1 * 0 = t.val / 32; omega
  | ⟨1, _⟩ => show win0_3.index t (1 : Fin 3) * 512 + 1 * q.val = 512 * (t.val % 8) + q.val; omega
  | ⟨2, _⟩ => show win0_3.index t (2 : Fin 3) * 128 + 1 * d.val = d.val; omega

/-! ## The window on the broadcast mask -/

/-- The fifth window's array, as the region finds it: the mask with a unit axis appended. -/
theorem mask_arr (c : Dev nD) : (V m c main_v0 : S8x4096x1.Idx → Elt F .f32)
    = broadcastInDim S8x4096x1 ![0, 1] bcast_S8x4096_S8x4096x1_0_1 (m ((c : Thread nD τ).loc main_arg4)) := by
  show StableHlo.after hostOps0 (fun b => m (c, b)) (Proc.devRef .tc main_v0) = _
  after_results

theorem b4_apply (c : Dev nD) (t : Fin cfg0.N) (r : Fin 1024) :
    b4 m c t (ix3 0 r 0) = (m ((c : Thread nD τ).loc main_arg4) : S8x4096.Idx → Elt F .f32)
      (ix2 ⟨t.val / 32, by have := t.isLt; have := N_256; omega⟩ ⟨1024 * (t.val / 8 % 4) + r.val, by omega⟩) := by
  show V m c main_v0 (((cfg0.win 4).blk t).view.emb (ix3 0 r 0)) = _
  rw [mask_arr]
  obtain ⟨-, -, ⟨e0, e1, e2⟩⟩ := idx_row t
  refine broadcastInDim_apply _ _ _ _ _ (fun a => ?_)
  match a with
  | ⟨0, _⟩ => show t.val / 32 = win0_4.index t (0 : Fin 3) * 1 + 1 * 0; omega
  | ⟨1, _⟩ => show 1024 * (t.val / 8 % 4) + r.val = win0_4.index t (1 : Fin 3) * 1024 + 1 * r.val; omega

end Cert.KernelIdeal.Hand

end
-- ==== Proof.KValue.lean ====
/-
  One batch's value.  The tiles of a batch, as the body forms them from its input blocks, are the pairwise terms of the
  argument arrays: tile (i, j) of batch b at (r, q) is the term at rows x = 1024 i + r and y = 512 j + q, in the
  kernel's order of operations, which on arrays of real entries is the specification's order.  So the full column
  minima are the minima over all 4096 rows x, the full row minima the minima over all 4096 rows y, the mask's rows the
  mask's entries, and the two double sums the two sums of the specification's result for the batch.
-/
import proofs.«414573_j7155415515634_3_alg».proof.Proof.BatchDefs
import proofs.«414573_j7155415515634_3_alg».proof.Proof.Algebra
import proofs.«414573_j7155415515634_3_alg».proof.Proof.Spec
import proofs.«414573_j7155415515634_3_alg».proof.Proof.Recur
import proofs.«414573_j7155415515634_3_alg».proof.Proof.Tile
import proofs.«414573_j7155415515634_3_alg».proof.Proof.Blocks

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## A point's coordinates -/

theorem pt_batch (b : Fin 8) (i : Fin 4) (j : Fin 8) : (pt b i j).val / 32 = b.val := by
  show (32 * b.val + 8 * i.val + j.val) / 32 = b.val
  omega

theorem pt_row (b : Fin 8) (i : Fin 4) (j : Fin 8) : (pt b i j).val / 8 % 4 = i.val := by
  show (32 * b.val + 8 * i.val + j.val) / 8 % 4 = i.val
  omega

theorem pt_col (b : Fin 8) (i : Fin 4) (j : Fin 8) : (pt b i j).val % 8 = j.val := by
  show (32 * b.val + 8 * i.val + j.val) % 8 = j.val
  omega

/-- Two rank-3 indices with equal coordinates. -/
theorem ix3_eq {n0 n1 n2 : Nat} {a a' : Fin n0} {x x' : Fin n1} (d : Fin n2) (ha : a.val = a'.val) (hx : x.val = x'.val) :
    ix3 a x d = ix3 a' x' d := by
  rw [Fin.ext ha, Fin.ext hx]

/-- Two rank-2 indices with equal coordinates. -/
theorem ix2_eq {n0 n1 : Nat} {a a' : Fin n0} {x x' : Fin n1} (ha : a.val = a'.val) (hx : x.val = x'.val) :
    ix2 a x = ix2 a' x' := by
  rw [Fin.ext ha, Fin.ext hx]

/-! ## The blocks of a batch's points on the argument arrays -/

theorem b0_pt (c : Dev nD) (b : Fin 8) (i : Fin 4) (j : Fin 8) (r : Fin 1024) (d : Fin 128) :
    b0 m c (pt b i j) (ix3 0 r d) = (m ((c : Thread nD τ).loc main_arg0) : S8x4096x128.Idx → Elt Ideal .f32)
      (ix3 b ⟨1024 * i.val + r.val, by omega⟩ d) := by
  rw [b0_apply]
  exact congrArg _ (ix3_eq d (pt_batch b i j) (by show 1024 * ((pt b i j).val / 8 % 4) + r.val = _; rw [pt_row]))

theorem b1_pt (c : Dev nD) (b : Fin 8) (i : Fin 4) (j : Fin 8) (r : Fin 1024) (d : Fin 128) :
    b1 m c (pt b i j) (ix3 0 r d) = (m ((c : Thread nD τ).loc main_arg1) : S8x4096x128.Idx → Elt Ideal .f32)
      (ix3 b ⟨1024 * i.val + r.val, by omega⟩ d) := by
  rw [b1_apply]
  exact congrArg _ (ix3_eq d (pt_batch b i j) (by show 1024 * ((pt b i j).val / 8 % 4) + r.val = _; rw [pt_row]))

theorem b2_pt (c : Dev nD) (b : Fin 8) (i : Fin 4) (j : Fin 8) (q : Fin 512) (d : Fin 128) :
    b2 m c (pt b i j) (ix3 0 q d) = (m ((c : Thread nD τ).loc main_arg2) : S8x4096x128.Idx → Elt Ideal .f32)
      (ix3 b ⟨512 * j.val + q.val, by omega⟩ d) := by
  rw [b2_apply]
  exact congrArg _ (ix3_eq d (pt_batch b i j) (by show 512 * ((pt b i j).val % 8) + q.val = _; rw [pt_col]))

theorem b3_pt (c : Dev nD) (b : Fin 8) (i : Fin 4) (j : Fin 8) (q : Fin 512) (d : Fin 128) :
    b3 m c (pt b i j) (ix3 0 q d) = (m ((c : Thread nD τ).loc main_arg3) : S8x4096x128.Idx → Elt Ideal .f32)
      (ix3 b ⟨512 * j.val + q.val, by omega⟩ d) := by
  rw [b3_apply]
  exact congrArg _ (ix3_eq d (pt_batch b i j) (by show 512 * ((pt b i j).val % 8) + q.val = _; rw [pt_col]))

/-! ## The tiles and the mask's rows on the argument arrays -/

/-- Tile (i, j) of batch b at (r, q) is the pairwise term at rows 1024 i + r and 512 j + q, in the kernel's order. -/
theorem Tb_eq (c : Dev nD) (b : Fin 8) (i : Fin 4) (j : Fin 8) (r : Fin 1024) (q : Fin 512) :
    Tb m c b i j r q = Cert.Spec.Pk (m ((c : Thread nD τ).loc main_arg0)) (m ((c : Thread nD τ).loc main_arg1))
      (m ((c : Thread nD τ).loc main_arg2)) (m ((c : Thread nD τ).loc main_arg3)) b
      ⟨1024 * i.val + r.val, by omega⟩ ⟨512 * j.val + q.val, by omega⟩ := by
  unfold Tb tileP tw Cert.Spec.Pk Cert.Spec.wk
  simp only [b0_pt, b1_pt, b2_pt, b3_pt]

/-- Row r of the mask's rows of row tile i of batch b is the mask's entry at row 1024 i + r. -/
theorem Mb_eq (c : Dev nD) (b : Fin 8) (i : Fin 4) (r : Fin 1024) :
    Mb m c b i r = (m ((c : Thread nD τ).loc main_arg4) : S8x4096.Idx → Elt Ideal .f32)
      (ix2 b ⟨1024 * i.val + r.val, by omega⟩) := by
  unfold Mb
  rw [b4_apply]
  exact congrArg _ (ix2_eq (pt_batch b i 7) (by show 1024 * ((pt b i 7).val / 8 % 4) + r.val = _; rw [pt_row]))

/-! ## The batch's two sums -/

theorem sums_eq_G (c : Dev nD) (b : Fin 8)
    (h0 : Cert.Spec.Fin3 (m ((c : Thread nD τ).loc main_arg0))) (h1 : Cert.Spec.Fin3 (m ((c : Thread nD τ).loc main_arg1)))
    (h2 : Cert.Spec.Fin3 (m ((c : Thread nD τ).loc main_arg2))) (h3 : Cert.Spec.Fin3 (m ((c : Thread nD τ).loc main_arg3))) :
    (∑ j : Fin 8, ∑ q : Fin 512, Cert.Recur.fullCol (Tb m c b) j q)
        + ∑ i : Fin 4, ∑ r : Fin 1024, Cert.Recur.fullRow (Tb m c b) i r * Mb m c b i r
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) b := by
  have hcol : ∀ (j : Fin 8) (q : Fin 512), Cert.Recur.fullCol (Tb m c b) j q
      = Cert.Spec.minX (m ((c : Thread nD τ).loc main_arg0)) (m ((c : Thread nD τ).loc main_arg1))
          (m ((c : Thread nD τ).loc main_arg2)) (m ((c : Thread nD τ).loc main_arg3)) b ⟨512 * j.val + q.val, by omega⟩ := by
    intro j q
    unfold Cert.Recur.fullCol Cert.Recur.colMin Cert.Spec.minX
    simp only [Tb_eq, Cert.Spec.Pk_eq_P _ _ _ _ h0 h1 h2 h3]
    exact Cert.Spec.fold_min_4x1024 (fun x => Cert.Spec.P (m ((c : Thread nD τ).loc main_arg0)) (m ((c : Thread nD τ).loc main_arg1))
      (m ((c : Thread nD τ).loc main_arg2)) (m ((c : Thread nD τ).loc main_arg3)) b x ⟨512 * j.val + q.val, by omega⟩)
  have hrow : ∀ (i : Fin 4) (r : Fin 1024), Cert.Recur.fullRow (Tb m c b) i r
      = Cert.Spec.minY (m ((c : Thread nD τ).loc main_arg0)) (m ((c : Thread nD τ).loc main_arg1))
          (m ((c : Thread nD τ).loc main_arg2)) (m ((c : Thread nD τ).loc main_arg3)) b ⟨1024 * i.val + r.val, by omega⟩ := by
    intro i r
    unfold Cert.Recur.fullRow Cert.Recur.rowMin Cert.Spec.minY
    simp only [Tb_eq, Cert.Spec.Pk_eq_P _ _ _ _ h0 h1 h2 h3]
    exact Cert.Spec.fold_min_8x512 (fun y => Cert.Spec.P (m ((c : Thread nD τ).loc main_arg0)) (m ((c : Thread nD τ).loc main_arg1))
      (m ((c : Thread nD τ).loc main_arg2)) (m ((c : Thread nD τ).loc main_arg3)) b ⟨1024 * i.val + r.val, by omega⟩ y)
  simp only [hcol, hrow, Mb_eq]
  unfold Cert.Spec.G
  rw [Cert.Spec.c0_eq, zero_add, zero_add]
  congr 1
  · exact Cert.Spec.sum_8x512 (fun y => Cert.Spec.minX (m ((c : Thread nD τ).loc main_arg0)) (m ((c : Thread nD τ).loc main_arg1))
      (m ((c : Thread nD τ).loc main_arg2)) (m ((c : Thread nD τ).loc main_arg3)) b y)
  · exact Cert.Spec.sum_4x1024 (fun x => Cert.Spec.minY (m ((c : Thread nD τ).loc main_arg0)) (m ((c : Thread nD τ).loc main_arg1))
      (m ((c : Thread nD τ).loc main_arg2)) (m ((c : Thread nD τ).loc main_arg3)) b x
        * (m ((c : Thread nD τ).loc main_arg4) : S8x4096.Idx → Elt Ideal .f32) (ix2 b x))

end Cert.KernelIdeal.Hand

end
-- ==== Proof.RefValue.lean ====
import proofs.«414573_j7155415515634_3_alg».proof.Proof.Gen.ReferenceIdeal.Run
import proofs.«414573_j7155415515634_3_alg».proof.Proof.Gen.ReferenceIdeal.Read
import proofs.«414573_j7155415515634_3_alg».proof.Proof.Spec
import Idealize.ShloMosaic.PureOps.Reduce
import Idealize.ShloMosaic.PureOps.Ideal.Laws
import Idealize.ShloMosaic.Lib.ValueIdx

/-
  The reference program's result, read at batch b, is the specification's G b.

  Each stage of the program is read at an index given by its coordinates: the three sums over the feature axis, the
  three contractions over it, the pairwise term P at (b, x, y), the two minima of P (over x at fixed y, over y at fixed
  x) as folds of min from +inf, the two sums of the minima, and their sum.  The specification follows the program's
  order of operations, so every step is a reading at an index and an identification of two index functions; no
  arithmetic law is used.
-/

noncomputable section

namespace Cert.ReferenceIdeal.RefValue

open Cert.ReferenceIdeal Cert.ReferenceIdeal.Read Idealize.ShloMosaic Idealize.ShloMosaic.ValueIdx

/-! ## Two indices with equal coordinates are equal -/

theorem idx2_ext {n0 n1 : Nat} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

theorem idx3_ext {n0 n1 n2 : Nat} (f g : (⟨3, ![n0, n1, n2]⟩ : Shape).Idx) (h0 : (f 0).val = (g 0).val)
    (h1 : (f 1).val = (g 1).val) (h2 : (f 2).val = (g 2).val) : f = g :=
  funext fun a => Fin.ext (by match a with | ⟨0, _⟩ => exact h0 | ⟨1, _⟩ => exact h1 | ⟨2, _⟩ => exact h2)

variable (x0 x1 x2 x3 : (⟨S8x4096x128, .f32⟩ : BufTy).Contents (Elt Ideal))
  (x4 : (⟨S8x4096, .f32⟩ : BufTy).Contents (Elt Ideal))

/-! ## The elementwise stages over (b, y, d) -/

/-- e^(-lb) at (b, y, d). -/
theorem v1_at (b : Fin 8) (y : Fin 4096) (d : Fin 128) :
    val_main_v1 (F := Ideal) x3 (ix3 b y d) = Cert.Spec.w x3 b y d := by
  rw [val_main_v1_apply, val_main_v0_apply]
  rfl

/-! ## The three sums over the feature axis -/

/-- sum_d la at (b, x). -/
theorem v2_at (b : Fin 8) (x : Fin 4096) :
    val_main_v2 (F := Ideal) x1 (ix2 b x) = Cert.Spec.c0 + ∑ d : Fin 128, x1 (ix3 b x d) := by
  rw [val_main_v2_apply, val_main_cst_apply]
  refine congrArg (_ + ·) (Finset.sum_congr rfl fun k _ => ?_)
  exact congrArg x1 (idx3_ext _ _ rfl rfl rfl)

/-- sum_d lb at (b, y). -/
theorem v3_at (b : Fin 8) (y : Fin 4096) :
    val_main_v3 (F := Ideal) x3 (ix2 b y) = Cert.Spec.c0 + ∑ d : Fin 128, x3 (ix3 b y d) := by
  rw [val_main_v3_apply, val_main_cst_0_apply]
  refine congrArg (_ + ·) (Finset.sum_congr rfl fun k _ => ?_)
  exact congrArg x3 (idx3_ext _ _ rfl rfl rfl)

/-- sum_d mub^2 * w at (b, y). -/
theorem v12_at (b : Fin 8) (y : Fin 4096) :
    val_main_v12 (F := Ideal) x2 x3 (ix2 b y)
      = Cert.Spec.c0 + ∑ d : Fin 128, (x2 (ix3 b y d) * x2 (ix3 b y d)) * Cert.Spec.w x3 b y d := by
  rw [val_main_v12_apply, val_main_cst_1_apply]
  refine congrArg (_ + ·) (Finset.sum_congr rfl fun k _ => ?_)
  rw [show idx_main_v12 (ix2 b y) k = ix3 b y k from idx3_ext _ _ rfl rfl rfl, val_main_v11_apply, val_main_v10_apply,
    v1_at]
  rfl

/-! ## The three contractions over the feature axis, at (b, x, y) -/

/-- sum_d e^la * w. -/
theorem v5_at (b : Fin 8) (x y : Fin 4096) :
    val_main_v5 (F := Ideal) x1 x3 (ix3 b x y)
      = ∑ d : Fin 128, Ideal.exp (x1 (ix3 b x d)) * Cert.Spec.w x3 b y d := by
  rw [val_main_v5_apply]
  refine Finset.sum_congr rfl fun k _ => ?_
  rw [show lidx_main_v5 (ix3 b x y) k = ix3 b x k from idx3_ext _ _ rfl rfl rfl,
    show ridx_main_v5 (ix3 b x y) k = ix3 b y k from idx3_ext _ _ rfl rfl rfl, val_main_v4_apply, v1_at]
  rfl

/-- sum_d mua^2 * w. -/
theorem v7_at (b : Fin 8) (x y : Fin 4096) :
    val_main_v7 (F := Ideal) x0 x3 (ix3 b x y)
      = ∑ d : Fin 128, (x0 (ix3 b x d) * x0 (ix3 b x d)) * Cert.Spec.w x3 b y d := by
  rw [val_main_v7_apply]
  refine Finset.sum_congr rfl fun k _ => ?_
  rw [show lidx_main_v7 (ix3 b x y) k = ix3 b x k from idx3_ext _ _ rfl rfl rfl,
    show ridx_main_v7 (ix3 b x y) k = ix3 b y k from idx3_ext _ _ rfl rfl rfl, val_main_v6_apply, v1_at]
  rfl

/-- sum_d mua * (mub * w). -/
theorem v9_at (b : Fin 8) (x y : Fin 4096) :
    val_main_v9 (F := Ideal) x0 x2 x3 (ix3 b x y)
      = ∑ d : Fin 128, x0 (ix3 b x d) * (x2 (ix3 b y d) * Cert.Spec.w x3 b y d) := by
  rw [val_main_v9_apply]
  refine Finset.sum_congr rfl fun k _ => ?_
  rw [show lidx_main_v9 (ix3 b x y) k = ix3 b x k from idx3_ext _ _ rfl rfl rfl,
    show ridx_main_v9 (ix3 b x y) k = ix3 b y k from idx3_ext _ _ rfl rfl rfl, val_main_v8_apply, v1_at]
  rfl

/-! ## The broadcasts of the row sums to (b, x, y) -/

/-- 128 + sum_d la, a function of (b, x). -/
theorem v17_at (b : Fin 8) (x y : Fin 4096) :
    val_main_v17 (F := Ideal) x1 (ix3 b x y)
      = Cert.Spec.c128 + (Cert.Spec.c0 + ∑ d : Fin 128, x1 (ix3 b x d)) := by
  rw [val_main_v17_apply, val_main_v15_apply, val_main_v14_apply, val_main_cst_2_apply, val_main_v13_apply,
    show idx_main_v13 (idx_main_v17 (ix3 b x y)) = ix2 b x from idx2_ext _ _ rfl rfl, v2_at]
  rfl

/-- sum_d lb, a function of (b, y). -/
theorem v18_at (b : Fin 8) (x y : Fin 4096) :
    val_main_v18 (F := Ideal) x3 (ix3 b x y) = Cert.Spec.c0 + ∑ d : Fin 128, x3 (ix3 b y d) := by
  rw [val_main_v18_apply, val_main_v16_apply,
    show idx_main_v16 (idx_main_v18 (ix3 b x y)) = ix2 b y from idx2_ext _ _ rfl rfl, v3_at]

/-- sum_d mub^2 * w, a function of (b, y). -/
theorem v26_at (b : Fin 8) (x y : Fin 4096) :
    val_main_v26 (F := Ideal) x2 x3 (ix3 b x y)
      = Cert.Spec.c0 + ∑ d : Fin 128, (x2 (ix3 b y d) * x2 (ix3 b y d)) * Cert.Spec.w x3 b y d := by
  rw [val_main_v26_apply, val_main_v25_apply,
    show idx_main_v25 (idx_main_v26 (ix3 b x y)) = ix2 b y from idx2_ext _ _ rfl rfl, v12_at]

/-! ## The pairwise term -/

theorem v29_at (b : Fin 8) (x y : Fin 4096) :
    val_main_v29 (F := Ideal) x0 x1 x2 x3 (ix3 b x y) = Cert.Spec.P x0 x1 x2 x3 b x y := by
  rw [val_main_v29_apply, val_main_v28_apply, val_main_cst_4_apply, val_main_v27_apply, val_main_v24_apply,
    val_main_v21_apply, val_main_v20_apply, val_main_v19_apply, val_main_v23_apply, val_main_v22_apply,
    val_main_cst_3_apply, v17_at, v18_at, v5_at, v7_at, v9_at, v26_at]
  rfl

/-! ## The two minima of the pairwise term -/

/-- The word 0x7F800000 is +inf. -/
theorem inf_word : Ideal.ofBits .f32 0x7F800000#32 = (⊤ : EReal) := by simp [Ideal.ofBits, Ideal.ieee]

/-- (b, y) with x put back on axis 1 is (b, x, y). -/
theorem lift_d1 (h : S8x4096x4096.Reduces [1] S8x4096) (b : Fin 8) (y : Fin 4096) (k : Fin (S8x4096x4096.size 1)) :
    h.lift (ix2 b y) k = ix3 b (⟨k.val, k.isLt⟩ : Fin 4096) y := idx3_ext _ _ rfl rfl rfl

/-- (b, x) with y put back on axis 2 is (b, x, y). -/
theorem lift_d2 (h : S8x4096x4096.Reduces [2] S8x4096) (b : Fin 8) (x : Fin 4096) (k : Fin (S8x4096x4096.size 2)) :
    h.lift (ix2 b x) k = ix3 b x (⟨k.val, k.isLt⟩ : Fin 4096) := idx3_ext _ _ rfl rfl rfl

/-- The minimum over x, at (b, y). -/
theorem v30_at (b : Fin 8) (y : Fin 4096) :
    val_main_v30 (F := Ideal) x0 x1 x2 x3 (ix2 b y) = Cert.Spec.minX x0 x1 x2 x3 b y := by
  unfold val_main_v30
  have hP : ∀ x : Fin 4096, val_main_v29 (F := Ideal) x0 x1 x2 x3 (ix3 b x y) = Cert.Spec.P x0 x1 x2 x3 b x y :=
    fun x => v29_at x0 x1 x2 x3 b x y
  generalize val_main_v29 (F := Ideal) x0 x1 x2 x3 = y0 at hP ⊢
  have hR : S8x4096x4096.Reduces [1] S8x4096 := by decide
  refine (Host.reduce_eq_fold_single (FloatOps.minimumf (F := Ideal) (φ := .f32)) y0 (val_main_cst_5 (F := Ideal))
    Gen.reducesTo_S8x4096x4096_S8x4096_d1 hR Gen.h_S_ (ix2 b y)).trans ?_
  rw [val_main_cst_5_apply, Ideal.ofBits_def, inf_word]
  have hf : (y0 ∘ hR.lift (ix2 b y)) = fun x : Fin 4096 => Cert.Spec.P x0 x1 x2 x3 b x y :=
    funext fun k => (congrArg y0 (lift_d1 hR b y k)).trans (hP _)
  rw [hf]
  rfl

/-- The minimum over y, at (b, x). -/
theorem v32_at (b : Fin 8) (x : Fin 4096) :
    val_main_v32 (F := Ideal) x0 x1 x2 x3 (ix2 b x) = Cert.Spec.minY x0 x1 x2 x3 b x := by
  unfold val_main_v32
  have hP : ∀ y : Fin 4096, val_main_v29 (F := Ideal) x0 x1 x2 x3 (ix3 b x y) = Cert.Spec.P x0 x1 x2 x3 b x y :=
    fun y => v29_at x0 x1 x2 x3 b x y
  generalize val_main_v29 (F := Ideal) x0 x1 x2 x3 = y0 at hP ⊢
  have hR : S8x4096x4096.Reduces [2] S8x4096 := by decide
  refine (Host.reduce_eq_fold_single (FloatOps.minimumf (F := Ideal) (φ := .f32)) y0 (val_main_cst_7 (F := Ideal))
    Gen.reducesTo_S8x4096x4096_S8x4096_d2 hR Gen.h_S_ (ix2 b x)).trans ?_
  rw [val_main_cst_7_apply, Ideal.ofBits_def, inf_word]
  have hf : (y0 ∘ hR.lift (ix2 b x)) = fun y : Fin 4096 => Cert.Spec.P x0 x1 x2 x3 b x y :=
    funext fun k => (congrArg y0 (lift_d2 hR b x k)).trans (hP _)
  rw [hf]
  rfl

/-! ## The two sums of the minima, and the result -/

/-- sum_y min_x P, at b. -/
theorem v31_at (b : Fin 8) :
    val_main_v31 (F := Ideal) x0 x1 x2 x3 (ix1 b) = Cert.Spec.c0 + ∑ y : Fin 4096, Cert.Spec.minX x0 x1 x2 x3 b y := by
  rw [val_main_v31_apply, val_main_cst_6_apply]
  refine congrArg (_ + ·) (Finset.sum_congr rfl fun k _ => ?_)
  rw [show idx_main_v31 (ix1 b) k = ix2 b k from idx2_ext _ _ rfl rfl, v30_at]

/-- sum_x (min_y P) * mask, at b. -/
theorem v34_at (b : Fin 8) :
    val_main_v34 (F := Ideal) x0 x1 x2 x3 x4 (ix1 b)
      = Cert.Spec.c0 + ∑ x : Fin 4096, Cert.Spec.minY x0 x1 x2 x3 b x * x4 (ix2 b x) := by
  rw [val_main_v34_apply, val_main_cst_8_apply]
  refine congrArg (_ + ·) (Finset.sum_congr rfl fun k _ => ?_)
  rw [show idx_main_v34 (ix1 b) k = ix2 b k from idx2_ext _ _ rfl rfl, val_main_v33_apply, v32_at]
  rfl

/-- The reference's result at batch b is G b. -/
theorem ref_eq_G (x0 x1 x2 x3 : (⟨S8x4096x128, .f32⟩ : BufTy).Contents (Elt Ideal))
    (x4 : (⟨S8x4096, .f32⟩ : BufTy).Contents (Elt Ideal)) (b : Fin 8) :
    val_main_v35 (F := Ideal) x0 x1 x2 x3 x4 (ix1 b) = Cert.Spec.G x0 x1 x2 x3 x4 b := by
  rw [val_main_v35_apply, v31_at, v34_at]
  rfl

end Cert.ReferenceIdeal.RefValue

end
-- ==== Proof.PreFinite.lean ====
import proofs.«414573_j7155415515634_3_alg».proof.Pre_finite_inputs
import proofs.«414573_j7155415515634_3_alg».proof.Proof.Gen.Pre_finite_inputs
import Idealize.ShloMosaic.Lib.ReduceAll
import Idealize.ShloMosaic.Lib.ValueIdx
import Idealize.ShloMosaic.PureOps.Ideal.Laws

/-!
  The precondition read back at the ideal floats. The printed predicate is the conjunction, over the five input
  arrays, of "every entry has absolute value below +∞", delivered as one bit. If that bit is 1 then every entry of
  every array is a real number: an entry that is −∞ or +∞ has absolute value +∞, which is not below +∞.
-/

noncomputable section

namespace Cert.Pre_finite_inputs.Hand

open Idealize.ShloMosaic Cert.Pre_finite_inputs

/-- A shape of rank 0 has one index. -/
instance subsingleton_idx : Subsingleton S_.Idx := ⟨fun a b => funext fun d => d.elim0⟩

/-- The f32 word with all exponent bits set, sign and significand clear, denotes +∞. -/
theorem ofBits_inf : Ideal.ofBits .f32 0x7F800000#32 = (⊤ : EReal) := by
  simp [Ideal.ofBits, Ideal.ieee]

/-- An extended real whose absolute value `max x (-x)` is strictly below +∞ is a real number. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The same, stated on the printed comparison of one entry: `|x| < 0x7F800000` holds only of a real `x`. -/
theorem real_of_elem (x : Ideal .f32)
    (h : FloatOps.cmpf (F := Ideal) .olt (FloatOps.hostAbsf x) (FloatOps.ofBits (F := Ideal) .f32 0x7F800000#32) = 1#1) :
    ∃ r : ℝ, x = (r : EReal) := by
  rw [Ideal.cmpf_def, Ideal.hostAbsf_def, Ideal.absf_def, Ideal.ofBits_def, ofBits_inf] at h
  exact real_of_abs_lt_top x h

/-- If the printed precondition is 1, every entry of the five input arrays is a real number. -/
theorem finite_of_pre (a0 a1 a2 a3 : FVec Ideal S8x4096x128 .f32) (a4 : FVec Ideal S8x4096 .f32)
    (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  -- the four conjunctions of single bits, outermost first
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  -- each conjunct is a reduction by "and" over every axis: it is 1 only if every entry's comparison is 1
  refine ⟨fun i => real_of_elem (a0 i) ?_, fun i => real_of_elem (a1 i) ?_, fun i => real_of_elem (a2 i) ?_,
    fun i => real_of_elem (a3 i) ?_, fun i => real_of_elem (a4 i) ?_⟩
  · exact Host.reduce_andi_all _ _ _ _ ValueIdx.ix0 h0' i
  · exact Host.reduce_andi_all _ _ _ _ ValueIdx.ix0 h1 i
  · exact Host.reduce_andi_all _ _ _ _ ValueIdx.ix0 h2 i
  · exact Host.reduce_andi_all _ _ _ _ ValueIdx.ix0 h3 i
  · exact Host.reduce_andi_all _ _ _ _ ValueIdx.ix0 h4 i

end Cert.Pre_finite_inputs.Hand

end
-- ==== Proof.lean ====
/-
  The certificate: the tiled kernel for the pairwise divergences of two families of diagonal Gaussians and their two
  masked minimum sums computes, on finite inputs and over the extended reals, what the reference computes.

  For batch b the reference forms the 4096 x 4096 terms P b x y, takes their minima over x and over y, and returns
  sum_y min_x P + sum_x (min_y P) * mask.  The kernel walks an 8 x 4 x 8 grid of 1024 x 512 tiles, forms each tile with
  one contraction over the 384 concatenated features, and keeps running row minima, running column minima and two
  accumulators in scratch buffers carried from point to point; at the last point of a batch it stores the total.

  The three frames: each kernel program runs by the region's launch with an invariant that names the scratch buffers'
  contents at every point (Proof/Launch.lean and its word-level copy); the reference by its generated run.
  The value: the batch's sweep, read at the scratch buffers' indices, is a recurrence on numbers whose accumulators end at
  the sums of the full minima whatever it started from (Proof/Recur.lean, Proof/Bridge.lean); a tile's entry is the
  pairwise term in the kernel's order of operations, equal on finite inputs to the reference's (Proof/TileEntry.lean,
  Proof/Algebra.lean, Proof/KValue.lean); the result array is the eight stored blocks, and @main's tail picks entry
  [b, 0, 0] (Proof/Final.lean); the reference's result is the same function of the arguments (Proof/RefValue.lean).
-/
import proofs.«414573_j7155415515634_3_alg».proof.Defs
import proofs.«414573_j7155415515634_3_alg».proof.Proof.Gen.Kernel
import proofs.«414573_j7155415515634_3_alg».proof.Proof.Gen.KernelIdeal
import proofs.«414573_j7155415515634_3_alg».proof.Proof.Gen.ReferenceIdeal
import proofs.«414573_j7155415515634_3_alg».proof.Proof.Gen.Pre_finite_inputs
import proofs.«414573_j7155415515634_3_alg».proof.Proof.Gen.ReferenceIdeal.Run
import proofs.«414573_j7155415515634_3_alg».proof.Proof.Gen.ReferenceIdeal.Read
import proofs.«414573_j7155415515634_3_alg».proof.Proof.Launch
import proofs.«414573_j7155415515634_3_alg».proof.Proof.KLaunch
import proofs.«414573_j7155415515634_3_alg».proof.Proof.Final
import proofs.«414573_j7155415515634_3_alg».proof.Proof.Bridge
import proofs.«414573_j7155415515634_3_alg».proof.Proof.KValue
import proofs.«414573_j7155415515634_3_alg».proof.Proof.RefValue
import proofs.«414573_j7155415515634_3_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The value -/

section Value

open Cert.KernelIdeal Cert.KernelIdeal.Gen Cert.KernelIdeal.Hand

variable (m : (ℓ : Loc nD τ sig) → Buf (Elt Ideal) ℓ)

/-- The last point of batch b is point (b, 3, 7). -/
theorem lastPt_eq (b : Fin 8) : lastPt b = pt b 3 7 := Fin.ext (by show 32 * b.val + 31 = 32 * b.val + 8 * 3 + 7; omega)

/-- On finite inputs @main's result for batch b is the common function of the arguments. -/
theorem kernel_result (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = (fun _ => 1#1))
    (b : Fin 8) :
    (Pipeline.afterTail₀ cfgs (dats m) 0 (V0 m) [hostOps1] c main_v3 : S8.Idx → Elt Ideal .f32) (ix1 b)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b := by
  obtain ⟨h0, h1, h2, h3, -⟩ := Cert.Pre_finite_inputs.Hand.finite_of_pre _ _ _ _ _ hpre
  rw [result_v3, lastPt_eq, outAt_eq_sums]
  exact sums_eq_G m c b h0 h1 h2 h3

end Value

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun j => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) ⟨(j 0).val, (j 0).isLt⟩, ?_, ?_⟩
  · refine (θ_run Cert.KernelIdeal.defs _ _).mono (fun r h c => ⟨?_, Cert.KernelIdeal.Hand.args_of_post m h c⟩)
      (Cert.KernelIdeal.Hand.run_main (F := Ideal) m ρ)
    rw [Cert.KernelIdeal.Hand.result_of_post m h c]
    funext j
    rw [eq_ix1 j]
    exact kernel_result m c (hpre c) (j 0)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1, (hagree c).2.2.2.2]
    funext j
    rw [eq_ix1 j]
    exact Cert.ReferenceIdeal.RefValue.ref_eq_G _ _ _ _ _ (j 0)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
